-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S1000000 : Shape := ⟨1, ![1000000]⟩
abbrev S384x128 : Shape := ⟨2, ![384, 128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S384x128 : S_.BroadcastsInDim S384x128 (![] : Fin 0 → Fin S384x128.rank)
  reducesTo_S384x128_S_d0_1 : S384x128.ReducesTo [0, 1] S_
  bcast_S_S128x128 : S_.BroadcastsInDim S128x128 (![] : Fin 0 → Fin S128x128.rank)
  reducesTo_S128x128_S_d0_1 : S128x128.ReducesTo [0, 1] S_
  bcast_S_S1000000 : S_.BroadcastsInDim S1000000 (![] : Fin 0 → Fin S1000000.rank)
  reducesTo_S1000000_S_d0 : S1000000.ReducesTo [0] S_

variable [Facts]

def fn_part1 {F : FTy → Type} [FloatOps F] (main_arg2 : IVec S1000000 32) (main_v13 : IVec S_ 1) (main_v15 : IVec S1000000 1) (main_c_5 : IVec S_ 32) : IVec S_ 1 :=
  let main_v16 : IVec S1000000 32 := broadcastInDim S1000000 ![] bcast_S_S1000000 main_c_5
  let main_v17 : IVec S1000000 1 := cmpi .slt main_arg2 main_v16
  let main_v18 : IVec S1000000 1 := andi main_v15 main_v17
  let main_c_6 : IVec S_ 1 := constantI S_ 1 1#1
  let main_v19 : IVec S_ 1 := (fun x v => Host.reduce IntOp.andi x v reducesTo_S1000000_S_d0 h_S_) main_v18 main_c_6
  let main_v20 : IVec S_ 1 := andi main_v13 main_v19
  main_v20

def fn {F : FTy → Type} [FloatOps F] (main_arg0 : FVec F S50000x128 .f32) (main_arg1 : IVec S1000000 32) (main_arg2 : IVec S1000000 32) (main_arg3 : FVec F S384x128 .f32) (main_arg4 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S384x128 .f32 := Host.absf main_arg3
  let main_cst_0 : FVec F S_ .f32 := constant S_ .f32 0x7F800000#32
  let main_v5 : FVec F S384x128 .f32 := broadcastInDim S384x128 ![] bcast_S_S384x128 main_cst_0
  let main_v6 : IVec S384x128 1 := cmpf .olt main_v4 main_v5
  let main_c_1 : IVec S_ 1 := constantI S_ 1 1#1
  let main_v7 : IVec S_ 1 := (fun x v => Host.reduce IntOp.andi x v reducesTo_S384x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_c_4 : IVec S_ 32 := constantI S_ 32 4294917296#32
  let main_v14 : IVec S1000000 32 := broadcastInDim S1000000 ![] bcast_S_S1000000 main_c_4
  let main_v15 : IVec S1000000 1 := cmpi .sge main_arg2 main_v14
  let main_c_5 : IVec S_ 32 := constantI S_ 32 50000#32
  fn_part1 (F := F) main_arg2 main_v13 main_v15 main_c_5
-- ==== Kernel.lean ====
abbrev S50000x128 : Shape := ⟨2, ![50000, 128]⟩
abbrev S1000000 : Shape := ⟨1, ![1000000]⟩
abbrev S384x128 : Shape := ⟨2, ![384, 128]⟩
abbrev S128x128 : Shape := ⟨2, ![128, 128]⟩
abbrev S128x384 : Shape := ⟨2, ![128, 384]⟩
abbrev S50000x384 : Shape := ⟨2, ![50000, 384]⟩
abbrev S2000x128 : Shape := ⟨2, ![2000, 128]⟩
abbrev S2000x384 : Shape := ⟨2, ![2000, 384]⟩
abbrev S_ : Shape := ⟨0, ![]⟩
abbrev S1000000x1 : Shape := ⟨2, ![1000000, 1]⟩
abbrev S1 : Shape := ⟨1, ![1]⟩
abbrev S1x1 : Shape := ⟨2, ![1, 1]⟩
abbrev S1000000x128 : Shape := ⟨2, ![1000000, 128]⟩
abbrev S1000000x8 : Shape := ⟨2, ![1000000, 8]⟩
abbrev S5000x128 : Shape := ⟨2, ![5000, 128]⟩
abbrev S5000x8 : Shape := ⟨2, ![5000, 8]⟩
abbrev S5000x16 : Shape := ⟨2, ![5000, 16]⟩
abbrev S5000 : Shape := ⟨1, ![5000]⟩
abbrev S5000x1 : Shape := ⟨2, ![5000, 1]⟩
abbrev S50000x8 : Shape := ⟨2, ![50000, 8]⟩

abbrev nBuf : Space → Nat
  | .hbm => 118
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S1000000, .i32⟩
  | .hbm, ⟨2, _⟩ => ⟨S1000000, .i32⟩
  | .hbm, ⟨3, _⟩ => ⟨S384x128, .f32⟩
  | .hbm, ⟨4, _⟩ => ⟨S128x128, .f32⟩
  | .hbm, ⟨5, _⟩ => ⟨S50000x128, .bf16⟩
  | .hbm, ⟨6, _⟩ => ⟨S128x384, .f32⟩
  | .hbm, ⟨7, _⟩ => ⟨S128x384, .bf16⟩
  | .hbm, ⟨8, _⟩ => ⟨S50000x384, .f32⟩
  | .hbm, ⟨9, _⟩ => ⟨S50000x128, .f32⟩
  | .hbm, ⟨10, _⟩ => ⟨S50000x128, .f32⟩
  | .hbm, ⟨11, _⟩ => ⟨S50000x128, .f32⟩
  | .hbm, ⟨12, _⟩ => ⟨S_, .i32⟩
  | .hbm, ⟨13, _⟩ => ⟨S1000000, .i32⟩
  | .hbm, ⟨14, _⟩ => ⟨S1000000, .i1⟩
  | .hbm, ⟨15, _⟩ => ⟨S_, .i32⟩
  | .hbm, ⟨16, _⟩ => ⟨S1000000, .i32⟩
  | .hbm, ⟨17, _⟩ => ⟨S1000000, .i32⟩
  | .hbm, ⟨18, _⟩ => ⟨S1000000, .i32⟩
  | .hbm, ⟨19, _⟩ => ⟨S1000000x1, .i32⟩
  | .hbm, ⟨20, _⟩ => ⟨S1, .i32⟩
  | .hbm, ⟨21, _⟩ => ⟨S_, .i32⟩
  | .hbm, ⟨22, _⟩ => ⟨S1000000x1, .i32⟩
  | .hbm, ⟨23, _⟩ => ⟨S1000000x1, .i1⟩
  | .hbm, ⟨24, _⟩ => ⟨S1x1, .i32⟩
  | .hbm, ⟨25, _⟩ => ⟨S1000000x1, .i32⟩
  | .hbm, ⟨26, _⟩ => ⟨S1000000x1, .i1⟩
  | .hbm, ⟨27, _⟩ => ⟨S1000000x1, .i1⟩
  | .hbm, ⟨28, _⟩ => ⟨S_, .i1⟩
  | .hbm, ⟨29, _⟩ => ⟨S1000000, .i1⟩
  | .hbm, ⟨30, _⟩ => ⟨S1000000x128, .f32⟩
  | .hbm, ⟨31, _⟩ => ⟨S1000000x128, .i1⟩
  | .hbm, ⟨32, _⟩ => ⟨S_, .f32⟩
  | .hbm, ⟨33, _⟩ => ⟨S1000000x128, .f32⟩
  | .hbm, ⟨34, _⟩ => ⟨S1000000x128, .f32⟩
  | .hbm, ⟨35, _⟩ => ⟨S_, .i32⟩
  | .hbm, ⟨36, _⟩ => ⟨S1000000, .i32⟩
  | .hbm, ⟨37, _⟩ => ⟨S1000000, .i1⟩
  | .hbm, ⟨38, _⟩ => ⟨S_, .i32⟩
  | .hbm, ⟨39, _⟩ => ⟨S1000000, .i32⟩
  | .hbm, ⟨40, _⟩ => ⟨S1000000, .i32⟩
  | .hbm, ⟨41, _⟩ => ⟨S1000000, .i32⟩
  | .hbm, ⟨42, _⟩ => ⟨S1000000x1, .i32⟩
  | .hbm, ⟨43, _⟩ => ⟨S1, .i32⟩
  | .hbm, ⟨44, _⟩ => ⟨S_, .i32⟩
  | .hbm, ⟨45, _⟩ => ⟨S1000000x1, .i32⟩
  | .hbm, ⟨46, _⟩ => ⟨S1000000x1, .i1⟩
  | .hbm, ⟨47, _⟩ => ⟨S1x1, .i32⟩
  | .hbm, ⟨48, _⟩ => ⟨S1000000x1, .i32⟩
  | .hbm, ⟨49, _⟩ => ⟨S1000000x1, .i1⟩
  | .hbm, ⟨50, _⟩ => ⟨S1000000x1, .i1⟩
  | .hbm, ⟨51, _⟩ => ⟨S_, .i1⟩
  | .hbm, ⟨52, _⟩ => ⟨S1000000, .i1⟩
  | .hbm, ⟨53, _⟩ => ⟨S1000000x128, .f32⟩
  | .hbm, ⟨54, _⟩ => ⟨S1000000x128, .i1⟩
  | .hbm, ⟨55, _⟩ => ⟨S_, .f32⟩
  | .hbm, ⟨56, _⟩ => ⟨S1000000x128, .f32⟩
  | .hbm, ⟨57, _⟩ => ⟨S1000000x128, .f32⟩
  | .hbm, ⟨58, _⟩ => ⟨S_, .i32⟩
  | .hbm, ⟨59, _⟩ => ⟨S1000000, .i32⟩
  | .hbm, ⟨60, _⟩ => ⟨S1000000, .i1⟩
  | .hbm, ⟨61, _⟩ => ⟨S_, .i32⟩
  | .hbm, ⟨62, _⟩ => ⟨S1000000, .i32⟩
  | .hbm, ⟨63, _⟩ => ⟨S1000000, .i32⟩
  | .hbm, ⟨64, _⟩ => ⟨S1000000, .i32⟩
  | .hbm, ⟨65, _⟩ => ⟨S1000000x1, .i32⟩
  | .hbm, ⟨66, _⟩ => ⟨S1, .i32⟩
  | .hbm, ⟨67, _⟩ => ⟨S_, .i32⟩
  | .hbm, ⟨68, _⟩ => ⟨S1000000x1, .i32⟩
  | .hbm, ⟨69, _⟩ => ⟨S1000000x1, .i1⟩
  | .hbm, ⟨70, _⟩ => ⟨S1x1, .i32⟩
  | .hbm, ⟨71, _⟩ => ⟨S1000000x1, .i32⟩
  | .hbm, ⟨72, _⟩ => ⟨S1000000x1, .i1⟩
  | .hbm, ⟨73, _⟩ => ⟨S1000000x1, .i1⟩
  | .hbm, ⟨74, _⟩ => ⟨S_, .i1⟩
  | .hbm, ⟨75, _⟩ => ⟨S1000000, .i1⟩
  | .hbm, ⟨76, _⟩ => ⟨S1000000x128, .f32⟩
  | .hbm, ⟨77, _⟩ => ⟨S1000000x128, .i1⟩
  | .hbm, ⟨78, _⟩ => ⟨S_, .f32⟩
  | .hbm, ⟨79, _⟩ => ⟨S1000000x128, .f32⟩
  | .hbm, ⟨80, _⟩ => ⟨S1000000x128, .f32⟩
  | .hbm, ⟨81, _⟩ => ⟨S1000000x8, .f32⟩
  | .hbm, ⟨82, _⟩ => ⟨S_, .f32⟩
  | .hbm, ⟨83, _⟩ => ⟨S50000x8, .f32⟩
  | .hbm, ⟨84, _⟩ => ⟨S1000000x1, .i32⟩
  | .hbm, ⟨85, _⟩ => ⟨S50000x8, .f32⟩
  | .hbm, ⟨86, _⟩ => ⟨S_, .i32⟩
  | .hbm, ⟨87, _⟩ => ⟨S1000000, .i32⟩
  | .hbm, ⟨88, _⟩ => ⟨S1000000, .i1⟩
  | .hbm, ⟨89, _⟩ => ⟨S_, .i32⟩
  | .hbm, ⟨90, _⟩ => ⟨S1000000, .i32⟩
  | .hbm, ⟨91, _⟩ => ⟨S1000000, .i32⟩
  | .hbm, ⟨92, _⟩ => ⟨S1000000, .i32⟩
  | .hbm, ⟨93, _⟩ => ⟨S1000000x1, .i32⟩
  | .hbm, ⟨94, _⟩ => ⟨S1, .i32⟩
  | .hbm, ⟨95, _⟩ => ⟨S_, .i32⟩
  | .hbm, ⟨96, _⟩ => ⟨S1000000x1, .i32⟩
  | .hbm, ⟨97, _⟩ => ⟨S1000000x1, .i1⟩
  | .hbm, ⟨98, _⟩ => ⟨S1x1, .i32⟩
  | .hbm, ⟨99, _⟩ => ⟨S1000000x1, .i32⟩
  | .hbm, ⟨100, _⟩ => ⟨S1000000x1, .i1⟩
  | .hbm, ⟨101, _⟩ => ⟨S1000000x1, .i1⟩
  | .hbm, ⟨102, _⟩ => ⟨S_, .i1⟩
  | .hbm, ⟨103, _⟩ => ⟨S1000000, .i1⟩
  | .hbm, ⟨104, _⟩ => ⟨S1000000x8, .f32⟩
  | .hbm, ⟨105, _⟩ => ⟨S1000000x8, .i1⟩
  | .hbm, ⟨106, _⟩ => ⟨S_, .f32⟩
  | .hbm, ⟨107, _⟩ => ⟨S1000000x8, .f32⟩
  | .hbm, ⟨108, _⟩ => ⟨S1000000x8, .f32⟩
  | .hbm, ⟨109, _⟩ => ⟨S1000000x128, .f32⟩
  | .hbm, ⟨110, _⟩ => ⟨S_, .f32⟩
  | .hbm, ⟨111, _⟩ => ⟨S50000x128, .f32⟩
  | .hbm, ⟨112, _⟩ => ⟨S1000000x1, .i32⟩
  | .hbm, ⟨113, _⟩ => ⟨S50000x128, .f32⟩
  | .hbm, ⟨114, _⟩ => ⟨S50000x128, .bf16⟩
  | .hbm, ⟨115, _⟩ => ⟨S128x128, .f32⟩
  | .hbm, ⟨116, _⟩ => ⟨S128x128, .bf16⟩
  | .hbm, ⟨117, _⟩ => ⟨S50000x128, .f32⟩
  | .local _ .vmem, ⟨0, _⟩ => ⟨S2000x128, .bf16⟩
  | .local _ .vmem, ⟨1, _⟩ => ⟨S2000x128, .bf16⟩
  | .local _ .vmem, ⟨2, _⟩ => ⟨S128x384, .bf16⟩
  | .local _ .vmem, ⟨3, _⟩ => ⟨S2000x384, .f32⟩
  | .local _ .vmem, ⟨4, _⟩ => ⟨S2000x384, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x8, .f32⟩
  | .local _ .vmem, ⟨10, _⟩ => ⟨S5000x8, .f32⟩
  | .local _ .vmem, ⟨11, _⟩ => ⟨S5000x8, .f32⟩
  | .local _ .vmem, ⟨12, _⟩ => ⟨S5000x8, .f32⟩
  | .local _ .vmem, ⟨13, _⟩ => ⟨S5000x8, .f32⟩
  | .local _ .vmem, ⟨14, _⟩ => ⟨S5000x8, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S2000x128, .bf16⟩
  | .local _ .vmem, ⟨20, _⟩ => ⟨S2000x128, .bf16⟩
  | .local _ .vmem, ⟨21, _⟩ => ⟨S128x128, .bf16⟩
  | .local _ .vmem, ⟨22, _⟩ => ⟨S2000x128, .f32⟩
  | .local _ .vmem, ⟨23, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v7 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v8 : Ref sig .tc := ⟨.hbm, 57, rfl⟩
abbrev main_call2_c : Ref sig .tc := ⟨.hbm, 58, rfl⟩
abbrev main_call2_v0 : Ref sig .tc := ⟨.hbm, 59, rfl⟩
abbrev main_call2_v1 : Ref sig .tc := ⟨.hbm, 60, rfl⟩
abbrev main_call2_c_0 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_c_1 : Ref sig .tc := ⟨.hbm, 66, rfl⟩
abbrev main_call2_c_2 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_c_3 : Ref sig .tc := ⟨.hbm, 74, rfl⟩
abbrev main_call2_v12 : Ref sig .tc := ⟨.hbm, 75, rfl⟩
abbrev main_call2_v13 : Ref sig .tc := ⟨.hbm, 76, rfl⟩
abbrev main_call2_v14 : Ref sig .tc := ⟨.hbm, 77, rfl⟩
abbrev main_call2_cst : Ref sig .tc := ⟨.hbm, 78, rfl⟩
abbrev main_call2_v15 : Ref sig .tc := ⟨.hbm, 79, rfl⟩
abbrev main_v9 : Ref sig .tc := ⟨.hbm, 80, rfl⟩
abbrev main_v10 : Ref sig .tc := ⟨.hbm, 81, rfl⟩
abbrev main_cst : Ref sig .tc := ⟨.hbm, 82, rfl⟩
abbrev main_v11 : Ref sig .tc := ⟨.hbm, 83, rfl⟩
abbrev main_v12 : Ref sig .tc := ⟨.hbm, 84, rfl⟩
abbrev main_v13 : Ref sig .tc := ⟨.hbm, 85, rfl⟩
abbrev main_call3_c : Ref sig .tc := ⟨.hbm, 86, rfl⟩
abbrev main_call3_v0 : Ref sig .tc := ⟨.hbm, 87, rfl⟩
abbrev main_call3_v1 : Ref sig .tc := ⟨.hbm, 88, rfl⟩
abbrev main_call3_c_0 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_v5 : Ref sig .tc := ⟨.hbm, 93, rfl⟩
abbrev main_call3_c_1 : Ref sig .tc := ⟨.hbm, 94, rfl⟩
abbrev main_call3_c_2 : Ref sig .tc := ⟨.hbm, 95, rfl⟩
abbrev main_call3_v6 : Ref sig .tc := ⟨.hbm, 96, rfl⟩
abbrev main_call3_v7 : Ref sig .tc := ⟨.hbm, 97, rfl⟩
abbrev main_call3_v8 : Ref sig .tc := ⟨.hbm, 98, rfl⟩
abbrev main_call3_v9 : Ref sig .tc := ⟨.hbm, 99, rfl⟩
abbrev main_call3_v10 : Ref sig .tc := ⟨.hbm, 100, rfl⟩
abbrev main_call3_v11 : Ref sig .tc := ⟨.hbm, 101, rfl⟩
abbrev main_call3_c_3 : Ref sig .tc := ⟨.hbm, 102, rfl⟩
abbrev main_call3_v12 : Ref sig .tc := ⟨.hbm, 103, rfl⟩
abbrev main_call3_v13 : Ref sig .tc := ⟨.hbm, 104, rfl⟩
abbrev main_call3_v14 : Ref sig .tc := ⟨.hbm, 105, rfl⟩
abbrev main_call3_cst : Ref sig .tc := ⟨.hbm, 106, rfl⟩
abbrev main_call3_v15 : Ref sig .tc := ⟨.hbm, 107, rfl⟩
abbrev main_v14 : Ref sig .tc := ⟨.hbm, 108, rfl⟩
abbrev main_v15 : Ref sig .tc := ⟨.hbm, 109, rfl⟩
abbrev main_cst_0 : Ref sig .tc := ⟨.hbm, 110, rfl⟩
abbrev main_v16 : Ref sig .tc := ⟨.hbm, 111, rfl⟩
abbrev main_v17 : Ref sig .tc := ⟨.hbm, 112, rfl⟩
abbrev main_v18 : Ref sig .tc := ⟨.hbm, 113, rfl⟩
abbrev main_v19 : Ref sig .tc := ⟨.hbm, 114, rfl⟩
abbrev main_v20 : Ref sig .tc := ⟨.hbm, 115, rfl⟩
abbrev main_v21 : Ref sig .tc := ⟨.hbm, 116, rfl⟩
abbrev main_v22 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x8 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  bitsLt_bf16_f32 : FTy.bits .bf16 < FTy.bits .f32
  transposes_S384x128_S128x384_1_0 : S384x128.Transposes [1, 0] S128x384
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S2000x384_S2000x384_0_0 : ∀ a, (![0, 0] : Fin 2 → Nat) a + S2000x384.size a ≤ S2000x384.size a
  h_S2000x384 : 0 < S2000x384.numel
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  reducesTo_S1000000x1_S1000000_d1 : S1000000x1.ReducesTo [1] S1000000
  h_S_ : 0 < S_.numel
  bcast_S1000000_S1000000x128_0 : S1000000.BroadcastsInDim S1000000x128 (![0] : Fin 1 → Fin S1000000x128.rank)
  bcast_S_S1000000x128 : S_.BroadcastsInDim S1000000x128 (![] : Fin 0 → Fin S1000000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  slices_S5000x128_o0_0_S5000x16 : S5000x128.Slices ![0, 0] S5000x16
  reduces_S5000x16_S5000 : S5000x16.Reduces [1] S5000
  shapeCasts_S5000_S5000x1 : S5000.ShapeCasts S5000x1
  inb_S5000x8_S5000x1_0_0 : ∀ a, (![0, 0] : Fin 2 → Nat) a + S5000x1.size a ≤ S5000x8.size a
  h_S5000x1 : 0 < S5000x1.numel
  slices_S5000x128_o0_16_S5000x16 : S5000x128.Slices ![0, 16] S5000x16
  inb_S5000x8_S5000x1_0_1 : ∀ a, (![0, 1] : Fin 2 → Nat) a + S5000x1.size a ≤ S5000x8.size a
  slices_S5000x128_o0_32_S5000x16 : S5000x128.Slices ![0, 32] S5000x16
  inb_S5000x8_S5000x1_0_2 : ∀ a, (![0, 2] : Fin 2 → Nat) a + S5000x1.size a ≤ S5000x8.size a
  slices_S5000x128_o0_48_S5000x16 : S5000x128.Slices ![0, 48] S5000x16
  inb_S5000x8_S5000x1_0_3 : ∀ a, (![0, 3] : Fin 2 → Nat) a + S5000x1.size a ≤ S5000x8.size a
  slices_S5000x128_o0_64_S5000x16 : S5000x128.Slices ![0, 64] S5000x16
  inb_S5000x8_S5000x1_0_4 : ∀ a, (![0, 4] : Fin 2 → Nat) a + S5000x1.size a ≤ S5000x8.size a
  slices_S5000x128_o0_80_S5000x16 : S5000x128.Slices ![0, 80] S5000x16
  inb_S5000x8_S5000x1_0_5 : ∀ a, (![0, 5] : Fin 2 → Nat) a + S5000x1.size a ≤ S5000x8.size a
  slices_S5000x128_o0_96_S5000x16 : S5000x128.Slices ![0, 96] S5000x16
  inb_S5000x8_S5000x1_0_6 : ∀ a, (![0, 6] : Fin 2 → Nat) a + S5000x1.size a ≤ S5000x8.size a
  slices_S5000x128_o0_112_S5000x16 : S5000x128.Slices ![0, 112] S5000x16
  inb_S5000x8_S5000x1_0_7 : ∀ a, (![0, 7] : Fin 2 → Nat) a + S5000x1.size a ≤ S5000x8.size a
  bcast_S_S50000x8 : S_.BroadcastsInDim S50000x8 (![] : Fin 0 → Fin S50000x8.rank)
  bcast_S1000000_S1000000x8_0 : S1000000.BroadcastsInDim S1000000x8 (![0] : Fin 1 → Fin S1000000x8.rank)
  bcast_S_S1000000x8 : S_.BroadcastsInDim S1000000x8 (![] : Fin 0 → Fin S1000000x8.rank)
  inb_S5000x8_S5000x8_0_0 : ∀ a, (![0, 0] : Fin 2 → Nat) a + S5000x8.size a ≤ S5000x8.size a
  h_S5000x8 : 0 < S5000x8.numel
  shapeCasts_S5000x8_S5000x8 : S5000x8.ShapeCasts S5000x8
  slices_S5000x8_o0_0_S5000x1 : S5000x8.Slices ![0, 0] S5000x1
  shapeCasts_S5000x1_S5000x1 : S5000x1.ShapeCasts S5000x1
  broadcasts_S5000x1_S5000x16 : S5000x1.Broadcasts S5000x16
  inb_S5000x128_S5000x16_0_0 : ∀ a, (![0, 0] : Fin 2 → Nat) a + S5000x16.size a ≤ S5000x128.size a
  h_S5000x16 : 0 < S5000x16.numel
  slices_S5000x8_o0_1_S5000x1 : S5000x8.Slices ![0, 1] S5000x1
  inb_S5000x128_S5000x16_0_16 : ∀ a, (![0, 16] : Fin 2 → Nat) a + S5000x16.size a ≤ S5000x128.size a
  slices_S5000x8_o0_2_S5000x1 : S5000x8.Slices ![0, 2] S5000x1
  inb_S5000x128_S5000x16_0_32 : ∀ a, (![0, 32] : Fin 2 → Nat) a + S5000x16.size a ≤ S5000x128.size a
  slices_S5000x8_o0_3_S5000x1 : S5000x8.Slices ![0, 3] S5000x1
  inb_S5000x128_S5000x16_0_48 : ∀ a, (![0, 48] : Fin 2 → Nat) a + S5000x16.size a ≤ S5000x128.size a
  slices_S5000x8_o0_4_S5000x1 : S5000x8.Slices ![0, 4] S5000x1
  inb_S5000x128_S5000x16_0_64 : ∀ a, (![0, 64] : Fin 2 → Nat) a + S5000x16.size a ≤ S5000x128.size a
  slices_S5000x8_o0_5_S5000x1 : S5000x8.Slices ![0, 5] S5000x1
  inb_S5000x128_S5000x16_0_80 : ∀ a, (![0, 80] : Fin 2 → Nat) a + S5000x16.size a ≤ S5000x128.size a
  slices_S5000x8_o0_6_S5000x1 : S5000x8.Slices ![0, 6] S5000x1
  inb_S5000x128_S5000x16_0_96 : ∀ a, (![0, 96] : Fin 2 → Nat) a + S5000x16.size a ≤ S5000x128.size a
  slices_S5000x8_o0_7_S5000x1 : S5000x8.Slices ![0, 7] S5000x1
  inb_S5000x128_S5000x16_0_112 : ∀ a, (![0, 112] : Fin 2 → Nat) a + S5000x16.size a ≤ S5000x128.size a
  bcast_S_S50000x128 : S_.BroadcastsInDim S50000x128 (![] : Fin 0 → Fin S50000x128.rank)
  transposes_S128x128_S128x128_1_0 : S128x128.Transposes [1, 0] S128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  dot_S2000x128_S128x384_S2000x384_1_0_0_1_n_n_wf : DotDims.WF S2000x128 S128x384 S2000x384 [1] [0] [0] [1] [] []
  gather_S50000x128_S1000000x1_S1000000x128_1_0_n_n_0_1_1128_wf : GatherDims.WF S50000x128 S1000000x1 S1000000x128 [1] [0] [] [0] [] 1 ![1, 128]
  scatter_S50000x8_S1000000x1_S1000000x8_1_0_0_1_wf : ScatterDims.WF S50000x8 S1000000x1 S1000000x8 [1] [0] [0] 1
  gather_S50000x8_S1000000x1_S1000000x8_1_0_n_n_0_1_18_wf : GatherDims.WF S50000x8 S1000000x1 S1000000x8 [1] [0] [] [0] [] 1 ![1, 8]
  scatter_S50000x128_S1000000x1_S1000000x128_1_0_0_1_wf : ScatterDims.WF S50000x128 S1000000x1 S1000000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .bf16 = 32 ∨ (Rect.block (s := S50000x128) S2000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .bf16 = 32 ∨ (Rect.block (s := S128x384) S128x384.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x384.size a ≤ S50000x384.size a
  hwx0_2 : ∀ i : grid0.Coords, EltTy.bits .f32 = 32 ∨ (Rect.block (s := S50000x384) S2000x384.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S1000000x128.size a
  hwx1_0 : ∀ i : grid1.Coords, EltTy.bits .f32 = 32 ∨ (Rect.block (s := S1000000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S1000000x128.size a
  hwx1_1 : ∀ i : grid1.Coords, EltTy.bits .f32 = 32 ∨ (Rect.block (s := S1000000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x8.size a ≤ S1000000x8.size a
  hwx1_2 : ∀ i : grid1.Coords, EltTy.bits .f32 = 32 ∨ (Rect.block (s := S1000000x8) S5000x8.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x8.size a ≤ S1000000x8.size a
  hwx2_0 : ∀ i : grid2.Coords, EltTy.bits .f32 = 32 ∨ (Rect.block (s := S1000000x8) S5000x8.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x8.size a ≤ S1000000x8.size a
  hwx2_1 : ∀ i : grid2.Coords, EltTy.bits .f32 = 32 ∨ (Rect.block (s := S1000000x8) S5000x8.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S1000000x128.size a
  hwx2_2 : ∀ i : grid2.Coords, EltTy.bits .f32 = 32 ∨ (Rect.block (s := S1000000x128) S5000x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S1000000x128.size a
  hwx2_3 : ∀ i : grid2.Coords, EltTy.bits .f32 = 32 ∨ (Rect.block (s := S1000000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .bf16 = 32 ∨ (Rect.block (s := S50000x128) S2000x128.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .bf16 = 32 ∨ (Rect.block (s := S128x128) S128x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)

variable [Facts₀]

def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def gather_S50000x128_S1000000x1_S1000000x128_1_0_n_n_0_1_1128 : GatherDims S50000x128 S1000000x1 S1000000x128 where
  offsetDims := [1]
  collapsedSliceDims := [0]
  operandBatchingDims := []
  startIndicesBatchingDims := []
  startIndexMap := [0]
  indexVectorDim := 1
  sliceSizes := ![1, 128]
  wf := gather_S50000x128_S1000000x1_S1000000x128_1_0_n_n_0_1_1128_wf
def scatter_S50000x8_S1000000x1_S1000000x8_1_0_0_1 : ScatterDims S50000x8 S1000000x1 S1000000x8 where
  updateWindowDims := [1]
  insertedWindowDims := [0]
  scatterDimsToOperandDims := [0]
  indexVectorDim := 1
  wf := scatter_S50000x8_S1000000x1_S1000000x8_1_0_0_1_wf
def gather_S50000x8_S1000000x1_S1000000x8_1_0_n_n_0_1_18 : GatherDims S50000x8 S1000000x1 S1000000x8 where
  offsetDims := [1]
  collapsedSliceDims := [0]
  operandBatchingDims := []
  startIndicesBatchingDims := []
  startIndexMap := [0]
  indexVectorDim := 1
  sliceSizes := ![1, 8]
  wf := gather_S50000x8_S1000000x1_S1000000x8_1_0_n_n_0_1_18_wf
def scatter_S50000x128_S1000000x1_S1000000x128_1_0_0_1 : ScatterDims S50000x128 S1000000x1 S1000000x128 where
  updateWindowDims := [1]
  insertedWindowDims := [0]
  scatterDimsToOperandDims := [0]
  indexVectorDim := 1
  wf := scatter_S50000x128_S1000000x1_S1000000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2000x384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S5000x8.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v10) S5000x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x8.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v15) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v19) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v21) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v22) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S1000000 : Shape := ⟨1, ![1000000]⟩
abbrev S384x128 : Shape := ⟨2, ![384, 128]⟩
abbrev S128x128 : Shape := ⟨2, ![128, 128]⟩
abbrev S128x384 : Shape := ⟨2, ![128, 384]⟩
abbrev S50000x384 : Shape := ⟨2, ![50000, 384]⟩
abbrev S50000x8x16 : Shape := ⟨3, ![50000, 8, 16]⟩
abbrev S_ : Shape := ⟨0, ![]⟩
abbrev S1000000x1 : Shape := ⟨2, ![1000000, 1]⟩
abbrev S1000000x8x16 : Shape := ⟨3, ![1000000, 8, 16]⟩
abbrev S1000000x8 : Shape := ⟨2, ![1000000, 8]⟩
abbrev S50000x8 : Shape := ⟨2, ![50000, 8]⟩
abbrev S1000000x8x1 : Shape := ⟨3, ![1000000, 8, 1]⟩

abbrev nBuf : Space → Nat
  | .hbm => 89
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S1000000, .i32⟩
  | .hbm, ⟨2, _⟩ => ⟨S1000000, .i32⟩
  | .hbm, ⟨3, _⟩ => ⟨S384x128, .f32⟩
  | .hbm, ⟨4, _⟩ => ⟨S128x128, .f32⟩
  | .hbm, ⟨5, _⟩ => ⟨S128x384, .f32⟩
  | .hbm, ⟨6, _⟩ => ⟨S50000x384, .f32⟩
  | .hbm, ⟨7, _⟩ => ⟨S50000x128, .f32⟩
  | .hbm, ⟨8, _⟩ => ⟨S50000x128, .f32⟩
  | .hbm, ⟨9, _⟩ => ⟨S50000x128, .f32⟩
  | .hbm, ⟨10, _⟩ => ⟨S50000x8x16, .f32⟩
  | .hbm, ⟨11, _⟩ => ⟨S50000x8x16, .f32⟩
  | .hbm, ⟨12, _⟩ => ⟨S50000x8x16, .f32⟩
  | .hbm, ⟨13, _⟩ => ⟨S_, .i32⟩
  | .hbm, ⟨14, _⟩ => ⟨S1000000, .i32⟩
  | .hbm, ⟨15, _⟩ => ⟨S1000000, .i1⟩
  | .hbm, ⟨16, _⟩ => ⟨S_, .i32⟩
  | .hbm, ⟨17, _⟩ => ⟨S1000000, .i32⟩
  | .hbm, ⟨18, _⟩ => ⟨S1000000, .i32⟩
  | .hbm, ⟨19, _⟩ => ⟨S1000000, .i32⟩
  | .hbm, ⟨20, _⟩ => ⟨S1000000x1, .i32⟩
  | .hbm, ⟨21, _⟩ => ⟨S1000000x8x16, .f32⟩
  | .hbm, ⟨22, _⟩ => ⟨S_, .i32⟩
  | .hbm, ⟨23, _⟩ => ⟨S1000000, .i32⟩
  | .hbm, ⟨24, _⟩ => ⟨S1000000, .i1⟩
  | .hbm, ⟨25, _⟩ => ⟨S_, .i32⟩
  | .hbm, ⟨26, _⟩ => ⟨S1000000, .i32⟩
  | .hbm, ⟨27, _⟩ => ⟨S1000000, .i32⟩
  | .hbm, ⟨28, _⟩ => ⟨S1000000, .i32⟩
  | .hbm, ⟨29, _⟩ => ⟨S1000000x1, .i32⟩
  | .hbm, ⟨30, _⟩ => ⟨S1000000x8x16, .f32⟩
  | .hbm, ⟨31, _⟩ => ⟨S_, .i32⟩
  | .hbm, ⟨32, _⟩ => ⟨S1000000, .i32⟩
  | .hbm, ⟨33, _⟩ => ⟨S1000000, .i1⟩
  | .hbm, ⟨34, _⟩ => ⟨S_, .i32⟩
  | .hbm, ⟨35, _⟩ => ⟨S1000000, .i32⟩
  | .hbm, ⟨36, _⟩ => ⟨S1000000, .i32⟩
  | .hbm, ⟨37, _⟩ => ⟨S1000000, .i32⟩
  | .hbm, ⟨38, _⟩ => ⟨S1000000x1, .i32⟩
  | .hbm, ⟨39, _⟩ => ⟨S1000000x8x16, .f32⟩
  | .hbm, ⟨40, _⟩ => ⟨S1000000x8x16, .f32⟩
  | .hbm, ⟨41, _⟩ => ⟨S_, .f32⟩
  | .hbm, ⟨42, _⟩ => ⟨S1000000x8, .f32⟩
  | .hbm, ⟨43, _⟩ => ⟨S_, .f32⟩
  | .hbm, ⟨44, _⟩ => ⟨S1000000x8, .f32⟩
  | .hbm, ⟨45, _⟩ => ⟨S1000000x8, .f32⟩
  | .hbm, ⟨46, _⟩ => ⟨S_, .f32⟩
  | .hbm, ⟨47, _⟩ => ⟨S1000000x8, .f32⟩
  | .hbm, ⟨48, _⟩ => ⟨S1000000x8, .i1⟩
  | .hbm, ⟨49, _⟩ => ⟨S_, .f32⟩
  | .hbm, ⟨50, _⟩ => ⟨S1000000x8, .f32⟩
  | .hbm, ⟨51, _⟩ => ⟨S1000000x8, .f32⟩
  | .hbm, ⟨52, _⟩ => ⟨S1000000x8, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S1000000x8, .f32⟩
  | .hbm, ⟨57, _⟩ => ⟨S1000000x8, .f32⟩
  | .hbm, ⟨58, _⟩ => ⟨S_, .f32⟩
  | .hbm, ⟨59, _⟩ => ⟨S1000000x8, .f32⟩
  | .hbm, ⟨60, _⟩ => ⟨S1000000x8, .f32⟩
  | .hbm, ⟨61, _⟩ => ⟨S1000000x8, .f32⟩
  | .hbm, ⟨62, _⟩ => ⟨S_, .f32⟩
  | .hbm, ⟨63, _⟩ => ⟨S50000x8, .f32⟩
  | .hbm, ⟨64, _⟩ => ⟨S1000000x1, .i32⟩
  | .hbm, ⟨65, _⟩ => ⟨S50000x8, .f32⟩
  | .hbm, ⟨66, _⟩ => ⟨S_, .i32⟩
  | .hbm, ⟨67, _⟩ => ⟨S1000000, .i32⟩
  | .hbm, ⟨68, _⟩ => ⟨S1000000, .i1⟩
  | .hbm, ⟨69, _⟩ => ⟨S_, .i32⟩
  | .hbm, ⟨70, _⟩ => ⟨S1000000, .i32⟩
  | .hbm, ⟨71, _⟩ => ⟨S1000000, .i32⟩
  | .hbm, ⟨72, _⟩ => ⟨S1000000, .i32⟩
  | .hbm, ⟨73, _⟩ => ⟨S1000000x1, .i32⟩
  | .hbm, ⟨74, _⟩ => ⟨S1000000x8, .f32⟩
  | .hbm, ⟨75, _⟩ => ⟨S_, .f32⟩
  | .hbm, ⟨76, _⟩ => ⟨S1000000x8, .f32⟩
  | .hbm, ⟨77, _⟩ => ⟨S1000000x8, .f32⟩
  | .hbm, ⟨78, _⟩ => ⟨S1000000x8, .f32⟩
  | .hbm, ⟨79, _⟩ => ⟨S1000000x8x1, .f32⟩
  | .hbm, ⟨80, _⟩ => ⟨S1000000x8x16, .f32⟩
  | .hbm, ⟨81, _⟩ => ⟨S1000000x8x16, .f32⟩
  | .hbm, ⟨82, _⟩ => ⟨S_, .f32⟩
  | .hbm, ⟨83, _⟩ => ⟨S50000x8x16, .f32⟩
  | .hbm, ⟨84, _⟩ => ⟨S1000000x1, .i32⟩
  | .hbm, ⟨85, _⟩ => ⟨S50000x8x16, .f32⟩
  | .hbm, ⟨86, _⟩ => ⟨S50000x128, .f32⟩
  | .hbm, ⟨87, _⟩ => ⟨S128x128, .f32⟩
  | .hbm, ⟨88, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_3 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_cst_9 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_v38 : Ref sig .tc := ⟨.hbm, 60, rfl⟩
abbrev main_v39 : Ref sig .tc := ⟨.hbm, 61, rfl⟩
abbrev main_cst_10 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_11 : Ref sig .tc := ⟨.hbm, 66, rfl⟩
abbrev main_v43 : Ref sig .tc := ⟨.hbm, 67, rfl⟩
abbrev main_v44 : Ref sig .tc := ⟨.hbm, 68, rfl⟩
abbrev main_c_12 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_13 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_14 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩

abbrev nD : Nat := 1
abbrev τ : Topo := Topo.v7x

variable {F : FTy → Type} [FloatOps F]

class Facts₀ : Prop where
  transposes_S384x128_S128x384_1_0 : S384x128.Transposes [1, 0] S128x384
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  shapeCasts_S50000x128_S50000x8x16 : S50000x128.ShapeCasts S50000x8x16
  bcast_S_S1000000 : S_.BroadcastsInDim S1000000 (![] : Fin 0 → Fin S1000000.rank)
  bcast_S1000000_S1000000x1_0 : S1000000.BroadcastsInDim S1000000x1 (![0] : Fin 1 → Fin S1000000x1.rank)
  reducesTo_S1000000x8x16_S1000000x8_d2 : S1000000x8x16.ReducesTo [2] S1000000x8
  h_S_ : 0 < S_.numel
  bcast_S_S1000000x8 : S_.BroadcastsInDim S1000000x8 (![] : Fin 0 → Fin S1000000x8.rank)
  bcast_S_S50000x8 : S_.BroadcastsInDim S50000x8 (![] : Fin 0 → Fin S50000x8.rank)
  bcast_S1000000x8_S1000000x8x1_0_1 : S1000000x8.BroadcastsInDim S1000000x8x1 (![0, 1] : Fin 2 → Fin S1000000x8x1.rank)
  bcast_S1000000x8x1_S1000000x8x16_0_1_2 : S1000000x8x1.BroadcastsInDim S1000000x8x16 (![0, 1, 2] : Fin 3 → Fin S1000000x8x16.rank)
  bcast_S_S50000x8x16 : S_.BroadcastsInDim S50000x8x16 (![] : Fin 0 → Fin S50000x8x16.rank)
  shapeCasts_S50000x8x16_S50000x128 : S50000x8x16.ShapeCasts S50000x128
  transposes_S128x128_S128x128_1_0 : S128x128.Transposes [1, 0] S128x128
  dot_S50000x128_S128x384_S50000x384_1_0_0_1_n_n_wf : DotDims.WF S50000x128 S128x384 S50000x384 [1] [0] [0] [1] [] []
  gather_S50000x8x16_S1000000x1_S1000000x8x16_12_0_n_n_0_1_1816_wf : GatherDims.WF S50000x8x16 S1000000x1 S1000000x8x16 [1, 2] [0] [] [0] [] 1 ![1, 8, 16]
  scatter_S50000x8_S1000000x1_S1000000x8_1_0_0_1_wf : ScatterDims.WF S50000x8 S1000000x1 S1000000x8 [1] [0] [0] 1
  gather_S50000x8_S1000000x1_S1000000x8_1_0_n_n_0_1_18_wf : GatherDims.WF S50000x8 S1000000x1 S1000000x8 [1] [0] [] [0] [] 1 ![1, 8]
  scatter_S50000x8x16_S1000000x1_S1000000x8x16_12_0_0_1_wf : ScatterDims.WF S50000x8x16 S1000000x1 S1000000x8x16 [1, 2] [0] [0] 1
  dot_S50000x128_S128x128_S50000x128_1_0_0_1_n_n_wf : DotDims.WF S50000x128 S128x128 S50000x128 [1] [0] [0] [1] [] []

variable [Facts₀]

def dot_S50000x128_S128x384_S50000x384_1_0_0_1_n_n : DotDims S50000x128 S128x384 S50000x384 where
  lhsContracting := [1]
  rhsContracting := [0]
  lhsNonContracting := [0]
  rhsNonContracting := [1]
  lhsBatch := []
  rhsBatch := []
  wf := dot_S50000x128_S128x384_S50000x384_1_0_0_1_n_n_wf
def gather_S50000x8x16_S1000000x1_S1000000x8x16_12_0_n_n_0_1_1816 : GatherDims S50000x8x16 S1000000x1 S1000000x8x16 where
  offsetDims := [1, 2]
  collapsedSliceDims := [0]
  operandBatchingDims := []
  startIndicesBatchingDims := []
  startIndexMap := [0]
  indexVectorDim := 1
  sliceSizes := ![1, 8, 16]
  wf := gather_S50000x8x16_S1000000x1_S1000000x8x16_12_0_n_n_0_1_1816_wf
def scatter_S50000x8_S1000000x1_S1000000x8_1_0_0_1 : ScatterDims S50000x8 S1000000x1 S1000000x8 where
  updateWindowDims := [1]
  insertedWindowDims := [0]
  scatterDimsToOperandDims := [0]
  indexVectorDim := 1
  wf := scatter_S50000x8_S1000000x1_S1000000x8_1_0_0_1_wf
def gather_S50000x8_S1000000x1_S1000000x8_1_0_n_n_0_1_18 : GatherDims S50000x8 S1000000x1 S1000000x8 where
  offsetDims := [1]
  collapsedSliceDims := [0]
  operandBatchingDims := []
  startIndicesBatchingDims := []
  startIndexMap := [0]
  indexVectorDim := 1
  sliceSizes := ![1, 8]
  wf := gather_S50000x8_S1000000x1_S1000000x8_1_0_n_n_0_1_18_wf
def scatter_S50000x8x16_S1000000x1_S1000000x8x16_12_0_0_1 : ScatterDims S50000x8x16 S1000000x1 S1000000x8x16 where
  updateWindowDims := [1, 2]
  insertedWindowDims := [0]
  scatterDimsToOperandDims := [0]
  indexVectorDim := 1
  wf := scatter_S50000x8x16_S1000000x1_S1000000x8x16_12_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  THE COMMON VALUE of the two programs: edge-wise multi-head attention over a graph, as plain mathematics on the
  extended reals.

  Inputs: node features `x : [50000, 128]`, a stacked projection `wq : [384, 128]` (rows 0..127 queries, 128..255 keys,
  256..383 values), an output projection `wo : [128, 128]`, and per edge `e` a source word `row e` and a target word
  `col e` (32-bit words read signed).

  * `qkv n j = ∑ k, x n k * wq j k`: the projected features.
  * A gather reads the table row a word names after NumPy's wrap of a negative number (`wrapW`) and a clamp into
    `[0, 49999]` (`gidx`); `InR r` says the wrapped number already is a row, so the clamp does nothing.
  * Per edge and head `h` (lanes `16 h .. 16 h + 15`): the score `sc e h = ∑ d, q(row e)[16h+d] * k(col e)[16h+d]`,
    `ex e h = exp (clip (leaky (sc / 4)))` (`act`), the per-source-node sum `den n h = ∑ over the edges whose source
    word, read signed and NOT wrapped, is n, of ex e h`, the weight `wt e h = ex e h / (den (row e) h + eps)`, the weighted
    value `wv e j = wt e (j / 16) * v(col e)[j]`, the aggregate `agg n j = ∑ over the same edges of wv e j`, and the
    result `out n c = ∑ j, agg n j * wo c j`.
  A scatter-add drops an edge whose source word is no row, so only edges with `0 ≤ row e < 50000` enter `den` and `agg`.
-/
import Idealize.ShloMosaic.PureOps.Ideal
import Idealize.ShloMosaic.Lib.ValueIdx

open scoped BigOperators

noncomputable section

namespace Cert.Bridge.Spec

open Idealize.ShloMosaic

/-- NumPy's wrap of a negative index into a table of 50000 rows, on 32-bit words: `r + 50000` when `r < 0`. -/
def wrapW (r : BitVec 32) : BitVec 32 := if r.toInt < 0 then r + 50000#32 else r

/-- The wrapped number is a row of the table. -/
def InR (r : BitVec 32) : Prop := 0 ≤ (wrapW r).toInt ∧ (wrapW r).toInt ≤ 49999

/-- The table row a gather reads at the word `r`: wrapped, then clamped into `[0, 49999]`. -/
def gidx (r : BitVec 32) : Fin 50000 := ⟨min (wrapW r).toInt.toNat 49999, by omega⟩

/-- The float words the two programs share, read at the ideal instance. -/
def zeroW : EReal := Ideal.ofBits .f32 0x00000000#32
def c02W : EReal := Ideal.ofBits .f32 0x3E4CCCCD#32
def loW : EReal := Ideal.ofBits .f32 0xC1A00000#32
def hiW : EReal := Ideal.ofBits .f32 0x41A00000#32
def fourW : EReal := Ideal.ofBits .f32 0x40800000#32
def quarterW : EReal := Ideal.ofBits .f32 0x3E800000#32
def epsW : EReal := Ideal.ofBits .f32 0x2EDBE6FF#32
/-- What a quiet-NaN word reads as (the fill of an out-of-range `take`). -/
def nanW : EReal := Ideal.ofBits .f32 0x7FC00000#32

/-- Leaky ReLU (slope the word 0.2), clip into [-20, 20], exponential: of an already scaled score `t`. -/
def act0 (t : EReal) : EReal :=
  Ideal.exp (min hiW (max loW (Scalar.select (Ideal.cmp .oge t zeroW) t (c02W * t))))

/-- The same of a raw score `s`, scaled by the quotient `s / 4`. -/
def act (s : EReal) : EReal := act0 (Ideal.div s fourW)

/-- Lane `d` of head `h`. -/
def lane (h : Fin 8) (d : Fin 16) : Fin 128 := ⟨16 * h.val + d.val, by omega⟩
/-- The head a lane belongs to. -/
def headOf (j : Fin 128) : Fin 8 := ⟨j.val / 16, by omega⟩
def colQ (j : Fin 128) : Fin 384 := ⟨j.val, by omega⟩
def colK (j : Fin 128) : Fin 384 := ⟨128 + j.val, by omega⟩
def colV (j : Fin 128) : Fin 384 := ⟨256 + j.val, by omega⟩

section
variable (x : Fin 50000 → Fin 128 → EReal) (wq : Fin 384 → Fin 128 → EReal) (wo : Fin 128 → Fin 128 → EReal)
  (row col : Fin 1000000 → BitVec 32)

def qkv (n : Fin 50000) (j : Fin 384) : EReal := ∑ k : Fin 128, x n k * wq j k
def qs (e : Fin 1000000) (j : Fin 128) : EReal := qkv x wq (gidx (row e)) (colQ j)
def ks (e : Fin 1000000) (j : Fin 128) : EReal := qkv x wq (gidx (col e)) (colK j)
def vs (e : Fin 1000000) (j : Fin 128) : EReal := qkv x wq (gidx (col e)) (colV j)
def sc (e : Fin 1000000) (h : Fin 8) : EReal := ∑ d : Fin 16, qs x wq row e (lane h d) * ks x wq col e (lane h d)
def ex (e : Fin 1000000) (h : Fin 8) : EReal := act (sc x wq row col e h)
/-- The edges whose source word, read signed, is the node `n`. -/
def edgesOf (n : Fin 50000) : Finset (Fin 1000000) := Finset.univ.filter fun e => (row e).toInt = (n.val : Int)
def den (n : Fin 50000) (h : Fin 8) : EReal := ∑ e ∈ edgesOf row n, ex x wq row col e h
def wt (e : Fin 1000000) (h : Fin 8) : EReal := Ideal.div (ex x wq row col e h) (den x wq row col (gidx (row e)) h + epsW)
def wv (e : Fin 1000000) (j : Fin 128) : EReal := wt x wq row col e (headOf j) * vs x wq col e j
def agg (n : Fin 50000) (j : Fin 128) : EReal := ∑ e ∈ edgesOf row n, wv x wq row col e j
def out (n : Fin 50000) (c : Fin 128) : EReal := ∑ j : Fin 128, agg x wq row col n j * wo c j
end

end Cert.Bridge.Spec

end
-- ==== Proof.KForms.lean ====
/-
  THE KERNEL'S SIDE AS NAMED ARRAYS. The four tiled launches as whole-array functions (`mmF`: a dense product;
  `scoreF`: per edge and head, the activation of a quarter of the 16-lane sum of products; `wmulF`: the normalised
  weight of a lane's head times the value), the host's `take` with NaN fill (`takeFill`, `takeFill8`: the operations in
  program order), and the composed stages of the program, from the arguments to the result (`kout`).
-/
import proofs.«429704_j44057774522827_1_alg».proof.Proof.Gen.KernelIdeal
import proofs.«429704_j44057774522827_1_alg».proof.Proof.Spec
import Idealize.ShloMosaic.Lib.ValueIdx

open scoped BigOperators

noncomputable section

namespace Cert.Bridge.K

open Idealize.ShloMosaic Idealize.ShloMosaic.ValueIdx Cert.KernelIdeal Cert.KernelIdeal.Gen Cert.Bridge

/-- A dense product `[A, K] · [K, C]`, element (n, c) the sum over `k` of `x[n, k] * w[k, c]`. -/
def mmF {A K C : Nat} (x : (⟨2, ![A, K]⟩ : Shape).Idx → EReal) (w : (⟨2, ![K, C]⟩ : Shape).Idx → EReal) :
    (⟨2, ![A, C]⟩ : Shape).Idx → EReal :=
  fun i => ∑ k : Fin K, x (ix2 (⟨(i 0).val, idx2_lt0 i⟩ : Fin A) k) * w (ix2 k (⟨(i 1).val, idx2_lt1 i⟩ : Fin C))

theorem mmF_apply {A K C : Nat} (x : (⟨2, ![A, K]⟩ : Shape).Idx → EReal) (w : (⟨2, ![K, C]⟩ : Shape).Idx → EReal)
    (n : Fin A) (c : Fin C) : mmF x w (ix2 n c) = ∑ k : Fin K, x (ix2 n k) * w (ix2 k c) := rfl

/-- Per edge `e` and head `h`: the activation of `(∑ d, q[e, 16h+d] * k[e, 16h+d]) * 0.25`. -/
def scoreF {E : Nat} (q k : (⟨2, ![E, 128]⟩ : Shape).Idx → EReal) : (⟨2, ![E, 8]⟩ : Shape).Idx → EReal :=
  fun i => Spec.act0 ((∑ d : Fin 16, q (ix2 (⟨(i 0).val, idx2_lt0 i⟩ : Fin E) (Spec.lane ⟨(i 1).val, idx2_lt1 i⟩ d))
      * k (ix2 (⟨(i 0).val, idx2_lt0 i⟩ : Fin E) (Spec.lane ⟨(i 1).val, idx2_lt1 i⟩ d))) * Spec.quarterW)

theorem scoreF_apply {E : Nat} (q k : (⟨2, ![E, 128]⟩ : Shape).Idx → EReal) (e : Fin E) (h : Fin 8) :
    scoreF q k (ix2 e h) = Spec.act0 ((∑ d : Fin 16, q (ix2 e (Spec.lane h d)) * k (ix2 e (Spec.lane h d))) * Spec.quarterW) := rfl

/-- Per edge `e` and lane `j`: `(ex[e, j/16] / (dg[e, j/16] + eps)) * v[e, j]`. -/
def wmulF {E : Nat} (ex dg : (⟨2, ![E, 8]⟩ : Shape).Idx → EReal) (v : (⟨2, ![E, 128]⟩ : Shape).Idx → EReal) :
    (⟨2, ![E, 128]⟩ : Shape).Idx → EReal :=
  fun i => Ideal.div (ex (ix2 (⟨(i 0).val, idx2_lt0 i⟩ : Fin E) (Spec.headOf ⟨(i 1).val, idx2_lt1 i⟩)))
      (dg (ix2 (⟨(i 0).val, idx2_lt0 i⟩ : Fin E) (Spec.headOf ⟨(i 1).val, idx2_lt1 i⟩)) + Spec.epsW)
    * v (ix2 (⟨(i 0).val, idx2_lt0 i⟩ : Fin E) (⟨(i 1).val, idx2_lt1 i⟩ : Fin 128))

theorem wmulF_apply {E : Nat} (ex dg : (⟨2, ![E, 8]⟩ : Shape).Idx → EReal) (v : (⟨2, ![E, 128]⟩ : Shape).Idx → EReal)
    (e : Fin E) (j : Fin 128) :
    wmulF ex dg v (ix2 e j) = Ideal.div (ex (ix2 e (Spec.headOf j))) (dg (ix2 e (Spec.headOf j)) + Spec.epsW) * v (ix2 e j) := rfl

/-- `jnp.take(tab, idx, axis=0)` at its default mode, 128 columns: wrap a negative number, gather (the start index
    clamped), and fill the rows whose wrapped number is no row of the table with the quiet-NaN word. -/
def takeFill (tab : FVec Ideal S50000x128 .f32) (idx : IVec S1000000 32) : FVec Ideal S1000000x128 .f32 :=
  let v0 : IVec S1000000 32 := broadcastInDim S1000000 ![] bcast_S_S1000000 (constantI S_ 32 0#32)
  let v1 : IVec S1000000 1 := cmpi .slt idx v0
  let v2 : IVec S1000000 32 := broadcastInDim S1000000 ![] bcast_S_S1000000 (constantI S_ 32 50000#32)
  let v3 : IVec S1000000 32 := addi idx v2
  let v4 : IVec S1000000 32 := select v1 v3 idx
  let v5 : IVec S1000000x1 32 := broadcastInDim S1000000x1 ![0] bcast_S1000000_S1000000x1_0 v4
  let v6 : IVec S1000000x1 32 := broadcastInDim S1000000x1 ![] bcast_S_S1000000x1 (constantI S_ 32 0#32)
  let v7 : IVec S1000000x1 1 := cmpi .sge v5 v6
  let v8 : IVec S1x1 32 := broadcastInDim S1x1 ![1] bcast_S1_S1x1_1 (constantI S1 32 49999#32)
  let v9 : IVec S1000000x1 32 := broadcastInDim S1000000x1 ![0, 1] bcast_S1x1_S1000000x1_0_1 v8
  let v10 : IVec S1000000x1 1 := cmpi .sle v5 v9
  let v11 : IVec S1000000x1 1 := andi v7 v10
  let v12 : IVec S1000000 1 := Host.reduce IntOp.andi v11 (constantI S_ 1 1#1) reducesTo_S1000000x1_S1000000_d1 h_S_
  let v13 : FVec Ideal S1000000x128 .f32 := Host.gather gather_S50000x128_S1000000x1_S1000000x128_1_0_n_n_0_1_1128 tab v5
  let v14 : IVec S1000000x128 1 := broadcastInDim S1000000x128 ![0] bcast_S1000000_S1000000x128_0 v12
  let v15 : FVec Ideal S1000000x128 .f32 := broadcastInDim S1000000x128 ![] bcast_S_S1000000x128 (constant (F := Ideal) S_ .f32 0x7FC00000#32)
  select v14 v13 v15

/-- The same at 8 columns. -/
def takeFill8 (tab : FVec Ideal S50000x8 .f32) (idx : IVec S1000000 32) : FVec Ideal S1000000x8 .f32 :=
  let v0 : IVec S1000000 32 := broadcastInDim S1000000 ![] bcast_S_S1000000 (constantI S_ 32 0#32)
  let v1 : IVec S1000000 1 := cmpi .slt idx v0
  let v2 : IVec S1000000 32 := broadcastInDim S1000000 ![] bcast_S_S1000000 (constantI S_ 32 50000#32)
  let v3 : IVec S1000000 32 := addi idx v2
  let v4 : IVec S1000000 32 := select v1 v3 idx
  let v5 : IVec S1000000x1 32 := broadcastInDim S1000000x1 ![0] bcast_S1000000_S1000000x1_0 v4
  let v6 : IVec S1000000x1 32 := broadcastInDim S1000000x1 ![] bcast_S_S1000000x1 (constantI S_ 32 0#32)
  let v7 : IVec S1000000x1 1 := cmpi .sge v5 v6
  let v8 : IVec S1x1 32 := broadcastInDim S1x1 ![1] bcast_S1_S1x1_1 (constantI S1 32 49999#32)
  let v9 : IVec S1000000x1 32 := broadcastInDim S1000000x1 ![0, 1] bcast_S1x1_S1000000x1_0_1 v8
  let v10 : IVec S1000000x1 1 := cmpi .sle v5 v9
  let v11 : IVec S1000000x1 1 := andi v7 v10
  let v12 : IVec S1000000 1 := Host.reduce IntOp.andi v11 (constantI S_ 1 1#1) reducesTo_S1000000x1_S1000000_d1 h_S_
  let v13 : FVec Ideal S1000000x8 .f32 := Host.gather gather_S50000x8_S1000000x1_S1000000x8_1_0_n_n_0_1_18 tab v5
  let v14 : IVec S1000000x8 1 := broadcastInDim S1000000x8 ![0] bcast_S1000000_S1000000x8_0 v12
  let v15 : FVec Ideal S1000000x8 .f32 := broadcastInDim S1000000x8 ![] bcast_S_S1000000x8 (constant (F := Ideal) S_ .f32 0x7FC00000#32)
  select v14 v13 v15

section Stages
variable (emb : FVec Ideal S50000x128 .f32) (rowA colA : IVec S1000000 32) (wqkv : FVec Ideal S384x128 .f32)
  (wout : FVec Ideal S128x128 .f32)

/-- The features and the stacked projection's transpose, narrowed (the identity at this instance). -/
def kx : FVec Ideal S50000x128 .bf16 := truncf .bf16 emb bitsLt_bf16_f32
def kw : FVec Ideal S128x384 .bf16 :=
  truncf .bf16 (transpose S128x384 [1, 0] wqkv transposes_S384x128_S128x384_1_0) bitsLt_bf16_f32
/-- Launch 0: the projected features `[50000, 384]`. -/
def kqkv : FVec Ideal S50000x384 .f32 := mmF (kx emb) (kw wqkv)
def kQ : FVec Ideal S50000x128 .f32 := extractStridedSlice S50000x128 ![0, 0] (kqkv emb wqkv) slices_S50000x384_S50000x128_0_0
def kK : FVec Ideal S50000x128 .f32 := extractStridedSlice S50000x128 ![0, 128] (kqkv emb wqkv) slices_S50000x384_S50000x128_0_128
def kV : FVec Ideal S50000x128 .f32 := extractStridedSlice S50000x128 ![0, 256] (kqkv emb wqkv) slices_S50000x384_S50000x128_0_256
/-- The three takes: queries at the source words, keys and values at the target words. -/
def kqs : FVec Ideal S1000000x128 .f32 := takeFill (kQ emb wqkv) rowA
def kkd : FVec Ideal S1000000x128 .f32 := takeFill (kK emb wqkv) colA
def kvd : FVec Ideal S1000000x128 .f32 := takeFill (kV emb wqkv) colA
/-- Launch 1: the exponentiated scores `[1000000, 8]`. -/
def kex : FVec Ideal S1000000x8 .f32 := scoreF (kqs emb rowA wqkv) (kkd emb colA wqkv)
/-- The per-node sums of the scores (a scatter-add into zeros at the source words) and their take back per edge. -/
def kden : FVec Ideal S50000x8 .f32 :=
  Host.scatterAdd scatter_S50000x8_S1000000x1_S1000000x8_1_0_0_1
    (broadcastInDim S50000x8 ![] bcast_S_S50000x8 (constant (F := Ideal) S_ .f32 0x00000000#32))
    (broadcastInDim S1000000x1 ![0] bcast_S1000000_S1000000x1_0 rowA) (kex emb rowA colA wqkv)
def kdg : FVec Ideal S1000000x8 .f32 := takeFill8 (kden emb rowA colA wqkv) rowA
/-- Launch 2: the weighted values `[1000000, 128]`. -/
def kwv : FVec Ideal S1000000x128 .f32 := wmulF (kex emb rowA colA wqkv) (kdg emb rowA colA wqkv) (kvd emb colA wqkv)
/-- Their per-node sums, narrowed, and the output projection's transpose, narrowed. -/
def kagg : FVec Ideal S50000x128 .f32 :=
  Host.scatterAdd scatter_S50000x128_S1000000x1_S1000000x128_1_0_0_1
    (broadcastInDim S50000x128 ![] bcast_S_S50000x128 (constant (F := Ideal) S_ .f32 0x00000000#32))
    (broadcastInDim S1000000x1 ![0] bcast_S1000000_S1000000x1_0 rowA) (kwv emb rowA colA wqkv)
def ka : FVec Ideal S50000x128 .bf16 := truncf .bf16 (kagg emb rowA colA wqkv) bitsLt_bf16_f32
def kwo : FVec Ideal S128x128 .bf16 :=
  truncf .bf16 (transpose S128x128 [1, 0] wout transposes_S128x128_S128x128_1_0) bitsLt_bf16_f32
/-- Launch 3: the result `[50000, 128]`. -/
def kout : FVec Ideal S50000x128 .f32 := mmF (ka emb rowA colA wqkv) (kwo wout)

end Stages

end Cert.Bridge.K

end
-- ==== Proof.KReg2.lean ====
/-
  LAUNCH 2 AS ONE FUNCTION. Per block of 5000 edges the body divides the exponentiated scores by the gathered sums plus
  eps (8 columns), and for each head spreads the head's weight over its 16 lanes, multiplies by the value's lanes and
  stores the 16-column piece. The array after the launch is `wmulF` of the three input arrays.
-/
import proofs.«429704_j44057774522827_1_alg».proof.Proof.Gen.KernelIdeal.Frame
import proofs.«429704_j44057774522827_1_alg».proof.Proof.KForms
import Idealize.ShloMosaic.Lib.Pipeline.Value
import Idealize.ShloMosaic.Lib.ValueIdx
import Idealize.ShloMosaic.Lib.ValueLayout
import Idealize.ShloMosaic.PureOps.Ideal.Laws

open scoped BigOperators

noncomputable section

namespace Cert.Bridge.KReg2

open Idealize.ShloMosaic Idealize.ShloMosaic.TcCoe Idealize.ShloMosaic.ValueIdx Idealize.SL.Sem Cert.KernelIdeal Cert.KernelIdeal.Gen Cert.Bridge

variable (V : (c : Dev nD) → (b : Ref sig .tc) → Buf (Elt Ideal) ((c : Thread nD τ).loc b))

/-- A column `[a, 1]` spread over `b` lanes reads, at `(p, c)`, the column's row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The normalised weights of a block: the score over the sum plus eps, per edge and head. -/
private theorem weight_apply (x0 x1 : Vec Ideal S5000x8 .f32) (p : Fin 5000) (h : Fin 8) :
    k2_pay4 x0 x1 (ix2 p h) = Ideal.div (x0 (ix2 p h)) (x1 (ix2 p h) + Spec.epsW) := by
  unfold k2_pay4
  simp only [shapeCast_self]
  rfl

/-- One head's piece: the head's weight column spread over the head's 16 lanes, times those lanes of the values. -/
private theorem head_piece (h o : Nat) (hh : h < 8) (ho : o = 16 * h) (w : FVec Ideal S5000x8 .f32) (v : FVec Ideal S5000x128 .f32)
    (hs1 : S5000x8.Slices ![0, h] S5000x1) (hs2 : S5000x128.Slices ![0, o] S5000x16) (p : Fin 5000) (d : Fin 16) :
    mulf (broadcastTo S5000x16 (shapeCast S5000x1 (extractStridedSlice S5000x1 ![0, h] w hs1) shapeCasts_S5000x1_S5000x1)
        broadcasts_S5000x1_S5000x16) (extractStridedSlice S5000x16 ![0, o] v hs2) (ix2 p d)
      = w (ix2 p ⟨h, hh⟩) * v (ix2 p ⟨o + d.val, by omega⟩) := by
  rw [mulf_apply, broadcastTo_a1_ab_apply, shapeCast_self,
    slice2_axis1_apply h w hs1 p (0 : Fin 1) ⟨h, hh⟩ rfl,
    slice2_axis1_apply o v hs2 p d ⟨o + d.val, by omega⟩ rfl]

private theorem zero_offsets : (![0, 0] : Fin 2 → Nat) = fun _ => 0 := funext fun a => by fin_cases a <;> rfl

/-- The array index under a piece's index: the same row, the lane moved by the piece's column offset. -/
private theorem piece_emb (o : Nat) (inb : ∀ a, (![0, o] : Fin 2 → Nat) a + S5000x16.size a ≤ S5000x128.size a) (ho : o + 16 ≤ 128)
    (p : Fin 5000) (d : Fin 16) :
    (Rect.unit (s := S5000x128) ![0, o] S5000x16.size inb).emb (ix2 p d) = ix2 p (⟨o + d.val, by omega⟩ : Fin 128) := by
  funext a
  apply Fin.ext
  match a with
  | ⟨0, _⟩ => show 0 + 1 * p.val = p.val; omega
  | ⟨1, _⟩ => show o + 1 * d.val = o + d.val; omega

/-- One head's piece is the block's function under the piece. -/
private theorem head_piece_eq (h o : Nat) (hh : h < 8) (ho : o = 16 * h) (x0 x1 : Vec Ideal S5000x8 .f32) (x2 : Vec Ideal S5000x128 .f32)
    (hs1 : S5000x8.Slices ![0, h] S5000x1) (hs2 : S5000x128.Slices ![0, o] S5000x16)
    (inb : ∀ a, (![0, o] : Fin 2 → Nat) a + S5000x16.size a ≤ S5000x128.size a) (x : S5000x16.Idx) :
    mulf (broadcastTo S5000x16 (shapeCast S5000x1 (extractStridedSlice S5000x1 ![0, h] (k2_pay4 x0 x1) hs1) shapeCasts_S5000x1_S5000x1)
        broadcasts_S5000x1_S5000x16) (extractStridedSlice S5000x16 ![0, o] (k2_pay5 x2) hs2) x
      = K.wmulF (E := 5000) x0 x1 x2 ((Rect.unit (s := S5000x128) ![0, o] S5000x16.size inb).emb x) := by
  obtain ⟨p, d, rfl⟩ : ∃ (p : Fin 5000) (d : Fin 16), x = ix2 p d := ⟨x 0, x 1, eq_ix2 x⟩
  rw [head_piece h o hh ho, piece_emb o inb (by omega), K.wmulF_apply, weight_apply]
  have hd : Spec.headOf (⟨o + d.val, by omega⟩ : Fin 128) = ⟨h, hh⟩ := Fin.ext (by show (o + d.val) / 16 = h; omega)
  rw [hd]
  unfold k2_pay5
  rw [shapeCast_self]

/-- THE BLOCK: what the eight stores leave in the output's staging buffer is, index by index, the weight of the
    lane's head times the value, of the three input blocks. -/
private theorem block_eq (x0 x1 : Vec Ideal S5000x8 .f32) (x2 : Vec Ideal S5000x128 .f32) :
    out2_3 x0 x1 x2 = K.wmulF (E := 5000) x0 x1 x2 := by
  funext y
  unfold out2_3
  simp only [View.ld_unit_zero (S := S5000x8) zero_offsets, View.ld_unit_zero (S := S5000x128) zero_offsets]
  refine View.canon_apply_of_pieces (Val := Elt Ideal) (S := S5000x128) (e := .f32) (K.wmulF (E := 5000) x0 x1 x2) _ ?_ y
    (cover2_3 _ _ _ _ _ _ _ _ y)
  intro pc hpc
  rcases List.mem_cons.mp hpc with rfl | hpc
  · show ∀ x : S5000x16.Idx, k2_pay3 (k2_pay4 x0 x1) (k2_pay5 x2) x = K.wmulF (E := 5000) x0 x1 x2 (r2_9.emb x)
    exact head_piece_eq 7 112 (by omega) rfl x0 x1 x2 _ _ inb_S5000x128_S5000x16_0_112
  rcases List.mem_cons.mp hpc with rfl | hpc
  · show ∀ x : S5000x16.Idx, k2_pay2 (k2_pay4 x0 x1) (k2_pay5 x2) x = K.wmulF (E := 5000) x0 x1 x2 (r2_8.emb x)
    exact head_piece_eq 6 96 (by omega) rfl x0 x1 x2 _ _ inb_S5000x128_S5000x16_0_96
  rcases List.mem_cons.mp hpc with rfl | hpc
  · show ∀ x : S5000x16.Idx, k2_pay1 (k2_pay4 x0 x1) (k2_pay5 x2) x = K.wmulF (E := 5000) x0 x1 x2 (r2_7.emb x)
    exact head_piece_eq 5 80 (by omega) rfl x0 x1 x2 _ _ inb_S5000x128_S5000x16_0_80
  rcases List.mem_cons.mp hpc with rfl | hpc
  · show ∀ x : S5000x16.Idx, k2_pay10 x0 x1 x2 x = K.wmulF (E := 5000) x0 x1 x2 (r2_6.emb x)
    exact head_piece_eq 4 64 (by omega) rfl x0 x1 x2 _ _ inb_S5000x128_S5000x16_0_64
  rcases List.mem_cons.mp hpc with rfl | hpc
  · show ∀ x : S5000x16.Idx, k2_pay9 x0 x1 x2 x = K.wmulF (E := 5000) x0 x1 x2 (r2_5.emb x)
    exact head_piece_eq 3 48 (by omega) rfl x0 x1 x2 _ _ inb_S5000x128_S5000x16_0_48
  rcases List.mem_cons.mp hpc with rfl | hpc
  · show ∀ x : S5000x16.Idx, k2_pay8 x0 x1 x2 x = K.wmulF (E := 5000) x0 x1 x2 (r2_4.emb x)
    exact head_piece_eq 2 32 (by omega) rfl x0 x1 x2 _ _ inb_S5000x128_S5000x16_0_32
  rcases List.mem_cons.mp hpc with rfl | hpc
  · show ∀ x : S5000x16.Idx, k2_pay7 x0 x1 x2 x = K.wmulF (E := 5000) x0 x1 x2 (r2_3.emb x)
    exact head_piece_eq 1 16 (by omega) rfl x0 x1 x2 _ _ inb_S5000x128_S5000x16_0_16
  rcases List.mem_cons.mp hpc with rfl | hpc
  · show ∀ x : S5000x16.Idx, k2_pay6 x0 x1 x2 x = K.wmulF (E := 5000) x0 x1 x2 (r2_2.emb x)
    exact head_piece_eq 0 0 (by omega) rfl x0 x1 x2 _ _ inb_S5000x128_S5000x16_0_0
  nomatch hpc

/-- The four windows' block index at point `t` is `(t, 0)`: decided over the 200 points. -/
private theorem index_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

private theorem point_lt (t : Fin cfg2.N) : t.val < 200 := lt_of_lt_of_eq t.isLt N_2

/-- The block of the exponentiated scores at point `t` is rows `5000 t …` of the array. -/
private theorem read_ex (c : Dev nD) (t : Fin cfg2.N) (p : Fin 5000) (h : Fin 8) :
    (iblk2 V c 0 t : Vec Ideal S5000x8 .f32) (ix2 p h)
      = (V c main_v10 : S1000000x8.Idx → EReal) (ix2 ⟨5000 * t.val + p.val, by have := point_lt t; omega⟩ h) := by
  obtain ⟨e0, e1, -⟩ := index_facts t
  show V c main_v10 (((cfg2.win 0).blk t).view.emb (ix2 p h)) = V c main_v10 _
  congr 1
  funext a
  apply Fin.ext
  match a with
  | ⟨0, _⟩ => show win2_0.index t (0 : Fin 2) * 5000 + 1 * p.val = 5000 * t.val + p.val; omega
  | ⟨1, _⟩ => show win2_0.index t (1 : Fin 2) * 8 + 1 * h.val = h.val; omega

/-- The block of the gathered sums at point `t` is rows `5000 t …` of the array. -/
private theorem read_dg (c : Dev nD) (t : Fin cfg2.N) (p : Fin 5000) (h : Fin 8) :
    (iblk2 V c 1 t : Vec Ideal S5000x8 .f32) (ix2 p h)
      = (V c main_v14 : S1000000x8.Idx → EReal) (ix2 ⟨5000 * t.val + p.val, by have := point_lt t; omega⟩ h) := by
  obtain ⟨-, -, e0, e1, -⟩ := index_facts t
  show V c main_v14 (((cfg2.win 1).blk t).view.emb (ix2 p h)) = V c main_v14 _
  congr 1
  funext a
  apply Fin.ext
  match a with
  | ⟨0, _⟩ => show win2_1.index t (0 : Fin 2) * 5000 + 1 * p.val = 5000 * t.val + p.val; omega
  | ⟨1, _⟩ => show win2_1.index t (1 : Fin 2) * 8 + 1 * h.val = h.val; omega

/-- The block of the values at point `t` is rows `5000 t …` of the array. -/
private theorem read_v (c : Dev nD) (t : Fin cfg2.N) (p : Fin 5000) (q : Fin 128) :
    (iblk2 V c 2 t : Vec Ideal S5000x128 .f32) (ix2 p q)
      = (V c main_v9 : S1000000x128.Idx → EReal) (ix2 ⟨5000 * t.val + p.val, by have := point_lt t; omega⟩ q) := by
  obtain ⟨-, -, -, -, e0, e1, -⟩ := index_facts t
  show V c main_v9 (((cfg2.win 2).blk t).view.emb (ix2 p q)) = V c main_v9 _
  congr 1
  funext a
  apply Fin.ext
  match a with
  | ⟨0, _⟩ => show win2_2.index t (0 : Fin 2) * 5000 + 1 * p.val = 5000 * t.val + p.val; omega
  | ⟨1, _⟩ => show win2_2.index t (1 : Fin 2) * 128 + 1 * q.val = q.val; omega

/-- The function of three blocks that are rows `5000 n …` of three arrays is the same rows of the function of the arrays:
    the weight of a lane's head reads only the edge's own row. -/
private theorem wmulF_rows (ex dg : S1000000x8.Idx → EReal) (v : S1000000x128.Idx → EReal)
    (x0 x1 : Vec Ideal S5000x8 .f32) (x2 : Vec Ideal S5000x128 .f32) (n : Nat) (hn : n < 200)
    (h0 : ∀ (p : Fin 5000) (h : Fin 8), x0 (ix2 p h) = ex (ix2 ⟨5000 * n + p.val, by omega⟩ h))
    (h1 : ∀ (p : Fin 5000) (h : Fin 8), x1 (ix2 p h) = dg (ix2 ⟨5000 * n + p.val, by omega⟩ h))
    (h2 : ∀ (p : Fin 5000) (q : Fin 128), x2 (ix2 p q) = v (ix2 ⟨5000 * n + p.val, by omega⟩ q))
    (j : S5000x128.Idx) (i : S1000000x128.Idx) (hi0 : (i 0).val = 5000 * n + (j 0).val) (hi1 : (i 1).val = (j 1).val) :
    K.wmulF (E := 5000) x0 x1 x2 j = K.wmulF (E := 1000000) ex dg v i := by
  obtain ⟨p, q, rfl⟩ : ∃ (p : Fin 5000) (q : Fin 128), j = ix2 p q := ⟨j 0, j 1, eq_ix2 j⟩
  have hb : 5000 * n + p.val < 1000000 := by have := p.isLt; omega
  obtain ⟨e, r, rfl⟩ : ∃ (e : Fin 1000000) (r : Fin 128), i = ix2 e r := ⟨i 0, i 1, eq_ix2 i⟩
  obtain rfl : e = ⟨5000 * n + p.val, hb⟩ := Fin.ext hi0
  obtain rfl : r = q := Fin.ext hi1
  rw [K.wmulF_apply, K.wmulF_apply, h0, h1, h2]

/-- WHAT POINT `t` WRITES BACK is block `t` of the function of the three arrays as the launch finds them. -/
private theorem flushed_eq (c : Dev nD) (t : Fin cfg2.N) :
    (dat2 (F := Ideal) V c).flushed 3 t
      = ((cfg2.win 3).blk t).view.read (Elt Ideal) (K.wmulF (E := 1000000) (V c main_v10) (V c main_v14) (V c main_v9)) := by
  show (cfg2.win 3).cut (grid2.coords t) ((dat2 (F := Ideal) V c).after 3 t) = _
  rw [after2_3, block_eq (iblk2 V c 0 t) (iblk2 V c 1 t) (iblk2 V c 2 t)]
  obtain ⟨-, -, -, -, -, -, e0, e1⟩ := index_facts t
  funext j
  show K.wmulF (E := 5000) (iblk2 V c 0 t) (iblk2 V c 1 t) (iblk2 V c 2 t) j
    = K.wmulF (E := 1000000) (V c main_v10) (V c main_v14) (V c main_v9) (((cfg2.win 3).blk t).view.emb j)
  refine wmulF_rows _ _ _ _ _ _ t.val (point_lt t) (read_ex V c t) (read_dg V c t) (read_v V c t) j _ ?_ ?_
  · show win2_3.index t (0 : Fin 2) * 5000 + 1 * (j 0).val = 5000 * t.val + (j 0).val; omega
  · show win2_3.index t (1 : Fin 2) * 128 + 1 * (j 1).val = (j 1).val; omega

/-- An index of the array is in point `t`'s block iff each coordinate is in the block's range on its axis. -/
private theorem mem_blk (t : Fin cfg2.N) (i : S1000000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v15).slice (win2_3.rect t)).set ↔ _
  rw [View.set_slice_whole, Rect.mem_set_unit]
  exact Iff.rfl

/-- Every edge row is in the block of the point `row / 5000`. -/
private theorem covered (i : S1000000x128.Idx) :
    ∃ t : Fin cfg2.N, (cfg2.win 3).flush t = true ∧ i ∈ ((cfg2.win 3).blk t).view.set := by
  have hi0 : (i 0).val < 1000000 := (i 0).isLt
  have hi1 : (i 1).val < 128 := (i 1).isLt
  have ht : (i 0).val / 5000 < cfg2.N := lt_of_lt_of_eq (by omega : (i 0).val / 5000 < 200) N_2.symm
  refine ⟨⟨(i 0).val / 5000, ht⟩, flush2_3 _, ?_⟩
  rw [mem_blk]
  obtain ⟨-, -, -, -, -, -, e0, e1⟩ := index_facts ⟨(i 0).val / 5000, ht⟩
  have e0' : win2_3.index ⟨(i 0).val / 5000, ht⟩ (0 : Fin 2) = (i 0).val / 5000 := e0
  intro a
  match a with
  | ⟨0, _⟩ =>
    show win2_3.index ⟨(i 0).val / 5000, _⟩ (0 : Fin 2) * 5000 ≤ (i 0).val
      ∧ (i 0).val < win2_3.index ⟨(i 0).val / 5000, _⟩ (0 : Fin 2) * 5000 + 5000
    omega
  | ⟨1, _⟩ =>
    show win2_3.index ⟨(i 0).val / 5000, _⟩ (1 : Fin 2) * 128 ≤ (i 1).val
      ∧ (i 1).val < win2_3.index ⟨(i 0).val / 5000, _⟩ (1 : Fin 2) * 128 + 128
    omega

/-- The output array after launch 2, at any entry contents `V`: per edge and lane, the normalised weight of the lane's
    head times the value. -/
theorem final (c : Dev nD) :
    (dat2 (F := Ideal) V c).arrAt 3 cfg2.N = K.wmulF (E := 1000000) (V c main_v10) (V c main_v14) (V c main_v9) :=
  (dat2 (F := Ideal) V c).arrAt_eq_of_cover 3 (K.wmulF (E := 1000000) (V c main_v10) (V c main_v14) (V c main_v9))
    (fun t _ => flushed_eq V c t) covered

end Cert.Bridge.KReg2

end
-- ==== Proof.KReg3.lean ====
/-
  LAUNCH 3 AS ONE FUNCTION. The tiled dense product of the narrowed aggregate `[50000, 128]` and the narrowed,
  transposed output projection `[128, 128]`: 25 row blocks of 2000, each written once; the array after the launch
  is the whole product `mmF`.
-/
import proofs.«429704_j44057774522827_1_alg».proof.Proof.Gen.KernelIdeal.Frame
import proofs.«429704_j44057774522827_1_alg».proof.Proof.KForms
import Idealize.ShloMosaic.Lib.Pipeline.Value
import Idealize.ShloMosaic.Lib.ValueIdx
import Idealize.ShloMosaic.PureOps.Ideal.Laws

open scoped BigOperators

noncomputable section

namespace Cert.Bridge.KReg3

open Idealize.ShloMosaic Idealize.ShloMosaic.TcCoe Idealize.ShloMosaic.ValueIdx Idealize.SL.Sem Cert.KernelIdeal Cert.KernelIdeal.Gen Cert.Bridge

variable (V : (c : Dev nD) → (b : Ref sig .tc) → Buf (Elt Ideal) ((c : Thread nD τ).loc b))

/-- The two zero offsets, spelt as the constant function. -/
theorem zero_off : (![0, 0] : Fin 2 → Nat) = fun _ => 0 := funext fun a => by fin_cases a <;> rfl

/-! ## The block product read at an index -/

/-- The left operand's row coordinate is the output's row. -/
theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
/-- The left operand's column coordinate is the contracted one. -/
theorem lhs_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand's row coordinate is the contracted one. -/
theorem rhs_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- The right operand's column coordinate is the output's column. -/
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The body's payload at row `p`, column `q` of the block: the sum over the 128 contracted positions of the
    products of the left block's row `p` and the right block's column `q` (the accumulator is the zero splat and
    the two shape casts are to the same shape). -/
theorem pay_apply (x0 : FVec Ideal S2000x128 .bf16) (x1 : FVec Ideal S128x128 .bf16) (p : Fin 2000) (q : Fin 128) :
    k3_pay1 (F := Ideal) x0 x1 (ix2 p q) = ∑ k : Fin 128, x0 (ix2 p k) * x1 (ix2 k q) := by
  unfold k3_pay1
  rw [shapeCast_self, shapeCast_self]
  simp only [matmul]
  rw [Ideal.matmul_constant_zero_apply,
    ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q)
      ((contrEquiv1 dot_S2000x128_S128x128_S2000x128_1_0_0_1_n_n 128 rfl rfl).symm k) = ix2 p k :=
    funext fun a => Fin.ext (by
      match a with
      | ⟨0, _⟩ => exact lhs_row _ _
      | ⟨1, _⟩ => exact (lhs_col _ _).trans hk)
  have er : dot_S2000x128_S128x128_S2000x128_1_0_0_1_n_n.rhsIdx (ix2 p q)
      ((contrEquiv1 dot_S2000x128_S128x128_S2000x128_1_0_0_1_n_n 128 rfl rfl).symm k) = ix2 k q :=
    funext fun a => Fin.ext (by
      match a with
      | ⟨0, _⟩ => exact (rhs_row _ _).trans hk
      | ⟨1, _⟩ => exact rhs_col _ _)
  rw [el, er]

/-! ## From the blocks to the array -/

/-- The printed index maps, decided over the 25 points: the left window and the output window sit on the same row
    block and on column block 0, the right window is always block (0, 0), and the output's row block is below 25. -/
theorem idx_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) ≤ 24 :=
  (by decide +kernel : ∀ t : Fin grid3.N, _)

/-- Every row block is some point's. -/
theorem idx_onto : ∀ (b : Fin 25), ∃ t : Fin cfg3.N, win3_2.index t = ![b.val, 0] :=
  (by decide +kernel : ∀ (b : Fin 25), ∃ t : Fin grid3.N, win3_2.index t = ![b.val, 0])

/-- The left window's block at point `t`, at row `p` and column `k`, is the left array at the row the output's block
    puts `p` on, and column `k`. -/
theorem read_lhs (c : Dev nD) (t : Fin cfg3.N) (p : Fin 2000) (k : Fin 128) (i : S50000x128.Idx)
    (h0 : (i 0).val = win3_2.index t (0 : Fin 2) * 2000 + p.val) (h1 : (i 1).val = k.val) :
    iblk3 V c 0 t (ix2 p k) = V c main_v19 i := by
  obtain ⟨e0, e1, -, -, -, -⟩ := idx_facts t
  show V c main_v19 (((cfg3.win 0).blk t).view.emb (ix2 p k)) = V c main_v19 i
  refine congrArg _ (funext fun a => Fin.ext ?_)
  match a with
  | ⟨0, _⟩ => show win3_0.index t (0 : Fin 2) * 2000 + 1 * p.val = (i 0).val; omega
  | ⟨1, _⟩ => show win3_0.index t (1 : Fin 2) * 128 + 1 * k.val = (i 1).val; omega

/-- The right window's block at any point is the whole right array. -/
theorem read_rhs (c : Dev nD) (t : Fin cfg3.N) (k : Fin 128) (q : Fin 128) (i : S128x128.Idx)
    (h0 : (i 0).val = k.val) (h1 : (i 1).val = q.val) :
    iblk3 V c 1 t (ix2 k q) = V c main_v21 i := by
  obtain ⟨-, -, e2, e3, -, -⟩ := idx_facts t
  show V c main_v21 (((cfg3.win 1).blk t).view.emb (ix2 k q)) = V c main_v21 i
  refine congrArg _ (funext fun a => Fin.ext ?_)
  match a with
  | ⟨0, _⟩ => show win3_1.index t (0 : Fin 2) * 128 + 1 * k.val = (i 0).val; omega
  | ⟨1, _⟩ => show win3_1.index t (1 : Fin 2) * 128 + 1 * q.val = (i 1).val; omega

/-- WHAT POINT `t` WRITES BACK is block `t` of the dense product of the two arrays as the launch finds them. -/
theorem flushed_eq (c : Dev nD) (t : Fin cfg3.N) :
    (dat3 (F := Ideal) V c).flushed 2 t
      = ((cfg3.win 2).blk t).view.read (Elt Ideal) (K.mmF (A := 50000) (K := 128) (C := 128) (V c main_v19) (V c main_v21)) := by
  show (cfg3.win 2).cut (grid3.coords t) ((dat3 (F := Ideal) V c).after 2 t) = _
  rw [after3_2]
  unfold out3_2
  rw [View.canon_unit_zero zero_off]
  simp only [View.ld_unit_zero (S := S2000x128) zero_off, View.ld_unit_zero (S := S128x128) zero_off]
  funext j
  obtain ⟨p, q, rfl⟩ : ∃ (p : Fin 2000) (q : Fin 128), j = ix2 p q := ⟨j 0, j 1, eq_ix2 j⟩
  refine (pay_apply (iblk3 V c 0 t) (iblk3 V c 1 t) p q).trans ?_
  show _ = K.mmF (A := 50000) (K := 128) (C := 128) (V c main_v19) (V c main_v21) (((cfg3.win 2).blk t).view.emb (ix2 p q))
  unfold K.mmF
  refine Finset.sum_congr rfl fun k _ => ?_
  have hl := read_lhs V c t p k (ix2 (⟨((((cfg3.win 2).blk t).view.emb (ix2 p q)) 0).val, idx2_lt0 _⟩ : Fin 50000) k)
    (by show win3_2.index t (0 : Fin 2) * 2000 + 1 * p.val = _; omega) rfl
  have hr := read_rhs V c t k q (ix2 k (⟨((((cfg3.win 2).blk t).view.emb (ix2 p q)) 1).val, idx2_lt1 _⟩ : Fin 128)) rfl
    (by obtain ⟨-, -, -, -, e4, -⟩ := idx_facts t
        show win3_2.index t (1 : Fin 2) * 128 + 1 * q.val = _; omega)
  rw [hl, hr]

/-- An index of the output array is in point `t`'s block iff each coordinate is in the block's range on its axis. -/
theorem mem_blk (t : Fin cfg3.N) (i : S50000x128.Idx) :
    i ∈ ((cfg3.win 2).blk t).view.set ↔ ∀ a : Fin 2, win3_2.index t a * S2000x128.size a ≤ (i a).val
      ∧ (i a).val < win3_2.index t a * S2000x128.size a + S2000x128.size a := by
  show i ∈ ((View.whole main_v22).slice (win3_2.rect t)).set ↔ _
  rw [View.set_slice_whole, Rect.mem_set_unit]
  exact Iff.rfl

/-- Every index of the output array is in some point's block: row `r` is in row block `r / 2000`. -/
theorem cover (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := idx_onto ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_blk]
  intro a
  match a with
  | ⟨0, _⟩ =>
    show win3_2.index t (0 : Fin 2) * 2000 ≤ (i 0).val ∧ (i 0).val < win3_2.index t (0 : Fin 2) * 2000 + 2000
    omega
  | ⟨1, _⟩ =>
    show win3_2.index t (1 : Fin 2) * 128 ≤ (i 1).val ∧ (i 1).val < win3_2.index t (1 : Fin 2) * 128 + 128
    omega

/-- The output array after launch 3, at any entry contents `V`: the dense product of the two input arrays. -/
theorem final (c : Dev nD) :
    (dat3 (F := Ideal) V c).arrAt 2 cfg3.N = K.mmF (A := 50000) (K := 128) (C := 128) (V c main_v19) (V c main_v21) := by
  exact (dat3 (F := Ideal) V c).arrAt_eq_of_cover 2
    (K.mmF (A := 50000) (K := 128) (C := 128) (V c main_v19) (V c main_v21)) (fun t _ => flushed_eq V c t) cover

end Cert.Bridge.KReg3

end
-- ==== Proof.KReg1.lean ====
/-
  LAUNCH 1 AS ONE FUNCTION. Per block of 5000 edges the body multiplies the query and key blocks lane by lane and, for
  each of the 8 heads, sums the head's 16 lanes, scales by a quarter, applies leaky ReLU, clips and exponentiates, and
  stores the head's column. The array after the launch is `scoreF` of the two input arrays.
-/
import proofs.«429704_j44057774522827_1_alg».proof.Proof.Gen.KernelIdeal.Frame
import proofs.«429704_j44057774522827_1_alg».proof.Proof.KForms
import Idealize.ShloMosaic.Lib.Pipeline.Value
import Idealize.ShloMosaic.Lib.ValueIdx
import Idealize.ShloMosaic.Lib.ValueLayout
import Idealize.ShloMosaic.PureOps.Ideal.Laws

open scoped BigOperators

noncomputable section

namespace Cert.Bridge.KReg1

open Idealize.ShloMosaic Idealize.ShloMosaic.TcCoe Idealize.ShloMosaic.ValueIdx Idealize.SL.Sem Cert.KernelIdeal Cert.KernelIdeal.Gen Cert.Bridge

/-- The sum over a row's 16 lanes. -/
private theorem laneSum_apply (s : FVec Ideal S5000x16 .f32) (hacc : (0x00000000#32 : BitVec 32) = 0x00000000#32) (p : Fin 5000) :
    multiReduction .add [1] S5000 s 0x00000000#32 reduces_S5000x16_S5000 (.inl rfl) hacc (ix1 p) = ∑ d : Fin 16, s (ix2 p d) := by
  refine (Ideal.multiReduction_add_single s 0x00000000#32 reduces_S5000x16_S5000 (.inl rfl) hacc (ix1 p)).trans ?_
  exact Finset.sum_congr rfl (fun d _ => congrArg s (funext fun a => Fin.ext (by
    match a with
    | ⟨0, _⟩ => rfl
    | ⟨1, _⟩ => rfl)))

/-- One head's column as a function of the head's 16-lane slice. -/
private def headCol (s : FVec Ideal S5000x16 .f32) : FVec Ideal S5000x1 .f32 :=
  exp (minimumf (broadcast S5000x1 (Scalar.ofBits .f32 0x41A00000#32))
    (maximumf (broadcast S5000x1 (Scalar.ofBits .f32 0xC1A00000#32))
      (select (cmpf .oge (mulf (shapeCast S5000x1 (multiReduction .add [1] S5000 s 0x00000000#32 reduces_S5000x16_S5000 (.inl rfl) rfl) shapeCasts_S5000_S5000x1) (broadcast S5000x1 (Scalar.ofBits .f32 0x3E800000#32))) (broadcast S5000x1 (Scalar.ofBits .f32 0x00000000#32)))
        (mulf (shapeCast S5000x1 (multiReduction .add [1] S5000 s 0x00000000#32 reduces_S5000x16_S5000 (.inl rfl) rfl) shapeCasts_S5000_S5000x1) (broadcast S5000x1 (Scalar.ofBits .f32 0x3E800000#32)))
        (mulf (broadcast S5000x1 (Scalar.ofBits .f32 0x3E4CCCCD#32)) (mulf (shapeCast S5000x1 (multiReduction .add [1] S5000 s 0x00000000#32 reduces_S5000x16_S5000 (.inl rfl) rfl) shapeCasts_S5000_S5000x1) (broadcast S5000x1 (Scalar.ofBits .f32 0x3E800000#32)))))))

/-- A vector of 5000 entries seen as a column: entry `(p, 0)` is entry `p`. -/
private theorem col_cast_apply (r : FVec Ideal S5000 .f32) (p : Fin 5000) (q : Fin 1) :
    shapeCast S5000x1 r shapeCasts_S5000_S5000x1 (ix2 p q) = r (ix1 p) := by
  refine shapeCast_apply r shapeCasts_S5000_S5000x1 (ix2 p q) (ix1 p) ?_
  rw [Shape.rowMajor_val_one, Shape.rowMajor_val_two]
  show p.val = p.val * 1 + q.val
  have := q.isLt
  omega

/-- The column at row `p`: the activation of a quarter of the row's lane sum. -/
private theorem headCol_apply (s : FVec Ideal S5000x16 .f32) (p : Fin 5000) (q : Fin 1) :
    headCol s (ix2 p q) = Spec.act0 ((∑ d : Fin 16, s (ix2 p d)) * Spec.quarterW) := by
  have e : shapeCast S5000x1 (multiReduction .add [1] S5000 s 0x00000000#32 reduces_S5000x16_S5000 (.inl rfl) rfl) shapeCasts_S5000_S5000x1 (ix2 p q) = ∑ d : Fin 16, s (ix2 p d) :=
    (col_cast_apply _ p q).trans (laneSum_apply s rfl p)
  show Spec.act0 (shapeCast S5000x1 (multiReduction .add [1] S5000 s 0x00000000#32 reduces_S5000x16_S5000 (.inl rfl) rfl) shapeCasts_S5000_S5000x1 (ix2 p q) * Spec.quarterW) = _
  rw [e]

/-- Each head's payload is the column of its slice. -/
private theorem pay4_eq (x0 x1 : Vec Ideal S5000x128 .f32) :
    k1_pay4 x0 x1 = headCol (extractStridedSlice S5000x16 ![0, 0] (k1_pay3 x0 x1) slices_S5000x128_o0_0_S5000x16) := rfl
private theorem pay5_eq (x0 x1 : Vec Ideal S5000x128 .f32) :
    k1_pay5 x0 x1 = headCol (extractStridedSlice S5000x16 ![0, 16] (k1_pay3 x0 x1) slices_S5000x128_o0_16_S5000x16) := rfl
private theorem pay6_eq (v : FVec Ideal S5000x128 .f32) :
    k1_pay6 v = headCol (extractStridedSlice S5000x16 ![0, 32] v slices_S5000x128_o0_32_S5000x16) := rfl
private theorem pay7_eq (v : FVec Ideal S5000x128 .f32) :
    k1_pay7 v = headCol (extractStridedSlice S5000x16 ![0, 48] v slices_S5000x128_o0_48_S5000x16) := rfl
private theorem pay10_eq (v : FVec Ideal S5000x128 .f32) :
    k1_pay10 (k1_pay8 v) (k1_pay9 v) = headCol (extractStridedSlice S5000x16 ![0, 64] v slices_S5000x128_o0_64_S5000x16) := rfl
private theorem pay11_eq (v : FVec Ideal S5000x128 .f32) :
    k1_pay11 v = headCol (extractStridedSlice S5000x16 ![0, 80] v slices_S5000x128_o0_80_S5000x16) := rfl
private theorem pay1_eq (v : FVec Ideal S5000x128 .f32) :
    k1_pay1 (k1_pay12 v) = headCol (extractStridedSlice S5000x16 ![0, 96] v slices_S5000x128_o0_96_S5000x16) := rfl
private theorem pay2_eq (v : FVec Ideal S5000x128 .f32) :
    k1_pay2 v = headCol (extractStridedSlice S5000x16 ![0, 112] v slices_S5000x128_o0_112_S5000x16) := rfl

/-- The product block, lane by lane. -/
private theorem pay3_apply (x0 x1 : Vec Ideal S5000x128 .f32) (i : S5000x128.Idx) : k1_pay3 x0 x1 i = x0 i * x1 i := by
  show shapeCast S5000x128 x0 shapeCasts_S5000x128_S5000x128 i * shapeCast S5000x128 x1 shapeCasts_S5000x128_S5000x128 i = _
  rw [shapeCast_self, shapeCast_self]

/-- The column of the slice at lane offset `o = 16 h` is head `h`'s column of the block's score. -/
private theorem piece_col (x0 x1 : Vec Ideal S5000x128 .f32) (o : Nat) (h : Fin 8) (ho : o = 16 * h.val)
    (hs : S5000x128.Slices ![0, o] S5000x16) (p : Fin 5000) (q : Fin 1) :
    headCol (extractStridedSlice S5000x16 ![0, o] (k1_pay3 x0 x1) hs) (ix2 p q) = K.scoreF (E := 5000) x0 x1 (ix2 p h) := by
  refine (headCol_apply _ p q).trans ?_
  refine Eq.trans ?_ (K.scoreF_apply x0 x1 p h).symm
  refine congrArg (fun t => Spec.act0 (t * Spec.quarterW)) ?_
  refine Finset.sum_congr rfl fun d _ => ?_
  refine (slice2_axis1_apply o (k1_pay3 x0 x1) hs p d (Spec.lane h d) (by subst ho; rfl)).trans ?_
  exact pay3_apply x0 x1 _

/-- Column `k` of the output block, embedded: row `p` of column `k`. -/
private theorem col_emb (k : Nat) (hk : k < 8) (inb : ∀ a, (![0, k] : Fin 2 → Nat) a + S5000x1.size a ≤ S5000x8.size a)
    (p : Fin 5000) (q : Fin 1) :
    (Rect.unit (s := S5000x8) ![0, k] S5000x1.size inb).emb (ix2 p q) = ix2 p (⟨k, hk⟩ : Fin 8) := by
  funext a; apply Fin.ext
  match a with
  | ⟨0, _⟩ => show 0 + 1 * p.val = p.val; omega
  | ⟨1, _⟩ => show k + 1 * q.val = k; have := q.isLt; omega

/-- The piece stored into column `k` is the block's score there. -/
private theorem piece_at (x0 x1 : Vec Ideal S5000x128 .f32) (k : Nat) (hk : k < 8) (o : Nat) (ho : o = 16 * k)
    (hs : S5000x128.Slices ![0, o] S5000x16) (inb : ∀ a, (![0, k] : Fin 2 → Nat) a + S5000x1.size a ≤ S5000x8.size a)
    (x : (Rect.unit (s := S5000x8) ![0, k] S5000x1.size inb).shape.Idx) :
    headCol (extractStridedSlice S5000x16 ![0, o] (k1_pay3 x0 x1) hs) x
      = K.scoreF (E := 5000) x0 x1 ((Rect.unit (s := S5000x8) ![0, k] S5000x1.size inb).emb x) := by
  obtain ⟨p, q, rfl⟩ : ∃ (p : Fin 5000) (q : Fin 1), x = ix2 p q := ⟨x 0, x 1, eq_ix2 x⟩
  exact (piece_col x0 x1 o ⟨k, hk⟩ ho hs p q).trans (congrArg (K.scoreF (E := 5000) x0 x1) (col_emb k hk inb p q).symm)

/-- The zero offsets, however spelt. -/
private theorem hz : (![0, 0] : Fin 2 → Nat) = fun _ => 0 := funext fun a => by fin_cases a <;> rfl

/-- The output block after the body is the score of the two input blocks. -/
private theorem out_eq (x0 x1 : Vec Ideal S5000x128 .f32) : out1_2 (F := Ideal) x0 x1 = K.scoreF (E := 5000) x0 x1 := by
  funext y
  unfold out1_2
  simp only [View.ld_unit_zero (S := S5000x128) hz]
  rw [pay4_eq, pay5_eq, pay6_eq, pay7_eq, pay10_eq, pay11_eq, pay1_eq, pay2_eq]
  refine View.canon_apply_of_pieces (Val := Elt Ideal) (K.scoreF (E := 5000) x0 x1) _ ?_ y (cover1_2 _ _ _ _ _ _ _ _ y)
  intro pc hpc x
  simp only [List.mem_cons, List.not_mem_nil, or_false] at hpc
  rcases hpc with rfl | rfl | rfl | rfl | rfl | rfl | rfl | rfl
  · exact piece_at x0 x1 7 (by omega) 112 rfl slices_S5000x128_o0_112_S5000x16 inb_S5000x8_S5000x1_0_7 x
  · exact piece_at x0 x1 6 (by omega) 96 rfl slices_S5000x128_o0_96_S5000x16 inb_S5000x8_S5000x1_0_6 x
  · exact piece_at x0 x1 5 (by omega) 80 rfl slices_S5000x128_o0_80_S5000x16 inb_S5000x8_S5000x1_0_5 x
  · exact piece_at x0 x1 4 (by omega) 64 rfl slices_S5000x128_o0_64_S5000x16 inb_S5000x8_S5000x1_0_4 x
  · exact piece_at x0 x1 3 (by omega) 48 rfl slices_S5000x128_o0_48_S5000x16 inb_S5000x8_S5000x1_0_3 x
  · exact piece_at x0 x1 2 (by omega) 32 rfl slices_S5000x128_o0_32_S5000x16 inb_S5000x8_S5000x1_0_2 x
  · exact piece_at x0 x1 1 (by omega) 16 rfl slices_S5000x128_o0_16_S5000x16 inb_S5000x8_S5000x1_0_1 x
  · exact piece_at x0 x1 0 (by omega) 0 rfl slices_S5000x128_o0_0_S5000x16 inb_S5000x8_S5000x1_0_0 x

variable (V : (c : Dev nD) → (b : Ref sig .tc) → Buf (Elt Ideal) ((c : Thread nD τ).loc b))

/-- The printed index maps, decided over the 200 points: every window's block at point `t` is row block `t`, column block 0. -/
private theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The query block at point `t`, row `p`: the array's row `5000 t + p`. -/
private theorem blk0_read (c : Dev nD) (t : Fin cfg1.N) (p : Fin 5000) (l : Fin 128) (e : Fin 1000000)
    (he : e.val = t.val * 5000 + p.val) : iblk1 V c 0 t (ix2 p l) = V c main_v7 (ix2 e l) := by
  show V c main_v7 (((cfg1.win 0).blk t).view.emb (ix2 p l)) = V c main_v7 (ix2 e l)
  refine congrArg _ (funext fun a => Fin.ext ?_)
  obtain ⟨e0, e1, -⟩ := idx_facts t
  match a with
  | ⟨0, _⟩ => show win1_0.index t (0 : Fin 2) * 5000 + 1 * p.val = e.val; omega
  | ⟨1, _⟩ => show win1_0.index t (1 : Fin 2) * 128 + 1 * l.val = l.val; omega

/-- The key block likewise. -/
private theorem blk1_read (c : Dev nD) (t : Fin cfg1.N) (p : Fin 5000) (l : Fin 128) (e : Fin 1000000)
    (he : e.val = t.val * 5000 + p.val) : iblk1 V c 1 t (ix2 p l) = V c main_v8 (ix2 e l) := by
  show V c main_v8 (((cfg1.win 1).blk t).view.emb (ix2 p l)) = V c main_v8 (ix2 e l)
  refine congrArg _ (funext fun a => Fin.ext ?_)
  obtain ⟨-, -, e0, e1, -⟩ := idx_facts t
  match a with
  | ⟨0, _⟩ => show win1_1.index t (0 : Fin 2) * 5000 + 1 * p.val = e.val; omega
  | ⟨1, _⟩ => show win1_1.index t (1 : Fin 2) * 128 + 1 * l.val = l.val; omega

/-- Where the output block's element `(p, h)` sits in the array. -/
private theorem blk2_emb (t : Fin cfg1.N) (p : Fin 5000) (h : Fin 8) (e : Fin 1000000)
    (he : e.val = t.val * 5000 + p.val) : ((cfg1.win 2).blk t).view.emb (ix2 p h) = (ix2 e h : S1000000x8.Idx) := by
  funext a; apply Fin.ext
  obtain ⟨-, -, -, -, e0, e1⟩ := idx_facts t
  match a with
  | ⟨0, _⟩ => show win1_2.index t (0 : Fin 2) * 5000 + 1 * p.val = e.val; omega
  | ⟨1, _⟩ => show win1_2.index t (1 : Fin 2) * 8 + 1 * h.val = h.val; omega

/-- What point `t` writes back is block `t` of the whole array's score. -/
private theorem flushed_eq (c : Dev nD) (t : Fin cfg1.N) :
    (dat1 (F := Ideal) V c).flushed 2 t
      = ((cfg1.win 2).blk t).view.read (Elt Ideal) (K.scoreF (E := 1000000) (V c main_v7) (V c main_v8)) := by
  show (cfg1.win 2).cut (grid1.coords t) ((dat1 V c).after 2 t) = _
  rw [after1_2]
  refine (out_eq (iblk1 V c 0 t) (iblk1 V c 1 t)).trans ?_
  funext j
  obtain ⟨p, h, rfl⟩ : ∃ (p : Fin 5000) (h : Fin 8), j = ix2 p h := ⟨j 0, j 1, eq_ix2 j⟩
  have ht : t.val < 200 := lt_of_lt_of_eq t.isLt N_1
  have hb : t.val * 5000 + p.val < 1000000 := by have := p.isLt; omega
  show K.scoreF (E := 5000) (iblk1 V c 0 t) (iblk1 V c 1 t) (ix2 p h)
    = K.scoreF (E := 1000000) (V c main_v7) (V c main_v8) (((cfg1.win 2).blk t).view.emb (ix2 p h))
  refine Eq.trans ?_ (congrArg (K.scoreF (E := 1000000) (V c main_v7) (V c main_v8)) (blk2_emb t p h ⟨t.val * 5000 + p.val, hb⟩ rfl).symm)
  refine (K.scoreF_apply _ _ p h).trans (Eq.trans ?_ (K.scoreF_apply _ _ _ h).symm)
  refine congrArg (fun s => Spec.act0 (s * Spec.quarterW)) (Finset.sum_congr rfl fun d _ => ?_)
  exact congrArg₂ (· * ·) (blk0_read V c t p _ ⟨_, hb⟩ rfl) (blk1_read V c t p _ ⟨_, hb⟩ rfl)

/-- An index of the array is in point `t`'s block iff each coordinate is in the block's range on its axis. -/
private theorem mem_blk (t : Fin cfg1.N) (i : S1000000x8.Idx) :
    i ∈ ((cfg1.win 2).blk t).view.set ↔ ∀ a : Fin 2, win1_2.index t a * S5000x8.size a ≤ (i a).val
      ∧ (i a).val < win1_2.index t a * S5000x8.size a + S5000x8.size a := by
  show i ∈ ((View.whole main_v10).slice (win1_2.rect t)).set ↔ _
  rw [View.set_slice_whole, Rect.mem_set_unit]
  exact Iff.rfl

/-- Every index of the array is in the block of the point its row falls in. -/
private theorem cover (i : S1000000x8.Idx) : ∃ t : Fin cfg1.N, (cfg1.win 2).flush t = true ∧ i ∈ ((cfg1.win 2).blk t).view.set := by
  have hi0 : (i 0).val < 1000000 := (i 0).isLt
  have hi1 : (i 1).val < 8 := (i 1).isLt
  have hN : (i 0).val / 5000 < cfg1.N := lt_of_lt_of_eq (by omega : (i 0).val / 5000 < 200) N_1.symm
  refine ⟨⟨(i 0).val / 5000, hN⟩, flush1_2 _, ?_⟩
  rw [mem_blk]
  obtain ⟨-, -, -, -, e0, e1⟩ := idx_facts ⟨(i 0).val / 5000, hN⟩
  have e0' : win1_2.index ⟨(i 0).val / 5000, hN⟩ (0 : Fin 2) = (i 0).val / 5000 := e0
  intro a
  match a with
  | ⟨0, _⟩ =>
    show win1_2.index ⟨(i 0).val / 5000, hN⟩ (0 : Fin 2) * 5000 ≤ (i 0).val
      ∧ (i 0).val < win1_2.index ⟨(i 0).val / 5000, hN⟩ (0 : Fin 2) * 5000 + 5000
    omega
  | ⟨1, _⟩ =>
    show win1_2.index ⟨(i 0).val / 5000, hN⟩ (1 : Fin 2) * 8 ≤ (i 1).val
      ∧ (i 1).val < win1_2.index ⟨(i 0).val / 5000, hN⟩ (1 : Fin 2) * 8 + 8
    omega

/-- The output array after launch 1, at any entry contents `V`: per edge and head, the activation of a quarter of the
    head's 16-lane sum of products. -/
theorem final (c : Dev nD) :
    (dat1 (F := Ideal) V c).arrAt 2 cfg1.N = K.scoreF (E := 1000000) (V c main_v7) (V c main_v8) :=
  (dat1 (F := Ideal) V c).arrAt_eq_of_cover 2 (K.scoreF (E := 1000000) (V c main_v7) (V c main_v8))
    (fun t _ => flushed_eq V c t) cover

end Cert.Bridge.KReg1

end
-- ==== Proof.KReg0.lean ====
/-
  LAUNCH 0 AS ONE FUNCTION. The tiled dense product of the narrowed features `[50000, 128]` and the narrowed,
  transposed projection `[128, 384]`: 25 row blocks of 2000, each written once; the array after the launch is the
  whole product `mmF`.
-/
import proofs.«429704_j44057774522827_1_alg».proof.Proof.Gen.KernelIdeal.Frame
import proofs.«429704_j44057774522827_1_alg».proof.Proof.KForms
import Idealize.ShloMosaic.Lib.Pipeline.Value
import Idealize.ShloMosaic.Lib.ValueIdx
import Idealize.ShloMosaic.PureOps.Ideal.Laws

open scoped BigOperators

noncomputable section

namespace Cert.Bridge.KReg0

open Idealize.ShloMosaic Idealize.ShloMosaic.TcCoe Idealize.ShloMosaic.ValueIdx Idealize.SL.Sem Cert.KernelIdeal Cert.KernelIdeal.Gen Cert.Bridge

variable (V : (c : Dev nD) → (b : Ref sig .tc) → Buf (Elt Ideal) ((c : Thread nD τ).loc b))

/-- The two zero offsets, spelt as the constant function. -/
theorem zero_off : (![0, 0] : Fin 2 → Nat) = fun _ => 0 := funext fun a => by fin_cases a <;> rfl

/-! ## The block product read at an index -/

/-- The left operand's row coordinate is the output's row. -/
theorem lhs_row (i : S2000x384.Idx) (q : dot_S2000x128_S128x384_S2000x384_1_0_0_1_n_n.contr.Idx) :
    (dot_S2000x128_S128x384_S2000x384_1_0_0_1_n_n.lhsIdx i q 0).val = (i 0).val := by
  unfold DotDims.lhsIdx
  rw [dif_neg (show ¬(0 : Fin S2000x128.rank) ∈ dot_S2000x128_S128x384_S2000x384_1_0_0_1_n_n.lhsBatch by decide),
    dif_pos (show (0 : Fin S2000x128.rank) ∈ dot_S2000x128_S128x384_S2000x384_1_0_0_1_n_n.lhsNonContracting by decide)]
  rfl
/-- The left operand's column coordinate is the contracted one. -/
theorem lhs_col (i : S2000x384.Idx) (q : dot_S2000x128_S128x384_S2000x384_1_0_0_1_n_n.contr.Idx) :
    (dot_S2000x128_S128x384_S2000x384_1_0_0_1_n_n.lhsIdx i q 1).val = (q ⟨0, by decide⟩).val :=
  dot_S2000x128_S128x384_S2000x384_1_0_0_1_n_n.lhsIdx_val_of_single rfl i q
/-- The right operand's row coordinate is the contracted one. -/
theorem rhs_row (i : S2000x384.Idx) (q : dot_S2000x128_S128x384_S2000x384_1_0_0_1_n_n.contr.Idx) :
    (dot_S2000x128_S128x384_S2000x384_1_0_0_1_n_n.rhsIdx i q 0).val = (q ⟨0, by decide⟩).val :=
  dot_S2000x128_S128x384_S2000x384_1_0_0_1_n_n.rhsIdx_val_of_single rfl i q
/-- The right operand's column coordinate is the output's column. -/
theorem rhs_col (i : S2000x384.Idx) (q : dot_S2000x128_S128x384_S2000x384_1_0_0_1_n_n.contr.Idx) :
    (dot_S2000x128_S128x384_S2000x384_1_0_0_1_n_n.rhsIdx i q 1).val = (i 1).val := by
  unfold DotDims.rhsIdx
  rw [dif_neg (show ¬(1 : Fin S128x384.rank) ∈ dot_S2000x128_S128x384_S2000x384_1_0_0_1_n_n.rhsBatch by decide),
    dif_pos (show (1 : Fin S128x384.rank) ∈ dot_S2000x128_S128x384_S2000x384_1_0_0_1_n_n.rhsNonContracting by decide)]
  rfl

/-- The body's payload at row `p`, column `q` of the block: the sum over the 128 contracted positions of the
    products of the left block's row `p` and the right block's column `q` (the accumulator is the zero splat and
    the two shape casts are to the same shape). -/
theorem pay_apply (x0 : FVec Ideal S2000x128 .bf16) (x1 : FVec Ideal S128x384 .bf16) (p : Fin 2000) (q : Fin 384) :
    k0_pay1 (F := Ideal) x0 x1 (ix2 p q) = ∑ k : Fin 128, x0 (ix2 p k) * x1 (ix2 k q) := by
  unfold k0_pay1
  rw [shapeCast_self, shapeCast_self]
  simp only [matmul]
  rw [Ideal.matmul_constant_zero_apply,
    ← Equiv.sum_comp (contrEquiv1 dot_S2000x128_S128x384_S2000x384_1_0_0_1_n_n 128 rfl rfl).symm]
  refine Finset.sum_congr rfl fun k _ => ?_
  have hk := contrEquiv1_symm_val dot_S2000x128_S128x384_S2000x384_1_0_0_1_n_n 128 rfl rfl k
  have el : dot_S2000x128_S128x384_S2000x384_1_0_0_1_n_n.lhsIdx (ix2 p q)
      ((contrEquiv1 dot_S2000x128_S128x384_S2000x384_1_0_0_1_n_n 128 rfl rfl).symm k) = ix2 p k :=
    funext fun a => Fin.ext (by
      match a with
      | ⟨0, _⟩ => exact lhs_row _ _
      | ⟨1, _⟩ => exact (lhs_col _ _).trans hk)
  have er : dot_S2000x128_S128x384_S2000x384_1_0_0_1_n_n.rhsIdx (ix2 p q)
      ((contrEquiv1 dot_S2000x128_S128x384_S2000x384_1_0_0_1_n_n 128 rfl rfl).symm k) = ix2 k q :=
    funext fun a => Fin.ext (by
      match a with
      | ⟨0, _⟩ => exact (rhs_row _ _).trans hk
      | ⟨1, _⟩ => exact rhs_col _ _)
  rw [el, er]

/-! ## From the blocks to the array -/

/-- The printed index maps, decided over the 25 points: the left window and the output window sit on the same row
    block and on column block 0, the right window is always block (0, 0), and the output's row block is below 25. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 24 :=
  (by decide +kernel : ∀ t : Fin grid0.N, _)

/-- Every row block is some point's. -/
theorem idx_onto : ∀ (b : Fin 25), ∃ t : Fin cfg0.N, win0_2.index t = ![b.val, 0] :=
  (by decide +kernel : ∀ (b : Fin 25), ∃ t : Fin grid0.N, win0_2.index t = ![b.val, 0])

/-- The left window's block at point `t`, at row `p` and column `k`, is the left array at the row the output's block
    puts `p` on, and column `k`. -/
theorem read_lhs (c : Dev nD) (t : Fin cfg0.N) (p : Fin 2000) (k : Fin 128) (i : S50000x128.Idx)
    (h0 : (i 0).val = win0_2.index t (0 : Fin 2) * 2000 + p.val) (h1 : (i 1).val = k.val) :
    iblk0 V c 0 t (ix2 p k) = V c main_v0 i := by
  obtain ⟨e0, e1, -, -, -, -⟩ := idx_facts t
  show V c main_v0 (((cfg0.win 0).blk t).view.emb (ix2 p k)) = V c main_v0 i
  refine congrArg _ (funext fun a => Fin.ext ?_)
  match a with
  | ⟨0, _⟩ => show win0_0.index t (0 : Fin 2) * 2000 + 1 * p.val = (i 0).val; omega
  | ⟨1, _⟩ => show win0_0.index t (1 : Fin 2) * 128 + 1 * k.val = (i 1).val; omega

/-- The right window's block at any point is the whole right array. -/
theorem read_rhs (c : Dev nD) (t : Fin cfg0.N) (k : Fin 128) (q : Fin 384) (i : S128x384.Idx)
    (h0 : (i 0).val = k.val) (h1 : (i 1).val = q.val) :
    iblk0 V c 1 t (ix2 k q) = V c main_v2 i := by
  obtain ⟨-, -, e2, e3, -, -⟩ := idx_facts t
  show V c main_v2 (((cfg0.win 1).blk t).view.emb (ix2 k q)) = V c main_v2 i
  refine congrArg _ (funext fun a => Fin.ext ?_)
  match a with
  | ⟨0, _⟩ => show win0_1.index t (0 : Fin 2) * 128 + 1 * k.val = (i 0).val; omega
  | ⟨1, _⟩ => show win0_1.index t (1 : Fin 2) * 384 + 1 * q.val = (i 1).val; omega

/-- WHAT POINT `t` WRITES BACK is block `t` of the dense product of the two arrays as the launch finds them. -/
theorem flushed_eq (c : Dev nD) (t : Fin cfg0.N) :
    (dat0 (F := Ideal) V c).flushed 2 t
      = ((cfg0.win 2).blk t).view.read (Elt Ideal) (K.mmF (A := 50000) (K := 128) (C := 384) (V c main_v0) (V c main_v2)) := by
  show (cfg0.win 2).cut (grid0.coords t) ((dat0 (F := Ideal) V c).after 2 t) = _
  rw [after0_2]
  unfold out0_2
  rw [View.canon_unit_zero zero_off]
  simp only [View.ld_unit_zero (S := S2000x128) zero_off, View.ld_unit_zero (S := S128x384) zero_off]
  funext j
  obtain ⟨p, q, rfl⟩ : ∃ (p : Fin 2000) (q : Fin 384), j = ix2 p q := ⟨j 0, j 1, eq_ix2 j⟩
  refine (pay_apply (iblk0 V c 0 t) (iblk0 V c 1 t) p q).trans ?_
  show _ = K.mmF (A := 50000) (K := 128) (C := 384) (V c main_v0) (V c main_v2) (((cfg0.win 2).blk t).view.emb (ix2 p q))
  unfold K.mmF
  refine Finset.sum_congr rfl fun k _ => ?_
  have hl := read_lhs V c t p k (ix2 (⟨((((cfg0.win 2).blk t).view.emb (ix2 p q)) 0).val, idx2_lt0 _⟩ : Fin 50000) k)
    (by show win0_2.index t (0 : Fin 2) * 2000 + 1 * p.val = _; omega) rfl
  have hr := read_rhs V c t k q (ix2 k (⟨((((cfg0.win 2).blk t).view.emb (ix2 p q)) 1).val, idx2_lt1 _⟩ : Fin 384)) rfl
    (by obtain ⟨-, -, -, -, e4, -⟩ := idx_facts t
        show win0_2.index t (1 : Fin 2) * 384 + 1 * q.val = _; omega)
  rw [hl, hr]

/-- An index of the output array is in point `t`'s block iff each coordinate is in the block's range on its axis. -/
theorem mem_blk (t : Fin cfg0.N) (i : S50000x384.Idx) :
    i ∈ ((cfg0.win 2).blk t).view.set ↔ ∀ a : Fin 2, win0_2.index t a * S2000x384.size a ≤ (i a).val
      ∧ (i a).val < win0_2.index t a * S2000x384.size a + S2000x384.size a := by
  show i ∈ ((View.whole main_v3).slice (win0_2.rect t)).set ↔ _
  rw [View.set_slice_whole, Rect.mem_set_unit]
  exact Iff.rfl

/-- Every index of the output array is in some point's block: row `r` is in row block `r / 2000`. -/
theorem cover (i : S50000x384.Idx) :
    ∃ t : Fin cfg0.N, (cfg0.win 2).flush t = true ∧ i ∈ ((cfg0.win 2).blk t).view.set := by
  have hi0 : (i 0).val < 50000 := (i 0).isLt
  have hi1 : (i 1).val < 384 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 384 ≤ (i 1).val ∧ (i 1).val < win0_2.index t (1 : Fin 2) * 384 + 384
    omega

/-- The output array after launch 0, at any entry contents `V`: the dense product of the two input arrays. -/
theorem final (c : Dev nD) :
    (dat0 (F := Ideal) V c).arrAt 2 cfg0.N = K.mmF (A := 50000) (K := 128) (C := 384) (V c main_v0) (V c main_v2) := by
  exact (dat0 (F := Ideal) V c).arrAt_eq_of_cover 2
    (K.mmF (A := 50000) (K := 128) (C := 384) (V c main_v0) (V c main_v2)) (fun t _ => flushed_eq V c t) cover

end Cert.Bridge.KReg0

end
-- ==== Proof.KFoldA.lean ====
/-
  THE PROGRAM'S BUFFERS UP TO THE THREE SLICES. Walking the contents from the launch memory through the first host
  stretch, launch 0 and the slices: the query, key and value tables are the three column blocks of the projected
  features, and the argument arrays are still as launched.
-/
import proofs.«429704_j44057774522827_1_alg».proof.Proof.Gen.KernelIdeal.Frame
import proofs.«429704_j44057774522827_1_alg».proof.Proof.KForms
import proofs.«429704_j44057774522827_1_alg».proof.Proof.KReg0
import Idealize.ShloMosaic.Lib.StableHlo.Run

open scoped BigOperators

noncomputable section

namespace Cert.Bridge.KFoldA

open Idealize.ShloMosaic Idealize.ShloMosaic.TcCoe Idealize.ShloMosaic.ValueIdx Idealize.SL.Sem Cert.KernelIdeal Cert.KernelIdeal.Gen Cert.Bridge

variable (m : (ℓ : Loc nD τ sig) → Buf (Elt Ideal) ℓ) (ρ : Dev nD → PrngReg)

/-- The first host stretch narrows the features: launch 0's first input. -/
private theorem W1_x (c : Dev nD) : W1 (F := Ideal) m ρ c (Proc.devRef .tc main_v0) = K.kx (m ((c : Thread nD τ).loc main_arg0)) := by
  show StableHlo.after hostOps0 _ (Proc.devRef .tc main_v0) = _
  after_results
  rfl

/-- The first host stretch transposes and narrows the stacked projection: launch 0's second input. -/
private theorem W1_w (c : Dev nD) : W1 (F := Ideal) m ρ c (Proc.devRef .tc main_v2) = K.kw (m ((c : Thread nD τ).loc main_arg3)) := by
  show StableHlo.after hostOps0 _ (Proc.devRef .tc main_v2) = _
  after_results
  rfl

/-- Launch 0 leaves the projected features in its output array. -/
private theorem W2_qkv (c : Dev nD) : W2 (F := Ideal) m ρ c (Proc.devRef .tc main_v3) =
    K.kqkv (m ((c : Thread nD τ).loc main_arg0)) (m ((c : Thread nD τ).loc main_arg3)) := by
  show W2 (F := Ideal) m ρ c (Proc.devRef .tc (Pipeline.arrRef spec0 2)) = _
  rw [W2_arr, KReg0.final]
  show K.mmF (W1 (F := Ideal) m ρ c (Proc.devRef .tc main_v0)) (W1 (F := Ideal) m ρ c (Proc.devRef .tc main_v2)) = _
  rw [W1_x, W1_w]
  rfl

theorem W3_Q (c : Dev nD) : W3 (F := Ideal) m ρ c (Proc.devRef .tc main_v4) = K.kQ (m ((c : Thread nD τ).loc main_arg0)) (m ((c : Thread nD τ).loc main_arg3)) := by
  show StableHlo.after hostOps1 _ (Proc.devRef .tc main_v4) = _
  after_results
  rw [W2_qkv]
  rfl
theorem W3_K (c : Dev nD) : W3 (F := Ideal) m ρ c (Proc.devRef .tc main_v5) = K.kK (m ((c : Thread nD τ).loc main_arg0)) (m ((c : Thread nD τ).loc main_arg3)) := by
  show StableHlo.after hostOps1 _ (Proc.devRef .tc main_v5) = _
  after_results
  rw [W2_qkv]
  rfl
theorem W3_V (c : Dev nD) : W3 (F := Ideal) m ρ c (Proc.devRef .tc main_v6) = K.kV (m ((c : Thread nD τ).loc main_arg0)) (m ((c : Thread nD τ).loc main_arg3)) := by
  show StableHlo.after hostOps1 _ (Proc.devRef .tc main_v6) = _
  after_results
  rw [W2_qkv]
  rfl
theorem W3_arg1 (c : Dev nD) : W3 (F := Ideal) m ρ c (Proc.devRef .tc main_arg1) = m ((c : Thread nD τ).loc main_arg1) :=
  calc W3 (F := Ideal) m ρ c (Proc.devRef .tc main_arg1)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W3_arg2 (c : Dev nD) : W3 (F := Ideal) m ρ c (Proc.devRef .tc main_arg2) = m ((c : Thread nD τ).loc main_arg2) :=
  calc W3 (F := Ideal) m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl
theorem W3_arg4 (c : Dev nD) : W3 (F := Ideal) m ρ c (Proc.devRef .tc main_arg4) = m ((c : Thread nD τ).loc main_arg4) :=
  calc W3 (F := Ideal) m ρ c (Proc.devRef .tc main_arg4)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

end Cert.Bridge.KFoldA

end
-- ==== Proof.KFoldB.lean ====
/-
  THE PROGRAM'S BUFFERS UP TO LAUNCH 1'S EXIT. Through the three takes and launch 1: the exponentiated scores and the
  gathered values as named arrays of the arguments; the argument arrays still as launched.
-/
import proofs.«429704_j44057774522827_1_alg».proof.Proof.Gen.KernelIdeal.Frame
import proofs.«429704_j44057774522827_1_alg».proof.Proof.KForms
import proofs.«429704_j44057774522827_1_alg».proof.Proof.KReg1
import proofs.«429704_j44057774522827_1_alg».proof.Proof.KFoldA
import Idealize.ShloMosaic.Lib.StableHlo.Run

open scoped BigOperators

noncomputable section

namespace Cert.Bridge.KFoldB

open Idealize.ShloMosaic Idealize.ShloMosaic.TcCoe Idealize.ShloMosaic.ValueIdx Idealize.SL.Sem Cert.KernelIdeal Cert.KernelIdeal.Gen Cert.Bridge

variable (m : (ℓ : Loc nD τ sig) → Buf (Elt Ideal) ℓ) (ρ : Dev nD → PrngReg)

/-- Reading a value back at the type it was stored at gives the value. -/
private theorem ofBuf_toBuf {T : BufTy} (r : Ref sig .tc) (h h' : r.ty = T) (a a' : r.space ≠ .host)
    (b b' : r.isScoped = false) (v : T.Contents (Elt Ideal)) :
    (StableHlo.TRef.of r h a b).ofBuf ((StableHlo.TRef.of r h' a' b').toBuf v) = v := by
  subst h; rfl
private theorem toBuf_v7 (v : (⟨S1000000x128, .f32⟩ : BufTy).Contents (Elt Ideal)) :
    (StableHlo.TRef.of main_v7 : StableHlo.TRef sig ⟨S1000000x128, .f32⟩).toBuf v = v := rfl
private theorem toBuf_v8 (v : (⟨S1000000x128, .f32⟩ : BufTy).Contents (Elt Ideal)) :
    (StableHlo.TRef.of main_v8 : StableHlo.TRef sig ⟨S1000000x128, .f32⟩).toBuf v = v := rfl
private theorem toBuf_v9 (v : (⟨S1000000x128, .f32⟩ : BufTy).Contents (Elt Ideal)) :
    (StableHlo.TRef.of main_v9 : StableHlo.TRef sig ⟨S1000000x128, .f32⟩).toBuf v = v := rfl
private theorem ofBuf_v4 (v : (⟨S50000x128, .f32⟩ : BufTy).Contents (Elt Ideal)) :
    (StableHlo.TRef.of main_v4 : StableHlo.TRef sig ⟨S50000x128, .f32⟩).ofBuf v = v := rfl
private theorem ofBuf_v5 (v : (⟨S50000x128, .f32⟩ : BufTy).Contents (Elt Ideal)) :
    (StableHlo.TRef.of main_v5 : StableHlo.TRef sig ⟨S50000x128, .f32⟩).ofBuf v = v := rfl
private theorem ofBuf_v6 (v : (⟨S50000x128, .f32⟩ : BufTy).Contents (Elt Ideal)) :
    (StableHlo.TRef.of main_v6 : StableHlo.TRef sig ⟨S50000x128, .f32⟩).ofBuf v = v := rfl
private theorem ofBuf_arg1 (v : (⟨S1000000, .i32⟩ : BufTy).Contents (Elt Ideal)) :
    (StableHlo.TRef.of main_arg1 : StableHlo.TRef sig ⟨S1000000, .i32⟩).ofBuf v = v := rfl
private theorem ofBuf_arg2 (v : (⟨S1000000, .i32⟩ : BufTy).Contents (Elt Ideal)) :
    (StableHlo.TRef.of main_arg2 : StableHlo.TRef sig ⟨S1000000, .i32⟩).ofBuf v = v := rfl

private theorem take_q_raw (X : Valuation τ sig (Elt Ideal)) :
    StableHlo.after (hostOps1_1 (F := Ideal)) X (Proc.devRef .tc main_v7)
      = (StableHlo.TRef.of main_v7 : StableHlo.TRef sig ⟨S1000000x128, .f32⟩).toBuf
          (K.takeFill ((StableHlo.TRef.of main_v4 : StableHlo.TRef sig ⟨S50000x128, .f32⟩).ofBuf (X (Proc.devRef .tc main_v4)))
            ((StableHlo.TRef.of main_arg1 : StableHlo.TRef sig ⟨S1000000, .i32⟩).ofBuf (X (Proc.devRef .tc main_arg1)))) := by
  after_results_simp
  simp only [ofBuf_toBuf, K.takeFill]

/-- The first take stretch, from any contents: the query table gathered at the source words, with fill. -/
private theorem take_q (X : Valuation τ sig (Elt Ideal)) :
    StableHlo.after (hostOps1_1 (F := Ideal)) X (Proc.devRef .tc main_v7)
      = K.takeFill (X (Proc.devRef .tc main_v4)) (X (Proc.devRef .tc main_arg1)) := by
  rw [take_q_raw, toBuf_v7, ofBuf_v4, ofBuf_arg1]

private theorem take_k_raw (X : Valuation τ sig (Elt Ideal)) :
    StableHlo.after (hostOps1_2 (F := Ideal)) X (Proc.devRef .tc main_v8)
      = (StableHlo.TRef.of main_v8 : StableHlo.TRef sig ⟨S1000000x128, .f32⟩).toBuf
          (K.takeFill ((StableHlo.TRef.of main_v5 : StableHlo.TRef sig ⟨S50000x128, .f32⟩).ofBuf (X (Proc.devRef .tc main_v5)))
            ((StableHlo.TRef.of main_arg2 : StableHlo.TRef sig ⟨S1000000, .i32⟩).ofBuf (X (Proc.devRef .tc main_arg2)))) := by
  after_results_simp
  simp only [ofBuf_toBuf, K.takeFill]

/-- The second take stretch: the key table gathered at the target words, with fill. -/
private theorem take_k (X : Valuation τ sig (Elt Ideal)) :
    StableHlo.after (hostOps1_2 (F := Ideal)) X (Proc.devRef .tc main_v8)
      = K.takeFill (X (Proc.devRef .tc main_v5)) (X (Proc.devRef .tc main_arg2)) := by
  rw [take_k_raw, toBuf_v8, ofBuf_v5, ofBuf_arg2]

private theorem take_v_raw (X : Valuation τ sig (Elt Ideal)) :
    StableHlo.after (hostOps1_3 (F := Ideal)) X (Proc.devRef .tc main_v9)
      = (StableHlo.TRef.of main_v9 : StableHlo.TRef sig ⟨S1000000x128, .f32⟩).toBuf
          (K.takeFill ((StableHlo.TRef.of main_v6 : StableHlo.TRef sig ⟨S50000x128, .f32⟩).ofBuf (X (Proc.devRef .tc main_v6)))
            ((StableHlo.TRef.of main_arg2 : StableHlo.TRef sig ⟨S1000000, .i32⟩).ofBuf (X (Proc.devRef .tc main_arg2)))) := by
  after_results_simp
  simp only [ofBuf_toBuf, K.takeFill]

/-- The third take stretch: the value table gathered at the target words, with fill. -/
private theorem take_v (X : Valuation τ sig (Elt Ideal)) :
    StableHlo.after (hostOps1_3 (F := Ideal)) X (Proc.devRef .tc main_v9)
      = K.takeFill (X (Proc.devRef .tc main_v6)) (X (Proc.devRef .tc main_arg2)) := by
  rw [take_v_raw, toBuf_v9, ofBuf_v6, ofBuf_arg2]

/-! The buffers a take stretch reads but does not write, carried to the stretch that reads them. -/

private theorem W4_K (c : Dev nD) : W4 (F := Ideal) m ρ c (Proc.devRef .tc main_v5) = K.kK (m ((c : Thread nD τ).loc main_arg0)) (m ((c : Thread nD τ).loc main_arg3)) :=
  calc W4 (F := Ideal) m ρ c (Proc.devRef .tc main_v5)
    _ = W3 m ρ c (Proc.devRef .tc main_v5) := StableHlo.after_of_forall_not_mem (b := Proc.devRef .tc main_v5) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = _ := KFoldA.W3_K m ρ c

private theorem W4_arg2 (c : Dev nD) : W4 (F := Ideal) m ρ c (Proc.devRef .tc main_arg2) = m ((c : Thread nD τ).loc main_arg2) :=
  calc W4 (F := Ideal) m ρ c (Proc.devRef .tc main_arg2)
    _ = W3 m ρ c (Proc.devRef .tc main_arg2) := StableHlo.after_of_forall_not_mem (b := Proc.devRef .tc main_arg2) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = _ := KFoldA.W3_arg2 m ρ c

private theorem W5_V (c : Dev nD) : W5 (F := Ideal) m ρ c (Proc.devRef .tc main_v6) = K.kV (m ((c : Thread nD τ).loc main_arg0)) (m ((c : Thread nD τ).loc main_arg3)) :=
  calc W5 (F := Ideal) m ρ c (Proc.devRef .tc main_v6)
    _ = W4 m ρ c (Proc.devRef .tc main_v6) := StableHlo.after_of_forall_not_mem (b := Proc.devRef .tc main_v6) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := StableHlo.after_of_forall_not_mem (b := Proc.devRef .tc main_v6) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = _ := KFoldA.W3_V m ρ c

private theorem W5_arg2 (c : Dev nD) : W5 (F := Ideal) m ρ c (Proc.devRef .tc main_arg2) = m ((c : Thread nD τ).loc main_arg2) :=
  calc W5 (F := Ideal) m ρ c (Proc.devRef .tc main_arg2)
    _ = W4 m ρ c (Proc.devRef .tc main_arg2) := StableHlo.after_of_forall_not_mem (b := Proc.devRef .tc main_arg2) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = _ := W4_arg2 m ρ c

/-! The three gathered tables at launch 1's entry. -/

private theorem W4_qs (c : Dev nD) : W4 (F := Ideal) m ρ c (Proc.devRef .tc main_v7) = K.kqs (m ((c : Thread nD τ).loc main_arg0)) (m ((c : Thread nD τ).loc main_arg1)) (m ((c : Thread nD τ).loc main_arg3)) := by
  show StableHlo.after (hostOps1_1 (F := Ideal)) (W3 (F := Ideal) m ρ c) (Proc.devRef .tc main_v7) = _
  rw [take_q, KFoldA.W3_Q, KFoldA.W3_arg1]
  rfl

private theorem W6_qs (c : Dev nD) : W6 (F := Ideal) m ρ c (Proc.devRef .tc main_v7) = K.kqs (m ((c : Thread nD τ).loc main_arg0)) (m ((c : Thread nD τ).loc main_arg1)) (m ((c : Thread nD τ).loc main_arg3)) :=
  calc W6 (F := Ideal) m ρ c (Proc.devRef .tc main_v7)
    _ = W5 m ρ c (Proc.devRef .tc main_v7) := StableHlo.after_of_forall_not_mem (b := Proc.devRef .tc main_v7) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_v7) := StableHlo.after_of_forall_not_mem (b := Proc.devRef .tc main_v7) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = _ := W4_qs m ρ c

private theorem W5_kd (c : Dev nD) : W5 (F := Ideal) m ρ c (Proc.devRef .tc main_v8) = K.kkd (m ((c : Thread nD τ).loc main_arg0)) (m ((c : Thread nD τ).loc main_arg2)) (m ((c : Thread nD τ).loc main_arg3)) := by
  show StableHlo.after (hostOps1_2 (F := Ideal)) (W4 (F := Ideal) m ρ c) (Proc.devRef .tc main_v8) = _
  rw [take_k, W4_K, W4_arg2]
  rfl

private theorem W6_kd (c : Dev nD) : W6 (F := Ideal) m ρ c (Proc.devRef .tc main_v8) = K.kkd (m ((c : Thread nD τ).loc main_arg0)) (m ((c : Thread nD τ).loc main_arg2)) (m ((c : Thread nD τ).loc main_arg3)) :=
  calc W6 (F := Ideal) m ρ c (Proc.devRef .tc main_v8)
    _ = W5 m ρ c (Proc.devRef .tc main_v8) := StableHlo.after_of_forall_not_mem (b := Proc.devRef .tc main_v8) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = _ := W5_kd m ρ c

private theorem W6_vd (c : Dev nD) : W6 (F := Ideal) m ρ c (Proc.devRef .tc main_v9) = K.kvd (m ((c : Thread nD τ).loc main_arg0)) (m ((c : Thread nD τ).loc main_arg2)) (m ((c : Thread nD τ).loc main_arg3)) := by
  show StableHlo.after (hostOps1_3 (F := Ideal)) (W5 (F := Ideal) m ρ c) (Proc.devRef .tc main_v9) = _
  rw [take_v, W5_V, W5_arg2]
  rfl

theorem W7_ex (c : Dev nD) : W7 (F := Ideal) m ρ c (Proc.devRef .tc main_v10) =
    K.kex (m ((c : Thread nD τ).loc main_arg0)) (m ((c : Thread nD τ).loc main_arg1)) (m ((c : Thread nD τ).loc main_arg2)) (m ((c : Thread nD τ).loc main_arg3)) := by
  show W7 (F := Ideal) m ρ c (Proc.devRef .tc (Pipeline.arrRef spec1 2)) = _
  rw [W7_arr, KReg1.final]
  show K.scoreF (W6 (F := Ideal) m ρ c (Proc.devRef .tc main_v7)) (W6 (F := Ideal) m ρ c (Proc.devRef .tc main_v8)) = _
  rw [W6_qs, W6_kd]
  rfl
theorem W7_vd (c : Dev nD) : W7 (F := Ideal) m ρ c (Proc.devRef .tc main_v9) =
    K.kvd (m ((c : Thread nD τ).loc main_arg0)) (m ((c : Thread nD τ).loc main_arg2)) (m ((c : Thread nD τ).loc main_arg3)) :=
  calc W7 (F := Ideal) m ρ c (Proc.devRef .tc main_v9)
    _ = W6 m ρ c (Proc.devRef .tc main_v9) := W7_of_ne m ρ c main_v9 (by decide)
    _ = _ := W6_vd m ρ c
theorem W7_arg1 (c : Dev nD) : W7 (F := Ideal) m ρ c (Proc.devRef .tc main_arg1) = m ((c : Thread nD τ).loc main_arg1) :=
  calc W7 (F := Ideal) m ρ c (Proc.devRef .tc main_arg1)
    _ = W6 m ρ c (Proc.devRef .tc main_arg1) := W7_of_ne m ρ c main_arg1 (by decide)
    _ = W5 m ρ c (Proc.devRef .tc main_arg1) := StableHlo.after_of_forall_not_mem (b := Proc.devRef .tc main_arg1) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg1) := StableHlo.after_of_forall_not_mem (b := Proc.devRef .tc main_arg1) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg1) := StableHlo.after_of_forall_not_mem (b := Proc.devRef .tc main_arg1) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = _ := KFoldA.W3_arg1 m ρ c
theorem W7_arg4 (c : Dev nD) : W7 (F := Ideal) m ρ c (Proc.devRef .tc main_arg4) = m ((c : Thread nD τ).loc main_arg4) :=
  calc W7 (F := Ideal) m ρ c (Proc.devRef .tc main_arg4)
    _ = W6 m ρ c (Proc.devRef .tc main_arg4) := W7_of_ne m ρ c main_arg4 (by decide)
    _ = W5 m ρ c (Proc.devRef .tc main_arg4) := StableHlo.after_of_forall_not_mem (b := Proc.devRef .tc main_arg4) _ _ (List.forall_iff_forall_mem.mp (by
          simp only [hostOps1_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W4 m ρ c (Proc.devRef .tc main_arg4) := StableHlo.after_of_forall_not_mem (b := Proc.devRef .tc main_arg4) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := StableHlo.after_of_forall_not_mem (b := Proc.devRef .tc main_arg4) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = _ := KFoldA.W3_arg4 m ρ c

end Cert.Bridge.KFoldB

end
-- ==== Proof.KFoldC.lean ====
/-
  THE PROGRAM'S BUFFERS TO THE RESULT. Through the first scatter-add, the take of the sums, launch 2, the second
  scatter-add and launch 3: the result buffer at the last boundary is `kout` of the arguments.
-/
import proofs.«429704_j44057774522827_1_alg».proof.Proof.Gen.KernelIdeal.Frame
import proofs.«429704_j44057774522827_1_alg».proof.Proof.KForms
import proofs.«429704_j44057774522827_1_alg».proof.Proof.KReg2
import proofs.«429704_j44057774522827_1_alg».proof.Proof.KReg3
import proofs.«429704_j44057774522827_1_alg».proof.Proof.KFoldB
import Idealize.ShloMosaic.Lib.StableHlo.Run

open scoped BigOperators

noncomputable section

namespace Cert.Bridge.KFoldC

open Idealize.ShloMosaic Idealize.ShloMosaic.TcCoe Idealize.ShloMosaic.ValueIdx Idealize.SL.Sem Cert.KernelIdeal Cert.KernelIdeal.Gen Cert.Bridge

variable (m : (ℓ : Loc nD τ sig) → Buf (Elt Ideal) ℓ) (ρ : Dev nD → PrngReg)

/-- Reading a value back at the type it was stored at gives the value. -/
private theorem ofBuf_toBuf {T : BufTy} (r : Ref sig .tc) (h h' : r.ty = T) (a a' : r.space ≠ .host)
    (b b' : r.isScoped = false) (v : T.Contents (Elt Ideal)) :
    (StableHlo.TRef.of r h a b).ofBuf ((StableHlo.TRef.of r h' a' b').toBuf v) = v := by
  subst h; rfl
private theorem toBuf_v14 (v : (⟨S1000000x8, .f32⟩ : BufTy).Contents (Elt Ideal)) :
    (StableHlo.TRef.of main_v14 : StableHlo.TRef sig ⟨S1000000x8, .f32⟩).toBuf v = v := rfl
private theorem ofBuf_v13 (v : (⟨S50000x8, .f32⟩ : BufTy).Contents (Elt Ideal)) :
    (StableHlo.TRef.of main_v13 : StableHlo.TRef sig ⟨S50000x8, .f32⟩).ofBuf v = v := rfl
private theorem ofBuf_arg1 (v : (⟨S1000000, .i32⟩ : BufTy).Contents (Elt Ideal)) :
    (StableHlo.TRef.of main_arg1 : StableHlo.TRef sig ⟨S1000000, .i32⟩).ofBuf v = v := rfl

private theorem take_d_raw (X : Valuation τ sig (Elt Ideal)) :
    StableHlo.after (hostOps2_1 (F := Ideal)) X (Proc.devRef .tc main_v14)
      = (StableHlo.TRef.of main_v14 : StableHlo.TRef sig ⟨S1000000x8, .f32⟩).toBuf
          (K.takeFill8 ((StableHlo.TRef.of main_v13 : StableHlo.TRef sig ⟨S50000x8, .f32⟩).ofBuf (X (Proc.devRef .tc main_v13)))
            ((StableHlo.TRef.of main_arg1 : StableHlo.TRef sig ⟨S1000000, .i32⟩).ofBuf (X (Proc.devRef .tc main_arg1)))) := by
  after_results_simp
  simp only [ofBuf_toBuf, K.takeFill8]

/-- The take of the per-node sums back to the edges, from any contents: the sums gathered at the source words, with fill. -/
private theorem take_d (X : Valuation τ sig (Elt Ideal)) :
    StableHlo.after (hostOps2_1 (F := Ideal)) X (Proc.devRef .tc main_v14)
      = K.takeFill8 (X (Proc.devRef .tc main_v13)) (X (Proc.devRef .tc main_arg1)) := by
  rw [take_d_raw, toBuf_v14, ofBuf_v13, ofBuf_arg1]

/-! Launch 2's three inputs at its entry. -/

private theorem W8_arg1 (c : Dev nD) : W8 (F := Ideal) m ρ c (Proc.devRef .tc main_arg1) = m ((c : Thread nD τ).loc main_arg1) :=
  calc W8 (F := Ideal) m ρ c (Proc.devRef .tc main_arg1)
    _ = W7 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = _ := KFoldB.W7_arg1 m ρ c

/-- The first scatter-add: the per-node sums of the scores. -/
private theorem W8_den (c : Dev nD) : W8 (F := Ideal) m ρ c (Proc.devRef .tc main_v13) = K.kden (m ((c : Thread nD τ).loc main_arg0)) (m ((c : Thread nD τ).loc main_arg1)) (m ((c : Thread nD τ).loc main_arg2)) (m ((c : Thread nD τ).loc main_arg3)) := by
  show StableHlo.after (hostOps2 (F := Ideal)) (W7 (F := Ideal) m ρ c) (Proc.devRef .tc main_v13) = _
  after_results
  rw [KFoldB.W7_arg1, KFoldB.W7_ex]
  rfl

private theorem W9_dg (c : Dev nD) : W9 (F := Ideal) m ρ c (Proc.devRef .tc main_v14) = K.kdg (m ((c : Thread nD τ).loc main_arg0)) (m ((c : Thread nD τ).loc main_arg1)) (m ((c : Thread nD τ).loc main_arg2)) (m ((c : Thread nD τ).loc main_arg3)) := by
  show StableHlo.after (hostOps2_1 (F := Ideal)) (W8 (F := Ideal) m ρ c) (Proc.devRef .tc main_v14) = _
  rw [take_d, W8_den, W8_arg1]
  rfl

private theorem W9_ex (c : Dev nD) : W9 (F := Ideal) m ρ c (Proc.devRef .tc main_v10) = K.kex (m ((c : Thread nD τ).loc main_arg0)) (m ((c : Thread nD τ).loc main_arg1)) (m ((c : Thread nD τ).loc main_arg2)) (m ((c : Thread nD τ).loc main_arg3)) :=
  calc W9 (F := Ideal) m ρ c (Proc.devRef .tc main_v10)
    _ = W8 m ρ c (Proc.devRef .tc main_v10) := StableHlo.after_of_forall_not_mem (b := Proc.devRef .tc main_v10) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v10) := StableHlo.after_of_forall_not_mem (b := Proc.devRef .tc main_v10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = _ := KFoldB.W7_ex m ρ c

private theorem W9_vd (c : Dev nD) : W9 (F := Ideal) m ρ c (Proc.devRef .tc main_v9) = K.kvd (m ((c : Thread nD τ).loc main_arg0)) (m ((c : Thread nD τ).loc main_arg2)) (m ((c : Thread nD τ).loc main_arg3)) :=
  calc W9 (F := Ideal) m ρ c (Proc.devRef .tc main_v9)
    _ = W8 m ρ c (Proc.devRef .tc main_v9) := StableHlo.after_of_forall_not_mem (b := Proc.devRef .tc main_v9) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v9) := StableHlo.after_of_forall_not_mem (b := Proc.devRef .tc main_v9) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = _ := KFoldB.W7_vd m ρ c

theorem W10_wv (c : Dev nD) : W10 (F := Ideal) m ρ c (Proc.devRef .tc main_v15) =
    K.kwv (m ((c : Thread nD τ).loc main_arg0)) (m ((c : Thread nD τ).loc main_arg1)) (m ((c : Thread nD τ).loc main_arg2)) (m ((c : Thread nD τ).loc main_arg3)) := by
  show W10 (F := Ideal) m ρ c (Proc.devRef .tc (Pipeline.arrRef spec2 3)) = _
  rw [W10_arr, KReg2.final]
  show K.wmulF (W9 (F := Ideal) m ρ c (Proc.devRef .tc main_v10)) (W9 (F := Ideal) m ρ c (Proc.devRef .tc main_v14)) (W9 (F := Ideal) m ρ c (Proc.devRef .tc main_v9)) = _
  rw [W9_ex, W9_dg, W9_vd]
  rfl
theorem W10_arg1 (c : Dev nD) : W10 (F := Ideal) m ρ c (Proc.devRef .tc main_arg1) = m ((c : Thread nD τ).loc main_arg1) :=
  calc W10 (F := Ideal) m ρ c (Proc.devRef .tc main_arg1)
    _ = W9 m ρ c (Proc.devRef .tc main_arg1) := W10_of_ne m ρ c main_arg1 (by decide)
    _ = W8 m ρ c (Proc.devRef .tc main_arg1) := StableHlo.after_of_forall_not_mem (b := Proc.devRef .tc main_arg1) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = _ := KFoldB.W7_arg1 m ρ c
theorem W10_arg4 (c : Dev nD) : W10 (F := Ideal) m ρ c (Proc.devRef .tc main_arg4) = m ((c : Thread nD τ).loc main_arg4) :=
  calc W10 (F := Ideal) m ρ c (Proc.devRef .tc main_arg4)
    _ = W9 m ρ c (Proc.devRef .tc main_arg4) := W10_of_ne m ρ c main_arg4 (by decide)
    _ = W8 m ρ c (Proc.devRef .tc main_arg4) := StableHlo.after_of_forall_not_mem (b := Proc.devRef .tc main_arg4) _ _ (List.forall_iff_forall_mem.mp (by
          simp only [hostOps2_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg4) := StableHlo.after_of_forall_not_mem (b := Proc.devRef .tc main_arg4) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = _ := KFoldB.W7_arg4 m ρ c

/-- The second scatter-add, narrowed: launch 3's first input. -/
private theorem W11_a (c : Dev nD) : W11 (F := Ideal) m ρ c (Proc.devRef .tc main_v19) = K.ka (m ((c : Thread nD τ).loc main_arg0)) (m ((c : Thread nD τ).loc main_arg1)) (m ((c : Thread nD τ).loc main_arg2)) (m ((c : Thread nD τ).loc main_arg3)) := by
  show StableHlo.after (hostOps3 (F := Ideal)) (W10 (F := Ideal) m ρ c) (Proc.devRef .tc main_v19) = _
  after_results
  rw [W10_arg1, W10_wv]
  rfl

/-- The output projection transposed and narrowed: launch 3's second input. -/
private theorem W11_wo (c : Dev nD) : W11 (F := Ideal) m ρ c (Proc.devRef .tc main_v21) = K.kwo (m ((c : Thread nD τ).loc main_arg4)) := by
  show StableHlo.after (hostOps3 (F := Ideal)) (W10 (F := Ideal) m ρ c) (Proc.devRef .tc main_v21) = _
  after_results
  rw [W10_arg4]
  rfl

/-- The result buffer at the program's last boundary. -/
theorem result (c : Dev nD) : W12 (F := Ideal) m ρ c (Proc.devRef .tc main_v22) =
    K.kout (m ((c : Thread nD τ).loc main_arg0)) (m ((c : Thread nD τ).loc main_arg1)) (m ((c : Thread nD τ).loc main_arg2)) (m ((c : Thread nD τ).loc main_arg3)) (m ((c : Thread nD τ).loc main_arg4)) := by
  show W12 (F := Ideal) m ρ c (Proc.devRef .tc (Pipeline.arrRef spec3 2)) = _
  rw [W12_arr, KReg3.final]
  show K.mmF (W11 (F := Ideal) m ρ c (Proc.devRef .tc main_v19)) (W11 (F := Ideal) m ρ c (Proc.devRef .tc main_v21)) = _
  rw [W11_a, W11_wo]
  rfl

end Cert.Bridge.KFoldC

end
-- ==== Proof.LibGatherScatter.lean ====
/-
  ROW GATHER AND ROW SCATTER-ADD OF A TWO-AXIS TABLE, READ AT ONE ELEMENT.

  A table `x : [N, W]` and a column `idx : [E, 1]` of row numbers (integer words, read signed). Two host operations
  with the dimension numbers of `x[idx]` and of `x.at[idx].add(u)` along the row axis:

  * the GATHER (offset axes `[1]`, collapsed slice axes `[0]`, start index map `[0]`, index vector on axis 1, no
    batching axes) has result `[E, W]`; its element (e, j) is `x[r, j]` where `r` is `idx[e, 0]` clamped into
    `[0, N − 1]` (`gather_apply`), so `x[idx[e, 0], j]` when the row number is in range (`gather_apply_of_inRange`);
  * the SCATTER-ADD (update window axes `[1]`, inserted window axes `[0]`, scatter axes to operand axes `[0]`,
    index vector on axis 1) of updates `u : [E, W]` has, at the ideal instance, the element (n, j)
    `x[n, j] + ∑ over the e with idx[e, 0] = n of u[e, j]` (`hostScatterAdd_apply` / `scatterAdd_apply`): the row number
    is NOT clamped, and an update row whose number is no row of the table is dropped — no range condition is needed.

  Both act on each column by itself, so they commute with any choice of columns `c : Fin W' → Fin W`, in particular
  with taking the block of columns that starts at an offset (`gather_cols` / `gather_cols_offset`,
  `hostScatterAdd_cols` / `hostScatterAdd_cols_offset`, and `scatterAdd_cols` / `scatterAdd_cols_offset` on
  `Host.scatterAdd`): the gather of a concatenation `[h | p]` along the columns is, column block by column block, the
  gather of `h` and the gather of `p`, and likewise the scatter-add.

  Every lemma takes ANY dimension-number record whose lists are the ones above (hypotheses on the fields, each closed
  by `rfl` at a literal record), at any extents `N`, `E`, `W`, and speaks of indices built by `ix2` from coordinates.
-/
import Idealize.ShloMosaic.PureOps.Ideal
import Idealize.ShloMosaic.Lib.ValueIdx

open scoped BigOperators

namespace Cert.Bridge.GS

open Idealize.ShloMosaic Idealize.ShloMosaic.ValueIdx

/-- An entry of a list that is a singleton is its one element. -/
private theorem getElem_of_eq_singleton {β : Type} {l : List β} {b : β} (hl : l = [b]) {k : Nat} (hk : k < l.length) :
    l[k] = b := by
  subst hl
  have hk0 : k = 0 := by simpa using hk
  subst hk0; rfl

/-! ## The gather -/

section Gather
variable {α : Type} {N E W w : Nat}

/-- THE OPERAND INDEX of result element (e, j): the row is the start index `idx[e, 0]` read signed and clamped into
    `[0, N − 1]` (the row axis is collapsed, its slice one row), the column is `j` (the one offset axis). -/
theorem operandIdx_rows (hN : 0 < N) (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (idx : IVec ⟨2, ![E, 1]⟩ w) (e : Fin E) (j : Fin W) :
    d.operandIdx (ix2 e j) idx = ix2 ⟨min (idx (ix2 e 0)).toInt.toNat (N - 1), by omega⟩ j := by
  obtain ⟨od, cd, ob, sb, sim, ivd, ss, wf⟩ := d
  dsimp only at hoff hcoll hob hsim hivd
  subst hoff hcoll hob hsim hivd
  have hsl : ss 0 = 1 :=
    GatherDims.slice_collapsed (⟨[1], [0], [], sb, [0], 1, ss, wf⟩ : GatherDims ⟨2, ![N, W]⟩ ⟨2, ![E, 1]⟩ ⟨2, ![E, W]⟩) 0
      (List.mem_singleton.mpr rfl)
  funext a
  match a with
  | ⟨0, _⟩ =>
    refine Fin.ext ?_
    show GatherDims.start _ (ix2 e j) idx 0 + GatherDims.batchCoord _ (ix2 e j) 0 + GatherDims.offCoord _ (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    show min (idx _).toInt.toNat (N - ss 0) = _
    rw [hsl]
    congr 3
    congr 1
    funext b
    refine Fin.ext ?_
    match b with
    | ⟨0, _⟩ => rfl
    | ⟨1, _⟩ => rfl
  | ⟨1, _⟩ =>
    refine Fin.ext ?_
    show GatherDims.start _ (ix2 e j) idx 1 + GatherDims.batchCoord _ (ix2 e j) 1 + GatherDims.offCoord _ (ix2 e j) 1 = _
    rw [GatherDims.batchCoord_eq_zero _ _ _ List.not_mem_nil]
    unfold GatherDims.start GatherDims.offCoord
    rw [dif_neg (show (1 : Fin 2) ∉ [0] by decide),
      dif_pos ((GatherDims.mem_sKept _ _).mpr ⟨show (1 : Fin 2) ∉ [0] by decide, List.not_mem_nil⟩)]
    rw [getElem_of_eq_singleton (b := (1 : Fin 2)) rfl]
    show 0 + 0 + j.val = j.val
    omega

/-- THE GATHER READ AT (e, j), no range condition: the table at the row the start index `idx[e, 0]` names, read
    signed and clamped into `[0, N − 1]` (StableHLO clamps a start index so that the slice fits), at column `j`. -/
theorem gather_apply (hN : 0 < N) (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (x : (⟨2, ![N, W]⟩ : Shape).Idx → α) (idx : IVec ⟨2, ![E, 1]⟩ w) (e : Fin E) (j : Fin W) :
    Host.gather d x idx (ix2 e j) = x (ix2 ⟨min (idx (ix2 e 0)).toInt.toNat (N - 1), by omega⟩ j) := by
  unfold Host.gather
  rw [operandIdx_rows hN d hoff hcoll hob hsim hivd idx e j]

/-- (G1) THE GATHER READ AT (e, j), start index in range: when `0 ≤ idx[e, 0] < N` (read signed) the clamp does
    nothing, and the result is the table's row `idx[e, 0]` at column `j`. -/
theorem gather_apply_of_inRange (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (x : (⟨2, ![N, W]⟩ : Shape).Idx → α) (idx : IVec ⟨2, ![E, 1]⟩ w) (e : Fin E) (j : Fin W)
    (h0 : 0 ≤ (idx (ix2 e 0)).toInt) (h1 : (idx (ix2 e 0)).toInt < N) :
    Host.gather d x idx (ix2 e j) = x (ix2 ⟨(idx (ix2 e 0)).toInt.toNat, by omega⟩ j) := by
  have hN : 0 < N := by omega
  rw [gather_apply hN d hoff hcoll hob hsim hivd x idx e j]
  congr 2
  refine Fin.ext ?_
  show min (idx (ix2 e 0)).toInt.toNat (N - 1) = (idx (ix2 e 0)).toInt.toNat
  omega

/-- (G2) THE GATHER COMMUTES WITH A CHOICE OF COLUMNS. If a table `y` of width `W'` is the columns `c 0, c 1, …` of a
    table `x` of width `W` (`y[n, j'] = x[n, c j']`), then the gather of `y` at (e, j') is the gather of `x` at
    (e, c j'), at the same start indices — in range or not: both sides clamp the start index alike. -/
theorem gather_cols {W' : Nat} (hN : 0 < N)
    (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (d' : GatherDims ⟨2, ![N, W']⟩ ⟨2, ![E, 1]⟩ ⟨2, ![E, W']⟩)
    (hoff' : d'.offsetDims = [1]) (hcoll' : d'.collapsedSliceDims = [0]) (hob' : d'.operandBatchingDims = [])
    (hsim' : d'.startIndexMap = [0]) (hivd' : d'.indexVectorDim = 1)
    (c : Fin W' → Fin W)
    (x : (⟨2, ![N, W]⟩ : Shape).Idx → α) (y : (⟨2, ![N, W']⟩ : Shape).Idx → α)
    (hxy : ∀ (n : Fin N) (j' : Fin W'), y (ix2 n j') = x (ix2 n (c j')))
    (idx : IVec ⟨2, ![E, 1]⟩ w) (e : Fin E) (j' : Fin W') :
    Host.gather d' y idx (ix2 e j') = Host.gather d x idx (ix2 e (c j')) := by
  rw [gather_apply hN d' hoff' hcoll' hob' hsim' hivd' y idx e j',
    gather_apply hN d hoff hcoll hob hsim hivd x idx e (c j')]
  exact hxy _ _

/-- (G2), the columns a contiguous run: if `y[n, j'] = x[n, off + j']` (`y` is the column block of `x` that starts at
    `off`: a slice of a concatenation along the columns), then the gather of `y` at (e, j') is the gather of `x` at
    (e, off + j'). -/
theorem gather_cols_offset {W' : Nat} (hN : 0 < N)
    (d : GatherDims ⟨2, ![N, W]⟩ ⟨2, ![E, 1]⟩ ⟨2, ![E, W]⟩)
    (hoff : d.offsetDims = [1]) (hcoll : d.collapsedSliceDims = [0]) (hob : d.operandBatchingDims = [])
    (hsim : d.startIndexMap = [0]) (hivd : d.indexVectorDim = 1)
    (d' : GatherDims ⟨2, ![N, W']⟩ ⟨2, ![E, 1]⟩ ⟨2, ![E, W']⟩)
    (hoff' : d'.offsetDims = [1]) (hcoll' : d'.collapsedSliceDims = [0]) (hob' : d'.operandBatchingDims = [])
    (hsim' : d'.startIndexMap = [0]) (hivd' : d'.indexVectorDim = 1)
    (off : Nat) (hW : off + W' ≤ W)
    (x : (⟨2, ![N, W]⟩ : Shape).Idx → α) (y : (⟨2, ![N, W']⟩ : Shape).Idx → α)
    (hxy : ∀ (n : Fin N) (j' : Fin W'), y (ix2 n j') = x (ix2 n ⟨off + j'.val, by omega⟩))
    (idx : IVec ⟨2, ![E, 1]⟩ w) (e : Fin E) (j' : Fin W') :
    Host.gather d' y idx (ix2 e j') = Host.gather d x idx (ix2 e ⟨off + j'.val, by omega⟩) :=
  gather_cols hN d hoff hcoll hob hsim hivd d' hoff' hcoll' hob' hsim' hivd' (fun j' => ⟨off + j'.val, by omega⟩) x y hxy idx e j'

end Gather

/-! ## The scatter-add -/

/-- Two rank-2 indices built from coordinates are equal exactly when the coordinates are. -/
theorem ix2_inj {n0 n1 : Nat} {a a' : Fin n0} {b b' : Fin n1} : ix2 a b = ix2 a' b' ↔ a = a' ∧ b = b' := by
  constructor
  · intro h
    exact ⟨congrFun h 0, congrFun h 1⟩
  · rintro ⟨rfl, rfl⟩; rfl

section Scatter
variable {N E W w : Nat}

/-- WHERE AN UPDATE LANDS. Update element (e, j) of a row scatter (the table's row axis inserted and scattered, the
    column axis the window; one row number per update row, on the index vector's axis 1) lands at
    (`idx[e, 0]`, j) when the row number, read signed and NOT clamped, is a row of the table, and nowhere when it is
    not. -/
theorem resultIdx?_rows (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1) (idx : IVec ⟨2, ![E, 1]⟩ w) (e : Fin E) (j : Fin W) :
    d.resultIdx? (ix2 e j) idx =
      if h : 0 ≤ (idx (ix2 e 0)).toInt ∧ (idx (ix2 e 0)).toInt < N then
        some (ix2 ⟨(idx (ix2 e 0)).toInt.toNat, by omega⟩ j)
      else none := by
  obtain ⟨uw, iw, sd, ivd, wf⟩ := d
  dsimp only at huw hiw hsd hivd
  subst huw hiw hsd hivd
  set D : ScatterDims ⟨2, ![N, W]⟩ ⟨2, ![E, 1]⟩ ⟨2, ![E, W]⟩ := ⟨[1], [0], [0], 1, wf⟩ with hD
  have hs0 : D.start (ix2 e j) idx 0 = (idx (ix2 e 0)).toInt := by
    unfold ScatterDims.start
    rw [dif_pos (show (0 : Fin 2) ∈ D.scatterDimsToOperandDims from List.mem_singleton.mpr rfl)]
    congr 2
    funext b
    refine Fin.ext ?_
    match b with
    | ⟨0, _⟩ => rfl
    | ⟨1, _⟩ => rfl
  have hs1 : D.start (ix2 e j) idx 1 = 0 := by
    unfold ScatterDims.start
    rw [dif_neg (show (1 : Fin 2) ∉ D.scatterDimsToOperandDims from (by decide : (1 : Fin 2) ∉ [0]))]
  have hw0 : D.window (ix2 e j) 0 = 0 := by
    unfold ScatterDims.window
    rw [dif_neg (show (0 : Fin 2) ∉ D.sKept from by simp [hD, ScatterDims.sKept, Shape.kept])]
  have hw1 : D.window (ix2 e j) 1 = j.val := by
    unfold ScatterDims.window
    rw [dif_pos (show (1 : Fin 2) ∈ D.sKept from by simp [hD, ScatterDims.sKept, Shape.kept])]
    rw [getElem_of_eq_singleton (b := (1 : Fin 2)) rfl]
  unfold ScatterDims.resultIdx?
  by_cases h : 0 ≤ (idx (ix2 e 0)).toInt ∧ (idx (ix2 e 0)).toInt < N
  · have hall : ∀ a, 0 ≤ D.start (ix2 e j) idx a + D.window (ix2 e j) a ∧
        D.start (ix2 e j) idx a + D.window (ix2 e j) a < (⟨2, ![N, W]⟩ : Shape).size a := by
      intro a
      match a with
      | ⟨0, _⟩ =>
        show 0 ≤ D.start (ix2 e j) idx 0 + D.window (ix2 e j) 0 ∧ D.start (ix2 e j) idx 0 + D.window (ix2 e j) 0 < (N : Int)
        rw [hs0, hw0]; omega
      | ⟨1, _⟩ =>
        show 0 ≤ D.start (ix2 e j) idx 1 + D.window (ix2 e j) 1 ∧ D.start (ix2 e j) idx 1 + D.window (ix2 e j) 1 < (W : Int)
        rw [hs1, hw1]; have := j.isLt; omega
    rw [dif_pos hall, dif_pos h]
    congr 1
    funext a
    refine Fin.ext ?_
    match a with
    | ⟨0, _⟩ =>
      show (D.start (ix2 e j) idx 0 + D.window (ix2 e j) 0).toNat = (idx (ix2 e 0)).toInt.toNat
      rw [hs0, hw0]; simp
    | ⟨1, _⟩ =>
      show (D.start (ix2 e j) idx 1 + D.window (ix2 e j) 1).toNat = j.val
      rw [hs1, hw1]; simp
  · rw [dif_neg h, dif_neg]
    intro hall
    have h0 : 0 ≤ D.start (ix2 e j) idx 0 + D.window (ix2 e j) 0 ∧ D.start (ix2 e j) idx 0 + D.window (ix2 e j) 0 < (N : Int) :=
      hall 0
    rw [hs0, hw0] at h0
    exact h (by omega)

/-- An update element (e, j') lands at the table's (n, j) exactly when its row number `idx[e, 0]`, read signed, is `n`
    and its column is `j`. -/
theorem resultIdx?_eq_some_iff (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1) (idx : IVec ⟨2, ![E, 1]⟩ w) (e : Fin E) (j' : Fin W) (n : Fin N) (j : Fin W) :
    d.resultIdx? (ix2 e j') idx = some (ix2 n j) ↔ (idx (ix2 e 0)).toInt = (n.val : Int) ∧ j' = j := by
  rw [resultIdx?_rows d huw hiw hsd hivd idx e j']
  have hn := n.isLt
  split
  · next h =>
    rw [Option.some.injEq, ix2_inj]
    constructor
    · rintro ⟨h1, h2⟩
      refine ⟨?_, h2⟩
      have := congrArg Fin.val h1
      simp only at this
      omega
    · rintro ⟨h1, h2⟩
      refine ⟨Fin.ext ?_, h2⟩
      show (idx (ix2 e 0)).toInt.toNat = n.val
      omega
  · next h =>
    constructor
    · intro h'; exact absurd h' (by simp)
    · rintro ⟨h1, _⟩; exact absurd (show 0 ≤ (idx (ix2 e 0)).toInt ∧ (idx (ix2 e 0)).toInt < N by omega) h

/-- (S1) THE SCATTER-ADD READ AT (n, j), no range condition: the table's element plus the sum, over the update rows
    `e` whose row number `idx[e, 0]` (read signed, not clamped) is `n`, of the update's element (e, j). An update
    row whose number is not a row of the table lands nowhere. -/
theorem hostScatterAdd_apply (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (x : (⟨2, ![N, W]⟩ : Shape).Idx → EReal) (idx : IVec ⟨2, ![E, 1]⟩ w) (upd : (⟨2, ![E, W]⟩ : Shape).Idx → EReal)
    (n : Fin N) (j : Fin W) :
    Ideal.hostScatterAdd d x idx upd (ix2 n j) =
      x (ix2 n j) + ∑ e ∈ Finset.univ.filter (fun e : Fin E => (idx (ix2 e 0)).toInt = (n.val : Int)), upd (ix2 e j) := by
  unfold Ideal.hostScatterAdd
  congr 1
  rw [Finset.sum_filter, sum_idx2, Finset.sum_filter]
  refine Finset.sum_congr rfl fun e _ => ?_
  simp only [resultIdx?_eq_some_iff d huw hiw hsd hivd idx e _ n j]
  by_cases h : (idx (ix2 e 0)).toInt = (n.val : Int)
  · simp only [h, true_and, if_true]
    rw [Finset.sum_ite_eq' Finset.univ j (fun j' => upd (ix2 e j'))]
    simp
  · simp only [h, false_and, if_false]
    exact Finset.sum_const_zero

/-- (S2) THE SCATTER-ADD COMMUTES WITH A CHOICE OF COLUMNS. If the table `x'` and the updates `upd'`, of width `W'`,
    are the columns `c 0, c 1, …` of `x` and `upd`, of width `W`, then the scatter-add of `upd'` into `x'` at (n, j')
    is the scatter-add of `upd` into `x` at (n, c j'), at the same row numbers. -/
theorem hostScatterAdd_cols {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (c : Fin W' → Fin W)
    (x : (⟨2, ![N, W]⟩ : Shape).Idx → EReal) (x' : (⟨2, ![N, W']⟩ : Shape).Idx → EReal)
    (hx : ∀ (n : Fin N) (j' : Fin W'), x' (ix2 n j') = x (ix2 n (c j')))
    (upd : (⟨2, ![E, W]⟩ : Shape).Idx → EReal) (upd' : (⟨2, ![E, W']⟩ : Shape).Idx → EReal)
    (hupd : ∀ (e : Fin E) (j' : Fin W'), upd' (ix2 e j') = upd (ix2 e (c j')))
    (idx : IVec ⟨2, ![E, 1]⟩ w) (n : Fin N) (j' : Fin W') :
    Ideal.hostScatterAdd d' x' idx upd' (ix2 n j') = Ideal.hostScatterAdd d x idx upd (ix2 n (c j')) := by
  rw [hostScatterAdd_apply d' huw' hiw' hsd' hivd' x' idx upd' n j',
    hostScatterAdd_apply d huw hiw hsd hivd x idx upd n (c j'), hx n j']
  congr 1
  exact Finset.sum_congr rfl fun e _ => hupd e j'

/-- (S2), the columns a contiguous run: if `x'[n, j'] = x[n, off + j']` and `upd'[e, j'] = upd[e, off + j']`, then the
    scatter-add of `upd'` into `x'` at (n, j') is the scatter-add of `upd` into `x` at (n, off + j'). -/
theorem hostScatterAdd_cols_offset {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (off : Nat) (hW : off + W' ≤ W)
    (x : (⟨2, ![N, W]⟩ : Shape).Idx → EReal) (x' : (⟨2, ![N, W']⟩ : Shape).Idx → EReal)
    (hx : ∀ (n : Fin N) (j' : Fin W'), x' (ix2 n j') = x (ix2 n ⟨off + j'.val, by omega⟩))
    (upd : (⟨2, ![E, W]⟩ : Shape).Idx → EReal) (upd' : (⟨2, ![E, W']⟩ : Shape).Idx → EReal)
    (hupd : ∀ (e : Fin E) (j' : Fin W'), upd' (ix2 e j') = upd (ix2 e ⟨off + j'.val, by omega⟩))
    (idx : IVec ⟨2, ![E, 1]⟩ w) (n : Fin N) (j' : Fin W') :
    Ideal.hostScatterAdd d' x' idx upd' (ix2 n j') = Ideal.hostScatterAdd d x idx upd (ix2 n ⟨off + j'.val, by omega⟩) :=
  hostScatterAdd_cols d huw hiw hsd hivd d' huw' hiw' hsd' hivd' (fun j' => ⟨off + j'.val, by omega⟩) x x' hx upd upd' hupd
    idx n j'

end Scatter

/-! ## The same, stated on the host operation `Host.scatterAdd` at the ideal instance -/

section HostForm
variable {N E W w : Nat} {φ : FTy}

/-- At the ideal instance the host's scatter-add is the exact sum `Ideal.hostScatterAdd`, by definition. -/
theorem scatterAdd_eq {s si u : Shape} (d : ScatterDims s si u) (x : FVec Ideal s φ) (idx : IVec si w)
    (upd : FVec Ideal u φ) : Host.scatterAdd d x idx upd = Ideal.hostScatterAdd d x idx upd := rfl

/-- (S1) on `Host.scatterAdd`: the element (n, j) of the result is the table's plus the sum of the updates' elements
    (e, j) over the update rows `e` whose row number `idx[e, 0]`, read signed, is `n`. -/
theorem scatterAdd_apply (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (x : FVec Ideal ⟨2, ![N, W]⟩ φ) (idx : IVec ⟨2, ![E, 1]⟩ w) (upd : FVec Ideal ⟨2, ![E, W]⟩ φ) (n : Fin N) (j : Fin W) :
    Host.scatterAdd d x idx upd (ix2 n j) =
      x (ix2 n j) + ∑ e ∈ Finset.univ.filter (fun e : Fin E => (idx (ix2 e 0)).toInt = (n.val : Int)), upd (ix2 e j) :=
  hostScatterAdd_apply d huw hiw hsd hivd x idx upd n j

/-- (S2) on `Host.scatterAdd`, any choice of columns `c`. -/
theorem scatterAdd_cols {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (c : Fin W' → Fin W)
    (x : FVec Ideal ⟨2, ![N, W]⟩ φ) (x' : FVec Ideal ⟨2, ![N, W']⟩ φ)
    (hx : ∀ (n : Fin N) (j' : Fin W'), x' (ix2 n j') = x (ix2 n (c j')))
    (upd : FVec Ideal ⟨2, ![E, W]⟩ φ) (upd' : FVec Ideal ⟨2, ![E, W']⟩ φ)
    (hupd : ∀ (e : Fin E) (j' : Fin W'), upd' (ix2 e j') = upd (ix2 e (c j')))
    (idx : IVec ⟨2, ![E, 1]⟩ w) (n : Fin N) (j' : Fin W') :
    Host.scatterAdd d' x' idx upd' (ix2 n j') = Host.scatterAdd d x idx upd (ix2 n (c j')) :=
  hostScatterAdd_cols d huw hiw hsd hivd d' huw' hiw' hsd' hivd' c x x' hx upd upd' hupd idx n j'

/-- (S2) on `Host.scatterAdd`, the columns the run that starts at `off`. -/
theorem scatterAdd_cols_offset {W' : Nat}
    (d : ScatterDims ⟨2, ![N, W]⟩ ⟨2, ![E, 1]⟩ ⟨2, ![E, W]⟩)
    (huw : d.updateWindowDims = [1]) (hiw : d.insertedWindowDims = [0]) (hsd : d.scatterDimsToOperandDims = [0])
    (hivd : d.indexVectorDim = 1)
    (d' : ScatterDims ⟨2, ![N, W']⟩ ⟨2, ![E, 1]⟩ ⟨2, ![E, W']⟩)
    (huw' : d'.updateWindowDims = [1]) (hiw' : d'.insertedWindowDims = [0]) (hsd' : d'.scatterDimsToOperandDims = [0])
    (hivd' : d'.indexVectorDim = 1)
    (off : Nat) (hW : off + W' ≤ W)
    (x : FVec Ideal ⟨2, ![N, W]⟩ φ) (x' : FVec Ideal ⟨2, ![N, W']⟩ φ)
    (hx : ∀ (n : Fin N) (j' : Fin W'), x' (ix2 n j') = x (ix2 n ⟨off + j'.val, by omega⟩))
    (upd : FVec Ideal ⟨2, ![E, W]⟩ φ) (upd' : FVec Ideal ⟨2, ![E, W']⟩ φ)
    (hupd : ∀ (e : Fin E) (j' : Fin W'), upd' (ix2 e j') = upd (ix2 e ⟨off + j'.val, by omega⟩))
    (idx : IVec ⟨2, ![E, 1]⟩ w) (n : Fin N) (j' : Fin W') :
    Host.scatterAdd d' x' idx upd' (ix2 n j') = Host.scatterAdd d x idx upd (ix2 n ⟨off + j'.val, by omega⟩) :=
  hostScatterAdd_cols_offset d huw hiw hsd hivd d' huw' hiw' hsd' hivd' off hW x x' hx upd upd' hupd idx n j'

end HostForm

end Cert.Bridge.GS
-- ==== Proof.KTake.lean ====
/-
  THE TAKE WITH FILL, READ AT ONE ELEMENT. `jnp.take` at its default mode wraps a negative row number, gathers with
  the start index clamped, and replaces a row whose wrapped number is no row of the table by the quiet-NaN word. Where
  the wrapped number IS a row (`Spec.InR`), the mask is set and the element (e, j) is the table's at the row
  `Spec.gidx` names. Also: a quarter of a score is the score divided by four, on every extended real.
-/
import proofs.«429704_j44057774522827_1_alg».proof.Proof.KForms
import proofs.«429704_j44057774522827_1_alg».proof.Proof.Spec
import proofs.«429704_j44057774522827_1_alg».proof.Proof.LibGatherScatter
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

open scoped BigOperators

noncomputable section

namespace Cert.Bridge.KTake

open Idealize.ShloMosaic Idealize.ShloMosaic.ValueIdx Cert.KernelIdeal Cert.KernelIdeal.Gen Cert.Bridge

/-! ## The wrapped row numbers, their column, and the mask "the wrapped number is a row"

The two takes (128 and 8 columns) share everything up to the gather: the wrap of a negative number, the wrapped
numbers laid as a one-column matrix, and the mask `0 ≤ w ∧ w ≤ 49999` and-reduced over the axis of extent one. Each is
read here at one element. -/

/-- A fold of a commutative, associative operation over an index type of one element is one application. -/
private theorem fold_fin_one {α : Type} (op : α → α → α) [Std.Commutative op] [Std.Associative op] {n : Nat} (hn : n = 1)
    (b : α) (g : Fin n → α) : (Finset.univ : Finset (Fin n)).fold op b g = op (g ⟨0, by omega⟩) b := by
  subst hn
  rw [Finset.univ_unique, Finset.fold_singleton]
  rfl

/-- The wrapped row numbers: `r + 50000` where `r < 0` (read signed), else `r`, element by element. -/
private def wrapV (idx : IVec S1000000 32) : IVec S1000000 32 :=
  select (cmpi .slt idx (broadcastInDim S1000000 ![] bcast_S_S1000000 (constantI S_ 32 0#32)))
    (addi idx (broadcastInDim S1000000 ![] bcast_S_S1000000 (constantI S_ 32 50000#32))) idx

/-- At the element `e` the wrapped number is `Spec.wrapW` of the word: the signed compare with the zero word is the
    test `r.toInt < 0`, and the select takes `r + 50000` exactly when it holds. -/
private theorem wrapV_apply (idx : IVec S1000000 32) (e : Fin 1000000) : wrapV idx (ix1 e) = Spec.wrapW (idx (ix1 e)) := by
  show Scalar.select (IntOp.cmpi .slt (idx (ix1 e)) 0#32) (idx (ix1 e) + 50000#32) (idx (ix1 e)) = _
  unfold Spec.wrapW
  by_cases hneg : (idx (ix1 e)).toInt < 0
  · have h1 : IntOp.cmpi .slt (idx (ix1 e)) 0#32 = 1#1 :=
      IntOp.cmpi_slt.2 (by rw [show (0#32 : BitVec 32).toInt = 0 from rfl]; exact hneg)
    rw [h1, select_one, if_pos hneg]
  · have h1 : ¬ IntOp.cmpi .slt (idx (ix1 e)) 0#32 = 1#1 := fun h => hneg (by
      have := IntOp.cmpi_slt.1 h
      rwa [show (0#32 : BitVec 32).toInt = 0 from rfl] at this)
    rw [eq_zero_of_ne_one h1, select_zero, if_neg hneg]

/-- A vector laid as a one-column matrix reads, at (e, 0), the vector at e. -/
private theorem col_apply (v : IVec S1000000 32) (e : Fin 1000000) :
    broadcastInDim S1000000x1 ![0] bcast_S1000000_S1000000x1_0 v (ix2 e 0) = v (ix1 e) := by
  refine broadcastInDim_apply _ _ v (ix2 e 0) (ix1 e) fun a => ?_
  match a with
  | ⟨0, _⟩ => rfl

/-- The column of wrapped numbers at (e, 0) is `Spec.wrapW` of the word at e. -/
private theorem wrapCol_apply (idx : IVec S1000000 32) (e : Fin 1000000) :
    broadcastInDim S1000000x1 ![0] bcast_S1000000_S1000000x1_0 (wrapV idx) (ix2 e 0) = Spec.wrapW (idx (ix1 e)) := by
  rw [col_apply, wrapV_apply]

/-- The mask of a column `c` of numbers: `0 ≤ c ∧ c ≤ 49999` (signed compares), and-reduced over the axis of extent one. -/
private def inMask (c5 : IVec S1000000x1 32) : IVec S1000000 1 :=
  Host.reduce IntOp.andi
    (andi (cmpi .sge c5 (broadcastInDim S1000000x1 ![] bcast_S_S1000000x1 (constantI S_ 32 0#32)))
      (cmpi .sle c5 (broadcastInDim S1000000x1 ![0, 1] bcast_S1x1_S1000000x1_0_1
        (broadcastInDim S1x1 ![1] bcast_S1_S1x1_1 (constantI S1 32 49999#32)))))
    (constantI S_ 1 1#1) reducesTo_S1000000x1_S1000000_d1 h_S_

private theorem reduces_col : S1000000x1.Reduces [1] S1000000 := by decide

/-- The one index of the column that reduces into `e` is (e, 0). -/
private theorem lift_col (e : Fin 1000000) (k : Fin (S1000000x1.size 1)) : reduces_col.lift (ix1 e) k = ix2 e 0 := by
  funext a
  match a with
  | ⟨0, _⟩ => exact Fin.ext rfl
  | ⟨1, _⟩ =>
    refine Fin.ext ?_
    have := k.isLt
    show k.val = 0
    have h1 : S1000000x1.size 1 = 1 := rfl
    omega

/-- Where the column's number at (e, 0) lies in `[0, 49999]` the mask at e is set: the reduction over one element is
    that element's `and` with the initial one, and both compares hold. -/
private theorem inMask_apply (c5 : IVec S1000000x1 32) (e : Fin 1000000)
    (h0 : 0 ≤ (c5 (ix2 e 0)).toInt) (h1 : (c5 (ix2 e 0)).toInt ≤ 49999) : inMask c5 (ix1 e) = 1#1 := by
  unfold inMask
  rw [Host.reduce_eq_fold_single IntOp.andi _ _ reducesTo_S1000000x1_S1000000_d1 reduces_col h_S_ (ix1 e),
    fold_fin_one IntOp.andi (n := S1000000x1.size 1) rfl]
  rw [Function.comp_apply, lift_col]
  show IntOp.andi (IntOp.andi (IntOp.cmpi .sge (c5 (ix2 e 0)) 0#32) (IntOp.cmpi .sle (c5 (ix2 e 0)) 49999#32)) 1#1 = 1#1
  refine IntOp.andi_eq_one.2 ⟨IntOp.andi_eq_one.2 ⟨IntOp.cmpi_sge.2 ?_, IntOp.cmpi_sle.2 ?_⟩, rfl⟩
  · rw [show (0#32 : BitVec 32).toInt = 0 from rfl]; exact h0
  · rw [show (49999#32 : BitVec 32).toInt = 49999 by decide]; exact h1

/-- Under `Spec.InR` the mask of the column of wrapped numbers is set at e. -/
private theorem wrapMask_apply (idx : IVec S1000000 32) (e : Fin 1000000) (h : Spec.InR (idx (ix1 e))) :
    inMask (broadcastInDim S1000000x1 ![0] bcast_S1000000_S1000000x1_0 (wrapV idx)) (ix1 e) = 1#1 :=
  inMask_apply _ e (by rw [wrapCol_apply]; exact h.1) (by rw [wrapCol_apply]; exact h.2)

/-! ## The two takes -/

/-- The 128-column take at (e, j), the wrapped row number in range: the table's row `gidx`, column `j`. -/
theorem takeFill_apply_of_inR (tab : FVec Ideal S50000x128 .f32) (idx : IVec S1000000 32) (e : Fin 1000000) (j : Fin 128)
    (h : Spec.InR (idx (ix1 e))) :
    K.takeFill tab idx (ix2 e j) = tab (ix2 (Spec.gidx (idx (ix1 e))) j) := by
  -- the take, its shared stages named
  show select (broadcastInDim S1000000x128 ![0] bcast_S1000000_S1000000x128_0
        (inMask (broadcastInDim S1000000x1 ![0] bcast_S1000000_S1000000x1_0 (wrapV idx))))
      (Host.gather gather_S50000x128_S1000000x1_S1000000x128_1_0_n_n_0_1_1128 tab
        (broadcastInDim S1000000x1 ![0] bcast_S1000000_S1000000x1_0 (wrapV idx)))
      (broadcastInDim S1000000x128 ![] bcast_S_S1000000x128 (constant (F := Ideal) S_ .f32 0x7FC00000#32)) (ix2 e j) = _
  rw [select_apply]
  -- the mask, laid along the rows, is set at (e, j): the gathered element is kept
  have hb : broadcastInDim S1000000x128 ![0] bcast_S1000000_S1000000x128_0
      (inMask (broadcastInDim S1000000x1 ![0] bcast_S1000000_S1000000x1_0 (wrapV idx))) (ix2 e j) = 1#1 := by
    refine (broadcastInDim_apply _ _ _ (ix2 e j) (ix1 e) fun a => ?_).trans (wrapMask_apply idx e h)
    match a with
    | ⟨0, _⟩ => rfl
  rw [hb, select_one]
  -- the gather reads the row the wrapped number names, clamped: the row `gidx`
  rw [GS.gather_apply (by decide) gather_S50000x128_S1000000x1_S1000000x128_1_0_n_n_0_1_1128 rfl rfl rfl rfl rfl tab _ e j]
  refine congrArg (fun n => tab (ix2 n j)) (Fin.ext ?_)
  show min (broadcastInDim S1000000x1 ![0] bcast_S1000000_S1000000x1_0 (wrapV idx) (ix2 e 0)).toInt.toNat (50000 - 1)
    = min (Spec.wrapW (idx (ix1 e))).toInt.toNat 49999
  rw [wrapCol_apply]

/-- The 8-column take at (e, h), the wrapped row number in range. -/
theorem takeFill8_apply_of_inR (tab : FVec Ideal S50000x8 .f32) (idx : IVec S1000000 32) (e : Fin 1000000) (h : Fin 8)
    (hr : Spec.InR (idx (ix1 e))) :
    K.takeFill8 tab idx (ix2 e h) = tab (ix2 (Spec.gidx (idx (ix1 e))) h) := by
  show select (broadcastInDim S1000000x8 ![0] bcast_S1000000_S1000000x8_0
        (inMask (broadcastInDim S1000000x1 ![0] bcast_S1000000_S1000000x1_0 (wrapV idx))))
      (Host.gather gather_S50000x8_S1000000x1_S1000000x8_1_0_n_n_0_1_18 tab
        (broadcastInDim S1000000x1 ![0] bcast_S1000000_S1000000x1_0 (wrapV idx)))
      (broadcastInDim S1000000x8 ![] bcast_S_S1000000x8 (constant (F := Ideal) S_ .f32 0x7FC00000#32)) (ix2 e h) = _
  rw [select_apply]
  have hb : broadcastInDim S1000000x8 ![0] bcast_S1000000_S1000000x8_0
      (inMask (broadcastInDim S1000000x1 ![0] bcast_S1000000_S1000000x1_0 (wrapV idx))) (ix2 e h) = 1#1 := by
    refine (broadcastInDim_apply _ _ _ (ix2 e h) (ix1 e) fun a => ?_).trans (wrapMask_apply idx e hr)
    match a with
    | ⟨0, _⟩ => rfl
  rw [hb, select_one]
  rw [GS.gather_apply (by decide) gather_S50000x8_S1000000x1_S1000000x8_1_0_n_n_0_1_18 rfl rfl rfl rfl rfl tab _ e h]
  refine congrArg (fun n => tab (ix2 n h)) (Fin.ext ?_)
  show min (broadcastInDim S1000000x1 ![0] bcast_S1000000_S1000000x1_0 (wrapV idx) (ix2 e 0)).toInt.toNat (50000 - 1)
    = min (Spec.wrapW (idx (ix1 e))).toInt.toNat 49999
  rw [wrapCol_apply]

/-! ## Words read signed -/

/-- A word in `[-50000, 0)`, read signed, plus the word 50000 reads as the sum: the sum lies in `[0, 50000)`, far inside
    the signed range, so the addition modulo `2 ^ 32` does not wrap. -/
private theorem toInt_add_50000 (r : BitVec 32) (h0 : -50000 ≤ r.toInt) (h1 : r.toInt < 0) :
    (r + 50000#32).toInt = r.toInt + 50000 := by
  rw [BitVec.toInt_add]
  have h5 : (50000#32 : BitVec 32).toInt = 50000 := by decide
  rw [h5]
  refine Int.bmod_eq_of_le_mul_two ?_ ?_
  · show -((2 ^ 32 : Nat) : Int) ≤ (r.toInt + 50000) * 2
    norm_num; omega
  · show (r.toInt + 50000) * 2 < ((2 ^ 32 : Nat) : Int)
    norm_num; omega

/-- A word that, read signed, is a row number `0 ≤ r < 50000` is not wrapped, is in range, and names that row. -/
theorem inR_of_row (r : BitVec 32) (n : Fin 50000) (h : r.toInt = (n.val : Int)) : Spec.InR r ∧ Spec.gidx r = n := by
  have hn := n.isLt
  have hw : Spec.wrapW r = r := by
    unfold Spec.wrapW
    rw [if_neg (by omega)]
  refine ⟨?_, ?_⟩
  · unfold Spec.InR
    rw [hw]
    omega
  · refine Fin.ext ?_
    show min (Spec.wrapW r).toInt.toNat 49999 = n.val
    rw [hw]
    omega

/-- A word in `[-50000, 50000)`, read signed, wraps to a row. -/
theorem inR_of_range (r : BitVec 32) (h0 : -50000 ≤ r.toInt) (h1 : r.toInt < 50000) : Spec.InR r := by
  unfold Spec.InR Spec.wrapW
  split
  · next hneg =>
    rw [toInt_add_50000 r h0 hneg]
    omega
  · omega

/-! ## A quarter is a division by four -/

/-- The word `0x40800000` (exponent field 129, fraction 0) reads as the real `2 ^ 23 · 2 ^ (129 − 127 − 23) = 4`. -/
private theorem ofBits_four : Ideal.ofBits .f32 0x40800000#32 = ((4 : ℝ) : EReal) := by
  simp [Ideal.ofBits, Ideal.ieee, -EReal.coe_mul]; norm_num

/-- The word `0x3E800000` (exponent field 125, fraction 0) reads as the real `2 ^ 23 · 2 ^ (125 − 127 − 23) = 1 / 4`. -/
private theorem ofBits_quarter : Ideal.ofBits .f32 0x3E800000#32 = ((1 / 4 : ℝ) : EReal) := by
  simp [Ideal.ofBits, Ideal.ieee, -EReal.coe_mul]; norm_num

/-- The kernel's scaling of a score by the word 0.25 is the reference's division by the word 4.0. -/
theorem act0_quarter (s : EReal) : Spec.act0 (s * Spec.quarterW) = Spec.act s := by
  unfold Spec.act
  congr 1
  -- a quotient by the nonzero real 4 is the product with 1 / 4, on every extended real
  unfold Spec.quarterW Spec.fourW
  rw [ofBits_four, ofBits_quarter, Ideal.div_coe (by norm_num : (4 : ℝ) ≠ 0)]

end Cert.Bridge.KTake

end
-- ==== Proof.KMathA.lean ====
/-
  THE PROJECTED TABLES. The kernel's query, key and value tables (column blocks of the dense product of the narrowed
  features and the narrowed transposed projection) are the specification's `qkv` at the columns `colQ`, `colK`,
  `colV`; narrowing is the identity on the extended reals and the transpose swaps the coordinates.
-/
import proofs.«429704_j44057774522827_1_alg».proof.Proof.KForms
import proofs.«429704_j44057774522827_1_alg».proof.Proof.Spec
import proofs.«429704_j44057774522827_1_alg».proof.Proof.LibGatherScatter
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

open scoped BigOperators

noncomputable section

namespace Cert.Bridge.KMathA

open Idealize.ShloMosaic Idealize.ShloMosaic.ValueIdx Cert.KernelIdeal Cert.KernelIdeal.Gen Cert.Bridge

variable (emb : FVec Ideal S50000x128 .f32) (wqkv : FVec Ideal S384x128 .f32)

theorem kQ_apply (n : Fin 50000) (j : Fin 128) :
    K.kQ emb wqkv (ix2 n j) = Spec.qkv (fun n k => emb (ix2 n k)) (fun j k => wqkv (ix2 j k)) n (Spec.colQ j) := by
  unfold K.kQ
  rw [slice2_axis1_apply _ (K.kqkv emb wqkv) _ n j (Spec.colQ j) (by simp [Spec.colQ])]
  unfold K.kqkv Spec.qkv
  rw [K.mmF_apply]
  refine Finset.sum_congr rfl fun k _ => ?_
  unfold K.kx K.kw
  rw [truncf_apply, truncf_apply, transpose_ix2_apply]
theorem kK_apply (n : Fin 50000) (j : Fin 128) :
    K.kK emb wqkv (ix2 n j) = Spec.qkv (fun n k => emb (ix2 n k)) (fun j k => wqkv (ix2 j k)) n (Spec.colK j) := by
  unfold K.kK
  rw [slice2_axis1_apply _ (K.kqkv emb wqkv) _ n j (Spec.colK j) (by simp [Spec.colK])]
  unfold K.kqkv Spec.qkv
  rw [K.mmF_apply]
  refine Finset.sum_congr rfl fun k _ => ?_
  unfold K.kx K.kw
  rw [truncf_apply, truncf_apply, transpose_ix2_apply]
theorem kV_apply (n : Fin 50000) (j : Fin 128) :
    K.kV emb wqkv (ix2 n j) = Spec.qkv (fun n k => emb (ix2 n k)) (fun j k => wqkv (ix2 j k)) n (Spec.colV j) := by
  unfold K.kV
  rw [slice2_axis1_apply _ (K.kqkv emb wqkv) _ n j (Spec.colV j) (by simp [Spec.colV])]
  unfold K.kqkv Spec.qkv
  rw [K.mmF_apply]
  refine Finset.sum_congr rfl fun k _ => ?_
  unfold K.kx K.kw
  rw [truncf_apply, truncf_apply, transpose_ix2_apply]

end Cert.Bridge.KMathA

end
-- ==== Proof.KMathB.lean ====
/-
  THE EDGE STAGES ON THE EDGES THAT COUNT. For an edge whose source word is a row number (`0 ≤ row e < 50000`, the only
  edges a scatter-add keeps) and whose target word is in `[-50000, 50000)` (the precondition), every take's mask is set,
  so the kernel's exponentiated score and gathered value are the specification's `ex` and `vs`.
-/
import proofs.«429704_j44057774522827_1_alg».proof.Proof.KForms
import proofs.«429704_j44057774522827_1_alg».proof.Proof.Spec
import proofs.«429704_j44057774522827_1_alg».proof.Proof.LibGatherScatter
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws
import proofs.«429704_j44057774522827_1_alg».proof.Proof.KTake
import proofs.«429704_j44057774522827_1_alg».proof.Proof.KMathA

open scoped BigOperators

noncomputable section

namespace Cert.Bridge.KMathB

open Idealize.ShloMosaic Idealize.ShloMosaic.ValueIdx Cert.KernelIdeal Cert.KernelIdeal.Gen Cert.Bridge

variable (emb : FVec Ideal S50000x128 .f32) (rowA colA : IVec S1000000 32) (wqkv : FVec Ideal S384x128 .f32)

/-- The exponentiated score of an edge that counts. -/
theorem kex_apply (hcol : ∀ e : Fin 1000000, -50000 ≤ (colA (ix1 e)).toInt ∧ (colA (ix1 e)).toInt < 50000)
    (e : Fin 1000000) (n : Fin 50000) (hrow : (rowA (ix1 e)).toInt = (n.val : Int)) (h : Fin 8) :
    K.kex emb rowA colA wqkv (ix2 e h)
      = Spec.ex (fun n k => emb (ix2 n k)) (fun j k => wqkv (ix2 j k)) (fun e => rowA (ix1 e)) (fun e => colA (ix1 e)) e h := by
  have hr := KTake.inR_of_row (rowA (ix1 e)) n hrow
  have hc := KTake.inR_of_range (colA (ix1 e)) (hcol e).1 (hcol e).2
  unfold K.kex
  rw [K.scoreF_apply]
  unfold K.kqs K.kkd
  -- every lane's two factors: the take reads the table's row, the table is the projected features
  have hq : ∀ d : Fin 16, K.takeFill (K.kQ emb wqkv) rowA (ix2 e (Spec.lane h d))
      = Spec.qs (fun n k => emb (ix2 n k)) (fun j k => wqkv (ix2 j k)) (fun e => rowA (ix1 e)) e (Spec.lane h d) := by
    intro d
    rw [KTake.takeFill_apply_of_inR _ _ e _ hr.1, KMathA.kQ_apply]
    rfl
  have hk : ∀ d : Fin 16, K.takeFill (K.kK emb wqkv) colA (ix2 e (Spec.lane h d))
      = Spec.ks (fun n k => emb (ix2 n k)) (fun j k => wqkv (ix2 j k)) (fun e => colA (ix1 e)) e (Spec.lane h d) := by
    intro d
    rw [KTake.takeFill_apply_of_inR _ _ e _ hc, KMathA.kK_apply]
    rfl
  simp only [hq, hk]
  rw [KTake.act0_quarter]
  rfl

/-- The gathered value of an edge whose target word is in range. -/
theorem kvd_apply (hcol : ∀ e : Fin 1000000, -50000 ≤ (colA (ix1 e)).toInt ∧ (colA (ix1 e)).toInt < 50000)
    (e : Fin 1000000) (j : Fin 128) :
    K.kvd emb colA wqkv (ix2 e j)
      = Spec.vs (fun n k => emb (ix2 n k)) (fun j k => wqkv (ix2 j k)) (fun e => colA (ix1 e)) e j := by
  have hc := KTake.inR_of_range (colA (ix1 e)) (hcol e).1 (hcol e).2
  unfold K.kvd
  rw [KTake.takeFill_apply_of_inR _ _ e j hc, KMathA.kV_apply]
  rfl

end Cert.Bridge.KMathB

end
-- ==== Proof.KMathC.lean ====
/-
  FROM THE EDGES TO THE RESULT. A scatter-add at the source words sums, into node `n`, exactly the edges whose source
  word read signed is `n` — all of them edges that count — so the kernel's per-node sums, gathered sums, weighted values,
  aggregate and result are the specification's `den`, `wt`, `wv`, `agg` and `out`.
-/
import proofs.«429704_j44057774522827_1_alg».proof.Proof.KForms
import proofs.«429704_j44057774522827_1_alg».proof.Proof.Spec
import proofs.«429704_j44057774522827_1_alg».proof.Proof.LibGatherScatter
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws
import proofs.«429704_j44057774522827_1_alg».proof.Proof.KTake
import proofs.«429704_j44057774522827_1_alg».proof.Proof.KMathA
import proofs.«429704_j44057774522827_1_alg».proof.Proof.KMathB

open scoped BigOperators

noncomputable section

namespace Cert.Bridge.KMathC

open Idealize.ShloMosaic Idealize.ShloMosaic.ValueIdx Cert.KernelIdeal Cert.KernelIdeal.Gen Cert.Bridge

variable (emb : FVec Ideal S50000x128 .f32) (rowA colA : IVec S1000000 32) (wqkv : FVec Ideal S384x128 .f32)
  (wout : FVec Ideal S128x128 .f32)

/-- The column of source words `[1000000, 1]` read at (e, 0) is the source word of edge `e`. -/
private theorem col_apply (e : Fin 1000000) :
    broadcastInDim S1000000x1 ![0] bcast_S1000000_S1000000x1_0 rowA (ix2 e 0) = rowA (ix1 e) :=
  broadcastInDim_apply _ _ rowA _ (ix1 e) fun a => match a with | ⟨0, _⟩ => rfl

/-- The edges a scatter-add at the source-word column sums into node `n` are the specification's `edgesOf`. -/
private theorem filter_eq (n : Fin 50000) :
    (Finset.univ.filter fun e : Fin 1000000 =>
        ((broadcastInDim S1000000x1 ![0] bcast_S1000000_S1000000x1_0 rowA) (ix2 e 0)).toInt = (n.val : Int))
      = Spec.edgesOf (fun e => rowA (ix1 e)) n := by
  ext e
  simp only [Spec.edgesOf, Finset.mem_filter, Finset.mem_univ, true_and]
  rw [col_apply rowA e]

theorem kden_apply (hcol : ∀ e : Fin 1000000, -50000 ≤ (colA (ix1 e)).toInt ∧ (colA (ix1 e)).toInt < 50000)
    (n : Fin 50000) (h : Fin 8) :
    K.kden emb rowA colA wqkv (ix2 n h)
      = Spec.den (fun n k => emb (ix2 n k)) (fun j k => wqkv (ix2 j k)) (fun e => rowA (ix1 e)) (fun e => colA (ix1 e)) n h := by
  unfold K.kden
  rw [GS.scatterAdd_apply (N := 50000) (W := 8) (E := 1000000) scatter_S50000x8_S1000000x1_S1000000x8_1_0_0_1
    rfl rfl rfl rfl]
  -- the table is the zero word everywhere
  rw [broadcastInDim_apply (![] : Fin 0 → Fin 2) bcast_S_S50000x8 (constant (F := Ideal) S_ .f32 0x00000000#32) (ix2 n h)
    (fun a => a.elim0) (fun a => a.elim0), constant_apply, Ideal.ofBits_zero_f32, zero_add]
  unfold Spec.den
  refine Finset.sum_congr (filter_eq rowA n) fun e he => ?_
  exact KMathB.kex_apply emb rowA colA wqkv hcol e n (Finset.mem_filter.mp he).2 h

theorem kwv_apply (hcol : ∀ e : Fin 1000000, -50000 ≤ (colA (ix1 e)).toInt ∧ (colA (ix1 e)).toInt < 50000)
    (e : Fin 1000000) (n : Fin 50000) (hrow : (rowA (ix1 e)).toInt = (n.val : Int)) (j : Fin 128) :
    K.kwv emb rowA colA wqkv (ix2 e j)
      = Spec.wv (fun n k => emb (ix2 n k)) (fun j k => wqkv (ix2 j k)) (fun e => rowA (ix1 e)) (fun e => colA (ix1 e)) e j := by
  have hr := KTake.inR_of_row (rowA (ix1 e)) n hrow
  unfold K.kwv
  rw [K.wmulF_apply]
  unfold K.kdg
  rw [KTake.takeFill8_apply_of_inR _ _ e _ hr.1, kden_apply emb rowA colA wqkv hcol,
    KMathB.kex_apply emb rowA colA wqkv hcol e n hrow, KMathB.kvd_apply emb colA wqkv hcol]
  rfl

theorem kagg_apply (hcol : ∀ e : Fin 1000000, -50000 ≤ (colA (ix1 e)).toInt ∧ (colA (ix1 e)).toInt < 50000)
    (n : Fin 50000) (j : Fin 128) :
    K.kagg emb rowA colA wqkv (ix2 n j)
      = Spec.agg (fun n k => emb (ix2 n k)) (fun j k => wqkv (ix2 j k)) (fun e => rowA (ix1 e)) (fun e => colA (ix1 e)) n j := by
  unfold K.kagg
  rw [GS.scatterAdd_apply (N := 50000) (W := 128) (E := 1000000) scatter_S50000x128_S1000000x1_S1000000x128_1_0_0_1
    rfl rfl rfl rfl]
  -- the table is the zero word everywhere
  rw [broadcastInDim_apply (![] : Fin 0 → Fin 2) bcast_S_S50000x128 (constant (F := Ideal) S_ .f32 0x00000000#32) (ix2 n j)
    (fun a => a.elim0) (fun a => a.elim0), constant_apply, Ideal.ofBits_zero_f32, zero_add]
  unfold Spec.agg
  refine Finset.sum_congr (filter_eq rowA n) fun e he => ?_
  exact kwv_apply emb rowA colA wqkv hcol e n (Finset.mem_filter.mp he).2 j

/-- THE KERNEL'S RESULT is the specification's, under the target words' range. -/
theorem kout_eq (hcol : ∀ e : Fin 1000000, -50000 ≤ (colA (ix1 e)).toInt ∧ (colA (ix1 e)).toInt < 50000)
    (n : Fin 50000) (c : Fin 128) :
    K.kout emb rowA colA wqkv wout (ix2 n c)
      = Spec.out (fun n k => emb (ix2 n k)) (fun j k => wqkv (ix2 j k)) (fun c j => wout (ix2 c j))
          (fun e => rowA (ix1 e)) (fun e => colA (ix1 e)) n c := by
  unfold K.kout
  rw [K.mmF_apply]
  unfold Spec.out
  refine Finset.sum_congr rfl fun j _ => ?_
  unfold K.ka K.kwo
  rw [truncf_apply, truncf_apply, transpose_ix2_apply, kagg_apply emb rowA colA wqkv hcol]

end Cert.Bridge.KMathC

end
-- ==== Proof.Pre.lean ====
/-
  WHAT THE PRECONDITION SAYS OF THE TARGET WORDS. The printed precondition is the conjunction of the three finiteness
  tests and of `all ((col ≥ -50000) & (col < 50000))`; its last conjunct, decoded: every target word, read signed, lies
  in `[-50000, 50000)`.
-/
import proofs.«429704_j44057774522827_1_alg».proof.Defs
import proofs.«429704_j44057774522827_1_alg».proof.Proof.Gen.KernelIdeal
import proofs.«429704_j44057774522827_1_alg».proof.Proof.Gen.Pre_finite_inputs
import Idealize.ShloMosaic.Lib.ValueIdx
import Idealize.ShloMosaic.Lib.ReduceAll
import Idealize.ShloMosaic.Lib.StableHlo.Predicate

open scoped BigOperators

noncomputable section

namespace Cert.Bridge.Pre

open Idealize.ShloMosaic Idealize.ShloMosaic.TcCoe Idealize.ShloMosaic.ValueIdx Idealize.SL.Sem

/-- The shape of no axes has one index. -/
private instance : Subsingleton Cert.Pre_finite_inputs.S_.Idx := ⟨fun a b => funext fun d => d.elim0⟩

/-- The tail of the printed predicate, decoded at one element. The tail is `p & all ((col ≥ lo) & (col < hi))` for the
    earlier conjuncts' bit `p`; if it is one, the and-reduction over all the elements is one, so the conjunction of the two
    signed compares is one at every element `e`, and a signed compare that is one is the order of the words read signed. -/
private theorem range_of_all (col : IVec Cert.Pre_finite_inputs.S1000000 32) (p : IVec Cert.Pre_finite_inputs.S_ 1)
    (lo hi : BitVec 32)
    (h : Cert.Pre_finite_inputs.fn_part1 (F := Ideal) col p
        (cmpi .sge col (broadcastInDim Cert.Pre_finite_inputs.S1000000 ![] Cert.Pre_finite_inputs.Facts.bcast_S_S1000000
          (constantI Cert.Pre_finite_inputs.S_ 32 lo)))
        (constantI Cert.Pre_finite_inputs.S_ 32 hi) ix0 = 1#1)
    (e : Fin 1000000) : lo.toInt ≤ (col (ix1 e)).toInt ∧ (col (ix1 e)).toInt < hi.toInt := by
  dsimp only [Cert.Pre_finite_inputs.fn_part1] at h
  -- the outer conjunction: its second conjunct is the reduction over all the elements
  have hall := (IntOp.andi_eq_one.1 h).2
  -- a reduction by `and` into the one result index that is one met a one at every element
  have he := Host.reduce_andi_all _ _ _ _ _ hall (ix1 e)
  -- at the element: the two compares
  obtain ⟨hge, hlt⟩ := IntOp.andi_eq_one.1 he
  exact ⟨IntOp.cmpi_sge.1 hge, IntOp.cmpi_slt.1 hlt⟩

/-- Under the precondition every target word of every device's `col` argument, read signed, is in `[-50000, 50000)`. -/
theorem col_range (m : (ℓ : Loc Cert.KernelIdeal.nD Cert.KernelIdeal.τ Cert.KernelIdeal.sig) → Buf (Elt Ideal) ℓ)
    (h : Cert.Pre_KernelIdeal m) (c : Dev Cert.KernelIdeal.nD) (e : Fin 1000000) :
    -50000 ≤ ((m ((c.tc : Thread Cert.KernelIdeal.nD Cert.KernelIdeal.τ).loc Cert.KernelIdeal.main_arg2) : IVec Cert.KernelIdeal.S1000000 32) (ix1 e)).toInt
      ∧ ((m ((c.tc : Thread Cert.KernelIdeal.nD Cert.KernelIdeal.τ).loc Cert.KernelIdeal.main_arg2) : IVec Cert.KernelIdeal.S1000000 32) (ix1 e)).toInt < 50000 := by
  -- the predicate is one at its one index, on the device `c`
  have e0 := congrFun (h c) ValueIdx.ix0
  dsimp only [Cert.Pre_finite_inputs.fn] at e0
  have hr := range_of_all _ _ _ _ e0 e
  -- the two bounds' words read signed: `2 ^ 32 − 50000` is `-50000`
  have hlo : (4294917296#32 : BitVec 32).toInt = -50000 := by decide
  have hhi : (50000#32 : BitVec 32).toInt = 50000 := by decide
  rw [hlo, hhi] at hr
  exact hr

end Cert.Bridge.Pre

end
-- ==== Proof.LibGS3.lean ====
/-
  ROW GATHER AND ROW SCATTER-ADD OF A THREE-AXIS TABLE, READ AT ONE ELEMENT.

  A table `x : [N, A, B]` and a column `idx : [E, 1]` of row numbers (integer words, read signed), with the dimension
  numbers of `x[idx]` and `x.at[idx].add(u)` along the first axis:
  * the GATHER (offset axes `[1, 2]`, collapsed slice axes `[0]`, start index map `[0]`, index vector on axis 1, no
    batching axes) has result `[E, A, B]`; its element (e, a, b) is `x[r, a, b]` with `r` the start index `idx[e, 0]`
    clamped into `[0, N − 1]`;
  * the SCATTER-ADD (update window axes `[1, 2]`, inserted window axes `[0]`, scatter axes to operand axes `[0]`, index
    vector on axis 1) of updates `u : [E, A, B]` has, at the ideal instance, the element (n, a, b)
    `x[n, a, b] + ∑ over the e with idx[e, 0] = n of u[e, a, b]`: the row number is not clamped, and an update row whose
    number is no row of the table is dropped.
  Every lemma takes any dimension-number record whose lists are the ones above, at any extents.
-/
import Idealize.ShloMosaic.PureOps.Ideal
import Idealize.ShloMosaic.Lib.ValueIdx

open scoped BigOperators

namespace Cert.Bridge.GS3

open Idealize.ShloMosaic Idealize.ShloMosaic.ValueIdx

/-! ## Indices of a three-axis array -/

/-- Two rank-3 indices built from coordinates are equal exactly when the three coordinates are. -/
theorem ix3_inj {n0 n1 n2 : Nat} {a a' : Fin n0} {b b' : Fin n1} {c c' : Fin n2} :
    ix3 a b c = ix3 a' b' c' ↔ a = a' ∧ b = b' ∧ c = c' := by
  constructor
  · intro h
    exact ⟨congrFun h 0, congrFun h 1, congrFun h 2⟩
  · rintro ⟨rfl, rfl, rfl⟩; rfl

/-- A rank-3 index set is the product of its three coordinate ranges: an index goes to its coordinates, a triple of
    coordinates to the index `ix3` builds from them. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The gather -/

section Gather
variable {α : Type} {N E A B w : Nat}

/-- THE OPERAND INDEX of result element (e, a, b). On the row axis (collapsed, its slice one row, and the one axis the
    start index map names) it is the start index `idx[e, 0]`, read signed and clamped into `[0, N − 1]`; on each of the
    two other axes, which are the operand's kept axes 1 and 2 and are read by the result's offset axes 1 and 2 in this
    order, the start is 0 and the offset coordinate is the result's own coordinate, `a` and `b`. -/
theorem operandIdx3_rows (hN : 0 < N) (d : GatherDims ⟨3, ![N, A, B]⟩ ⟨2, ![E, 1]⟩ ⟨3, ![E, A, B]⟩)
    (hoff : d.offsetDims = [1, 2]) (hcoll : d.collapsedSliceDims = [0]) (hob : d.operandBatchingDims = [])
    (hsim : d.startIndexMap = [0]) (hivd : d.indexVectorDim = 1)
    (idx : IVec ⟨2, ![E, 1]⟩ w) (e : Fin E) (a : Fin A) (b : Fin B) :
    d.operandIdx (ix3 e a b) idx = ix3 ⟨min (idx (ix2 e 0)).toInt.toNat (N - 1), by omega⟩ a b := by
  obtain ⟨od, cd, ob, sb, sim, ivd, ss, wf⟩ := d
  dsimp only at hoff hcoll hob hsim hivd
  subst hoff hcoll hob hsim hivd
  -- the row axis is collapsed, so its slice is one row
  have hsl : ss 0 = 1 :=
    GatherDims.slice_collapsed (⟨[1, 2], [0], [], sb, [0], 1, ss, wf⟩ : GatherDims ⟨3, ![N, A, B]⟩ ⟨2, ![E, 1]⟩ ⟨3, ![E, A, B]⟩) 0
      (List.mem_singleton.mpr rfl)
  funext c
  match c with
  | ⟨0, _⟩ =>
    refine Fin.ext ?_
    show GatherDims.start _ (ix3 e a b) idx 0 + GatherDims.batchCoord _ (ix3 e a b) 0 + GatherDims.offCoord _ (ix3 e a b) 0 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (List.mem_singleton.mpr rfl)]
    -- the position in the index column that element (e, a, b) reads: the batch coordinate e, then component 0
    have hsi : ∀ (h : List.idxOf (0 : Fin 3) [0] < [(0 : Fin 3)].length),
        GatherDims.siIdx (⟨[1, 2], [0], [], sb, [0], 1, ss, wf⟩ : GatherDims ⟨3, ![N, A, B]⟩ ⟨2, ![E, 1]⟩ ⟨3, ![E, A, B]⟩)
          (ix3 e a b) ⟨List.idxOf (0 : Fin 3) [0], h⟩ = ix2 e 0 := by
      intro h
      funext k
      refine Fin.ext ?_
      match k with
      | ⟨0, _⟩ => rfl
      | ⟨1, _⟩ => rfl
    show min (idx (GatherDims.siIdx _ (ix3 e a b) ⟨List.idxOf (0 : Fin 3) [0], _⟩)).toInt.toNat (N - ss 0) + 0 + 0
      = min (idx (ix2 e 0)).toInt.toNat (N - 1)
    rw [hsi, hsl]
    rfl
  | ⟨1, _⟩ =>
    refine Fin.ext ?_
    show GatherDims.start _ (ix3 e a b) idx 1 + GatherDims.batchCoord _ (ix3 e a b) 1 + GatherDims.offCoord _ (ix3 e a b) 1 = _
    rw [GatherDims.batchCoord_eq_zero _ _ _ List.not_mem_nil]
    unfold GatherDims.start GatherDims.offCoord
    rw [dif_neg (show (1 : Fin 3) ∉ [0] by decide),
      dif_pos ((GatherDims.mem_sKept _ _).mpr ⟨show (1 : Fin 3) ∉ [0] by decide, List.not_mem_nil⟩)]
    -- axis 1 is the first of the kept axes [1, 2], read by the first offset axis, 1
    show 0 + 0 + a.val = a.val
    omega
  | ⟨2, _⟩ =>
    refine Fin.ext ?_
    show GatherDims.start _ (ix3 e a b) idx 2 + GatherDims.batchCoord _ (ix3 e a b) 2 + GatherDims.offCoord _ (ix3 e a b) 2 = _
    rw [GatherDims.batchCoord_eq_zero _ _ _ List.not_mem_nil]
    unfold GatherDims.start GatherDims.offCoord
    rw [dif_neg (show (2 : Fin 3) ∉ [0] by decide),
      dif_pos ((GatherDims.mem_sKept _ _).mpr ⟨show (2 : Fin 3) ∉ [0] by decide, List.not_mem_nil⟩)]
    -- axis 2 is the second of the kept axes [1, 2], read by the second offset axis, 2
    show 0 + 0 + b.val = b.val
    omega

end Gather

/-- THE GATHER READ AT (e, a, b), no range condition. -/
theorem gather3_apply {α : Type} {N E A B w : Nat} (hN : 0 < N)
    (d : GatherDims ⟨3, ![N, A, B]⟩ ⟨2, ![E, 1]⟩ ⟨3, ![E, A, B]⟩)
    (hoff : d.offsetDims = [1, 2]) (hcoll : d.collapsedSliceDims = [0]) (hob : d.operandBatchingDims = [])
    (hsim : d.startIndexMap = [0]) (hivd : d.indexVectorDim = 1)
    (x : (⟨3, ![N, A, B]⟩ : Shape).Idx → α) (idx : IVec ⟨2, ![E, 1]⟩ w) (e : Fin E) (a : Fin A) (b : Fin B) :
    Host.gather d x idx (ix3 e a b) = x (ix3 ⟨min (idx (ix2 e 0)).toInt.toNat (N - 1), by omega⟩ a b) := by
  unfold Host.gather
  rw [operandIdx3_rows hN d hoff hcoll hob hsim hivd idx e a b]

/-! ## The scatter-add -/

section Scatter
variable {N E A B w : Nat}

/-- WHERE AN UPDATE LANDS. Update element (e, a, b) of a row scatter into a three-axis table (the row axis inserted and
    scattered, axes 1 and 2 the window; one row number per update row, on the index vector's axis 1) lands at
    (`idx[e, 0]`, a, b) when the row number, read signed and not clamped, is a row of the table, and nowhere when it is
    not: on the row axis the start is the row number and the window coordinate 0, on each window axis the start is 0 and
    the window coordinate the update's own, which is below the table's extent there. -/
theorem resultIdx?3_rows (d : ScatterDims ⟨3, ![N, A, B]⟩ ⟨2, ![E, 1]⟩ ⟨3, ![E, A, B]⟩)
    (huw : d.updateWindowDims = [1, 2]) (hiw : d.insertedWindowDims = [0]) (hsd : d.scatterDimsToOperandDims = [0])
    (hivd : d.indexVectorDim = 1) (idx : IVec ⟨2, ![E, 1]⟩ w) (e : Fin E) (a : Fin A) (b : Fin B) :
    d.resultIdx? (ix3 e a b) idx =
      if h : 0 ≤ (idx (ix2 e 0)).toInt ∧ (idx (ix2 e 0)).toInt < N then
        some (ix3 ⟨(idx (ix2 e 0)).toInt.toNat, by omega⟩ a b)
      else none := by
  obtain ⟨uw, iw, sd, ivd, wf⟩ := d
  dsimp only at huw hiw hsd hivd
  subst huw hiw hsd hivd
  set D : ScatterDims ⟨3, ![N, A, B]⟩ ⟨2, ![E, 1]⟩ ⟨3, ![E, A, B]⟩ := ⟨[1, 2], [0], [0], 1, wf⟩ with hD
  -- the three starts: the row number on the row axis, 0 on the two window axes
  have hs0 : D.start (ix3 e a b) idx 0 = (idx (ix2 e 0)).toInt := by
    unfold ScatterDims.start
    rw [dif_pos (show (0 : Fin 3) ∈ D.scatterDimsToOperandDims from List.mem_singleton.mpr rfl)]
    have hsi : ∀ (h : List.idxOf (0 : Fin 3) D.scatterDimsToOperandDims < D.scatterDimsToOperandDims.length),
        D.siIdx (ix3 e a b) ⟨List.idxOf (0 : Fin 3) D.scatterDimsToOperandDims, h⟩ = ix2 e 0 := by
      intro h
      funext k
      refine Fin.ext ?_
      match k with
      | ⟨0, _⟩ => rfl
      | ⟨1, _⟩ => rfl
    rw [hsi]
  have hs1 : D.start (ix3 e a b) idx 1 = 0 := by
    unfold ScatterDims.start
    rw [dif_neg (show (1 : Fin 3) ∉ D.scatterDimsToOperandDims from (by decide : (1 : Fin 3) ∉ [0]))]
  have hs2 : D.start (ix3 e a b) idx 2 = 0 := by
    unfold ScatterDims.start
    rw [dif_neg (show (2 : Fin 3) ∉ D.scatterDimsToOperandDims from (by decide : (2 : Fin 3) ∉ [0]))]
  -- the three window coordinates: 0 on the inserted row axis, the update's own on the kept axes 1 and 2
  have hk : D.sKept = [1, 2] := rfl
  have hw0 : D.window (ix3 e a b) 0 = 0 := by
    unfold ScatterDims.window
    rw [dif_neg (show (0 : Fin 3) ∉ D.sKept from by rw [hk]; exact (by decide : (0 : Fin 3) ∉ [1, 2]))]
  have hw1 : D.window (ix3 e a b) 1 = a.val := by
    unfold ScatterDims.window
    rw [dif_pos (show (1 : Fin 3) ∈ D.sKept from by rw [hk]; exact (by decide : (1 : Fin 3) ∈ [1, 2]))]
    rfl
  have hw2 : D.window (ix3 e a b) 2 = b.val := by
    unfold ScatterDims.window
    rw [dif_pos (show (2 : Fin 3) ∈ D.sKept from by rw [hk]; exact (by decide : (2 : Fin 3) ∈ [1, 2]))]
    rfl
  unfold ScatterDims.resultIdx?
  by_cases h : 0 ≤ (idx (ix2 e 0)).toInt ∧ (idx (ix2 e 0)).toInt < N
  · have hall : ∀ c, 0 ≤ D.start (ix3 e a b) idx c + D.window (ix3 e a b) c ∧
        D.start (ix3 e a b) idx c + D.window (ix3 e a b) c < (⟨3, ![N, A, B]⟩ : Shape).size c := by
      intro c
      match c with
      | ⟨0, _⟩ =>
        show 0 ≤ D.start (ix3 e a b) idx 0 + D.window (ix3 e a b) 0 ∧
          D.start (ix3 e a b) idx 0 + D.window (ix3 e a b) 0 < (N : Int)
        rw [hs0, hw0]; omega
      | ⟨1, _⟩ =>
        show 0 ≤ D.start (ix3 e a b) idx 1 + D.window (ix3 e a b) 1 ∧
          D.start (ix3 e a b) idx 1 + D.window (ix3 e a b) 1 < (A : Int)
        rw [hs1, hw1]; have := a.isLt; omega
      | ⟨2, _⟩ =>
        show 0 ≤ D.start (ix3 e a b) idx 2 + D.window (ix3 e a b) 2 ∧
          D.start (ix3 e a b) idx 2 + D.window (ix3 e a b) 2 < (B : Int)
        rw [hs2, hw2]; have := b.isLt; omega
    rw [dif_pos hall, dif_pos h]
    congr 1
    funext c
    refine Fin.ext ?_
    match c with
    | ⟨0, _⟩ =>
      show (D.start (ix3 e a b) idx 0 + D.window (ix3 e a b) 0).toNat = (idx (ix2 e 0)).toInt.toNat
      rw [hs0, hw0]; simp
    | ⟨1, _⟩ =>
      show (D.start (ix3 e a b) idx 1 + D.window (ix3 e a b) 1).toNat = a.val
      rw [hs1, hw1]; simp
    | ⟨2, _⟩ =>
      show (D.start (ix3 e a b) idx 2 + D.window (ix3 e a b) 2).toNat = b.val
      rw [hs2, hw2]; simp
  · rw [dif_neg h, dif_neg]
    intro hall
    have h0 : 0 ≤ D.start (ix3 e a b) idx 0 + D.window (ix3 e a b) 0 ∧
        D.start (ix3 e a b) idx 0 + D.window (ix3 e a b) 0 < (N : Int) := hall 0
    rw [hs0, hw0] at h0
    exact h (by omega)

/-- An update element (e, a', b') lands at the table's (n, a, b) exactly when its row number `idx[e, 0]`, read signed,
    is `n` and its two window coordinates are `a` and `b`. -/
theorem resultIdx?3_eq_some_iff (d : ScatterDims ⟨3, ![N, A, B]⟩ ⟨2, ![E, 1]⟩ ⟨3, ![E, A, B]⟩)
    (huw : d.updateWindowDims = [1, 2]) (hiw : d.insertedWindowDims = [0]) (hsd : d.scatterDimsToOperandDims = [0])
    (hivd : d.indexVectorDim = 1) (idx : IVec ⟨2, ![E, 1]⟩ w) (e : Fin E) (a' : Fin A) (b' : Fin B)
    (n : Fin N) (a : Fin A) (b : Fin B) :
    d.resultIdx? (ix3 e a' b') idx = some (ix3 n a b) ↔ (idx (ix2 e 0)).toInt = (n.val : Int) ∧ a' = a ∧ b' = b := by
  rw [resultIdx?3_rows d huw hiw hsd hivd idx e a' b']
  have hn := n.isLt
  by_cases h : 0 ≤ (idx (ix2 e 0)).toInt ∧ (idx (ix2 e 0)).toInt < N
  · rw [dif_pos h, Option.some.injEq, ix3_inj]
    constructor
    · rintro ⟨h1, h2, h3⟩
      refine ⟨?_, h2, h3⟩
      have hv : (idx (ix2 e 0)).toInt.toNat = n.val := congrArg Fin.val h1
      omega
    · rintro ⟨h1, h2, h3⟩
      refine ⟨Fin.ext ?_, h2, h3⟩
      show (idx (ix2 e 0)).toInt.toNat = n.val
      omega
  · rw [dif_neg h]
    constructor
    · intro h'; exact absurd h' (by simp)
    · rintro ⟨h1, _, _⟩
      exact absurd (show 0 ≤ (idx (ix2 e 0)).toInt ∧ (idx (ix2 e 0)).toInt < N by omega) h

/-- THE EXACT-SUM SCATTER-ADD READ AT (n, a, b), no range condition: the table's element plus the sum, over the update
    rows `e` whose row number `idx[e, 0]` (read signed, not clamped) is `n`, of the update's element (e, a, b). The sum
    over all update elements that land on (n, a, b) is split by coordinates; for a row `e` with the right number only
    the window position (a, b) itself contributes, and a row with another number contributes nothing. -/
theorem hostScatterAdd3_apply (d : ScatterDims ⟨3, ![N, A, B]⟩ ⟨2, ![E, 1]⟩ ⟨3, ![E, A, B]⟩)
    (huw : d.updateWindowDims = [1, 2]) (hiw : d.insertedWindowDims = [0]) (hsd : d.scatterDimsToOperandDims = [0])
    (hivd : d.indexVectorDim = 1)
    (x : (⟨3, ![N, A, B]⟩ : Shape).Idx → EReal) (idx : IVec ⟨2, ![E, 1]⟩ w)
    (upd : (⟨3, ![E, A, B]⟩ : Shape).Idx → EReal) (n : Fin N) (a : Fin A) (b : Fin B) :
    Ideal.hostScatterAdd d x idx upd (ix3 n a b) =
      x (ix3 n a b) + ∑ e ∈ Finset.univ.filter (fun e : Fin E => (idx (ix2 e 0)).toInt = (n.val : Int)), upd (ix3 e a b) := by
  unfold Ideal.hostScatterAdd
  congr 1
  rw [Finset.sum_filter, sum_idx3, Finset.sum_filter]
  refine Finset.sum_congr rfl fun e _ => ?_
  simp only [resultIdx?3_eq_some_iff d huw hiw hsd hivd idx e _ _ n a b]
  by_cases h : (idx (ix2 e 0)).toInt = (n.val : Int)
  · simp only [h, true_and, if_true]
    -- the double sum over the window has one nonzero term, at (a, b)
    have hb : ∀ a' : Fin A, (∑ b' : Fin B, if a' = a ∧ b' = b then upd (ix3 e a' b') else 0)
        = if a' = a then upd (ix3 e a' b) else 0 := by
      intro a'
      by_cases ha : a' = a
      · simp only [ha, true_and, if_true]
        rw [Finset.sum_ite_eq' Finset.univ b (fun b' => upd (ix3 e a b'))]
        simp
      · simp only [ha, false_and, if_false]
        exact Finset.sum_const_zero
    simp only [hb]
    rw [Finset.sum_ite_eq' Finset.univ a (fun a' => upd (ix3 e a' b))]
    simp
  · simp only [h, false_and, if_false]
    exact Finset.sum_eq_zero fun a' _ => Finset.sum_const_zero

end Scatter

/-- THE SCATTER-ADD READ AT (n, a, b), no range condition, on `Host.scatterAdd` at the ideal instance. -/
theorem scatterAdd3_apply {N E A B w : Nat} {φ : FTy}
    (d : ScatterDims ⟨3, ![N, A, B]⟩ ⟨2, ![E, 1]⟩ ⟨3, ![E, A, B]⟩)
    (huw : d.updateWindowDims = [1, 2]) (hiw : d.insertedWindowDims = [0]) (hsd : d.scatterDimsToOperandDims = [0])
    (hivd : d.indexVectorDim = 1)
    (x : FVec Ideal ⟨3, ![N, A, B]⟩ φ) (idx : IVec ⟨2, ![E, 1]⟩ w) (upd : FVec Ideal ⟨3, ![E, A, B]⟩ φ)
    (n : Fin N) (a : Fin A) (b : Fin B) :
    Host.scatterAdd d x idx upd (ix3 n a b) =
      x (ix3 n a b) + ∑ e ∈ Finset.univ.filter (fun e : Fin E => (idx (ix2 e 0)).toInt = (n.val : Int)), upd (ix3 e a b) :=
  hostScatterAdd3_apply d huw hiw hsd hivd x idx upd n a b

end Cert.Bridge.GS3
-- ==== Proof.RReadA.lean ====
/-
  THE REFERENCE UP TO THE EXPONENTIATED SCORES. The reference projects the features, splits and reshapes the product
  into heads `[50000, 8, 16]`, gathers queries at the wrapped source words and keys and values at the wrapped target
  words (start index clamped), sums the products over a head's 16 lanes, divides by four, applies leaky ReLU, clips and
  exponentiates: the specification's `qs`, `ks`, `vs` and `ex`, element by element, with no range condition.
-/
import proofs.«429704_j44057774522827_1_alg».proof.Proof.Gen.ReferenceIdeal.Read
import proofs.«429704_j44057774522827_1_alg».proof.Proof.Spec
import proofs.«429704_j44057774522827_1_alg».proof.Proof.LibGatherScatter
import proofs.«429704_j44057774522827_1_alg».proof.Proof.LibGS3
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.Bridge.RReadA

open Idealize.ShloMosaic Idealize.ShloMosaic.ValueIdx Cert.ReferenceIdeal Cert.ReferenceIdeal.Gen Cert.ReferenceIdeal.Read Cert.Bridge

variable (x0 : (⟨S50000x128, .f32⟩ : BufTy).Contents (Elt Ideal)) (x1 x2 : (⟨S1000000, .i32⟩ : BufTy).Contents (Elt Ideal))
  (x3 : (⟨S384x128, .f32⟩ : BufTy).Contents (Elt Ideal)) (x4 : (⟨S128x128, .f32⟩ : BufTy).Contents (Elt Ideal))

/-! ## The wrapped index columns -/

/-- The element-by-element wrap the reference computes (compare with zero, add 50000, select) is `wrapW`. -/
private theorem wrap_eq (r : BitVec 32) :
    Scalar.select (IntOp.cmpi .slt r 0#32) (IntOp.addi r 50000#32) r = Spec.wrapW r := by
  unfold Spec.wrapW Scalar.select IntOp.cmpi IntOp.addi
  by_cases h : r.toInt < 0
  · have hs : r.slt 0#32 = true := by simp [BitVec.slt, h]
    simp [hs, h]
  · have hs : r.slt 0#32 = false := by simp [BitVec.slt, h]
    simp [hs, h]

/-- Row `e` of an index column `[1000000, 1]` is entry `e` of the vector it broadcasts. -/
private theorem idxcol13 (e : Fin 1000000) : idx_main_v13 (ix2 e 0) = ix1 e :=
  funext fun a => Fin.ext (by match a with | ⟨0, _⟩ => rfl)
private theorem idxcol20 (e : Fin 1000000) : idx_main_v20 (ix2 e 0) = ix1 e :=
  funext fun a => Fin.ext (by match a with | ⟨0, _⟩ => rfl)
private theorem idxcol27 (e : Fin 1000000) : idx_main_v27 (ix2 e 0) = ix1 e :=
  funext fun a => Fin.ext (by match a with | ⟨0, _⟩ => rfl)

/-- The queries' index column holds the wrapped source words. -/
private theorem v13_at (e : Fin 1000000) : val_main_v13 (F := Ideal) x1 (ix2 e 0) = Spec.wrapW (x1 (ix1 e)) := by
  rw [val_main_v13_apply, idxcol13, val_main_v12_apply, val_main_v9_apply, val_main_v11_apply, val_main_v8_apply,
    val_main_v10_apply, val_main_c_apply, val_main_c_0_apply]
  exact wrap_eq _

/-- The keys' index column holds the wrapped target words. -/
private theorem v20_at (e : Fin 1000000) : val_main_v20 (F := Ideal) x2 (ix2 e 0) = Spec.wrapW (x2 (ix1 e)) := by
  rw [val_main_v20_apply, idxcol20, val_main_v19_apply, val_main_v16_apply, val_main_v18_apply, val_main_v15_apply,
    val_main_v17_apply, val_main_c_1_apply, val_main_c_2_apply]
  exact wrap_eq _

/-- The values' index column holds the wrapped target words. -/
private theorem v27_at (e : Fin 1000000) : val_main_v27 (F := Ideal) x2 (ix2 e 0) = Spec.wrapW (x2 (ix1 e)) := by
  rw [val_main_v27_apply, idxcol27, val_main_v26_apply, val_main_v23_apply, val_main_v25_apply, val_main_v22_apply,
    val_main_v24_apply, val_main_c_3_apply, val_main_c_4_apply]
  exact wrap_eq _

/-! ## The dense product and its three reshaped column slices -/

private theorem idx_v0 (k : Fin 128) (c : Fin 384) : idx_main_v0 (ix2 k c) = ix2 c k :=
  funext fun a => Fin.ext (by match a with | ⟨0, _⟩ => rfl | ⟨1, _⟩ => rfl)
private theorem lidx_v1 (n : Fin 50000) (c : Fin 384) (k : Fin 128) : lidx_main_v1 (ix2 n c) k = ix2 n k :=
  funext fun a => Fin.ext (by match a with | ⟨0, _⟩ => rfl | ⟨1, _⟩ => rfl)
private theorem ridx_v1 (n : Fin 50000) (c : Fin 384) (k : Fin 128) : ridx_main_v1 (ix2 n c) k = ix2 k c :=
  funext fun a => Fin.ext (by match a with | ⟨0, _⟩ => rfl | ⟨1, _⟩ => rfl)

/-- The dense product at (n, c) is the projected feature `qkv n c`: the contraction against the transposed weights. -/
private theorem v1_at (n : Fin 50000) (c : Fin 384) :
    val_main_v1 (F := Ideal) x0 x3 (ix2 n c) = Spec.qkv (fun n k => x0 (ix2 n k)) (fun j k => x3 (ix2 j k)) n c := by
  rw [val_main_v1_apply]
  unfold Spec.qkv
  refine Finset.sum_congr rfl fun k _ => ?_
  rw [val_main_v0_apply, lidx_v1, ridx_v1, idx_v0]

private theorem idx_v2 (n : Fin 50000) (j : Fin 128) : idx_main_v2 (ix2 n j) = ix2 n (Spec.colQ j) :=
  funext fun a => Fin.ext (by match a with | ⟨0, _⟩ => rfl | ⟨1, _⟩ => rfl)
private theorem idx_v3 (n : Fin 50000) (j : Fin 128) : idx_main_v3 (ix2 n j) = ix2 n (Spec.colK j) :=
  funext fun a => Fin.ext (by match a with | ⟨0, _⟩ => rfl | ⟨1, _⟩ => rfl)
private theorem idx_v4 (n : Fin 50000) (j : Fin 128) : idx_main_v4 (ix2 n j) = ix2 n (Spec.colV j) :=
  funext fun a => Fin.ext (by match a with | ⟨0, _⟩ => rfl | ⟨1, _⟩ => rfl)

/-- Row-major arithmetic of the reshape [50000, 128] → [50000, 8, 16]: element (n, h, d) is column 16 h + d of row n. -/
private theorem idx_v5 (n : Fin 50000) (h : Fin 8) (d : Fin 16) : idx_main_v5 (ix3 n h d) = ix2 n (Spec.lane h d) :=
  funext fun a => Fin.ext (by
    have hn := n.isLt; have hh := h.isLt; have hd := d.isLt
    match a with
    | ⟨0, _⟩ => show ((n.val * 8 + h.val) * 16 + d.val) / 128 = n.val; omega
    | ⟨1, _⟩ => show ((n.val * 8 + h.val) * 16 + d.val) % 128 = 16 * h.val + d.val; omega)
private theorem idx_v6 (n : Fin 50000) (h : Fin 8) (d : Fin 16) : idx_main_v6 (ix3 n h d) = ix2 n (Spec.lane h d) :=
  idx_v5 n h d
private theorem idx_v7 (n : Fin 50000) (h : Fin 8) (d : Fin 16) : idx_main_v7 (ix3 n h d) = ix2 n (Spec.lane h d) :=
  idx_v5 n h d

/-- The query table `[50000, 8, 16]` at (n, h, d). -/
private theorem v5_at (n : Fin 50000) (h : Fin 8) (d : Fin 16) :
    val_main_v5 (F := Ideal) x0 x3 (ix3 n h d)
      = Spec.qkv (fun n k => x0 (ix2 n k)) (fun j k => x3 (ix2 j k)) n (Spec.colQ (Spec.lane h d)) := by
  rw [val_main_v5_apply, idx_v5, val_main_v2_apply, idx_v2, v1_at]

/-- The key table at (n, h, d). -/
private theorem v6_at (n : Fin 50000) (h : Fin 8) (d : Fin 16) :
    val_main_v6 (F := Ideal) x0 x3 (ix3 n h d)
      = Spec.qkv (fun n k => x0 (ix2 n k)) (fun j k => x3 (ix2 j k)) n (Spec.colK (Spec.lane h d)) := by
  rw [val_main_v6_apply, idx_v6, val_main_v3_apply, idx_v3, v1_at]

/-- The value table at (n, h, d). -/
private theorem v7_at (n : Fin 50000) (h : Fin 8) (d : Fin 16) :
    val_main_v7 (F := Ideal) x0 x3 (ix3 n h d)
      = Spec.qkv (fun n k => x0 (ix2 n k)) (fun j k => x3 (ix2 j k)) n (Spec.colV (Spec.lane h d)) := by
  rw [val_main_v7_apply, idx_v7, val_main_v4_apply, idx_v4, v1_at]

/-! ## The three gathers -/

/-- The gathered queries `[1000000, 8, 16]` at (e, h, d). -/
private theorem v14_apply (e : Fin 1000000) (h : Fin 8) (d : Fin 16) :
    val_main_v14 (F := Ideal) x0 x1 x3 (ix3 e h d) = Spec.qs (fun n k => x0 (ix2 n k)) (fun j k => x3 (ix2 j k)) (fun e => x1 (ix1 e)) e (Spec.lane h d) := by
  unfold val_main_v14
  refine (GS3.gather3_apply (by decide) gather_S50000x8x16_S1000000x1_S1000000x8x16_12_0_n_n_0_1_1816 rfl rfl rfl rfl rfl
    (val_main_v5 (F := Ideal) x0 x3) (val_main_v13 (F := Ideal) x1) e h d).trans ?_
  rw [v5_at]
  unfold Spec.qs
  refine congrArg (fun n => Spec.qkv _ _ n _) (Fin.ext ?_)
  show min (val_main_v13 (F := Ideal) x1 (ix2 e 0)).toInt.toNat (50000 - 1) = min (Spec.wrapW (x1 (ix1 e))).toInt.toNat 49999
  rw [v13_at]

/-- The gathered keys `[1000000, 8, 16]` at (e, h, d). -/
private theorem v21_apply (e : Fin 1000000) (h : Fin 8) (d : Fin 16) :
    val_main_v21 (F := Ideal) x0 x2 x3 (ix3 e h d) = Spec.ks (fun n k => x0 (ix2 n k)) (fun j k => x3 (ix2 j k)) (fun e => x2 (ix1 e)) e (Spec.lane h d) := by
  unfold val_main_v21
  refine (GS3.gather3_apply (by decide) gather_S50000x8x16_S1000000x1_S1000000x8x16_12_0_n_n_0_1_1816 rfl rfl rfl rfl rfl
    (val_main_v6 (F := Ideal) x0 x3) (val_main_v20 (F := Ideal) x2) e h d).trans ?_
  rw [v6_at]
  unfold Spec.ks
  refine congrArg (fun n => Spec.qkv _ _ n _) (Fin.ext ?_)
  show min (val_main_v20 (F := Ideal) x2 (ix2 e 0)).toInt.toNat (50000 - 1) = min (Spec.wrapW (x2 (ix1 e))).toInt.toNat 49999
  rw [v20_at]

/-- The gathered values `[1000000, 8, 16]` at (e, h, d). -/
theorem v28_apply (e : Fin 1000000) (h : Fin 8) (d : Fin 16) :
    val_main_v28 (F := Ideal) x0 x2 x3 (ix3 e h d) = Spec.vs (fun n k => x0 (ix2 n k)) (fun j k => x3 (ix2 j k)) (fun e => x2 (ix1 e)) e (Spec.lane h d) := by
  unfold val_main_v28
  refine (GS3.gather3_apply (by decide) gather_S50000x8x16_S1000000x1_S1000000x8x16_12_0_n_n_0_1_1816 rfl rfl rfl rfl rfl
    (val_main_v7 (F := Ideal) x0 x3) (val_main_v27 (F := Ideal) x2) e h d).trans ?_
  rw [v7_at]
  unfold Spec.vs
  refine congrArg (fun n => Spec.qkv _ _ n _) (Fin.ext ?_)
  show min (val_main_v27 (F := Ideal) x2 (ix2 e 0)).toInt.toNat (50000 - 1) = min (Spec.wrapW (x2 (ix1 e))).toInt.toNat 49999
  rw [v27_at]

/-! ## The scores -/

private theorem idx_v30 (e : Fin 1000000) (h : Fin 8) (d : Fin 16) : idx_main_v30 (ix2 e h) d = ix3 e h d :=
  funext fun a => Fin.ext (by match a with | ⟨0, _⟩ => rfl | ⟨1, _⟩ => rfl | ⟨2, _⟩ => rfl)

/-- The raw score `[1000000, 8]` at (e, h): the sum over a head's 16 lanes, the initial word zero dropped. -/
private theorem v30_at (e : Fin 1000000) (h : Fin 8) :
    val_main_v30 (F := Ideal) x0 x1 x2 x3 (ix2 e h)
      = Spec.sc (fun n k => x0 (ix2 n k)) (fun j k => x3 (ix2 j k)) (fun e => x1 (ix1 e)) (fun e => x2 (ix1 e)) e h := by
  rw [val_main_v30_apply, val_main_cst_apply, Ideal.ofBits_def, Ideal.ofBits_zero_f32, zero_add]
  unfold Spec.sc
  refine Finset.sum_congr rfl fun d _ => ?_
  rw [idx_v30, val_main_v29_apply, Ideal.mulf_def, v14_apply, v21_apply]

/-- The exponentiated scores `[1000000, 8]` at (e, h). -/
theorem v39_apply (e : Fin 1000000) (h : Fin 8) :
    val_main_v39 (F := Ideal) x0 x1 x2 x3 (ix2 e h)
      = Spec.ex (fun n k => x0 (ix2 n k)) (fun j k => x3 (ix2 j k)) (fun e => x1 (ix1 e)) (fun e => x2 (ix1 e)) e h := by
  rw [val_main_v39_apply, val_main_v38_apply, val_main_call1_v4_apply, val_main_call1_v3_apply, val_main_cst_9_apply,
    val_main_call1_v2_apply, val_main_call1_v1_apply, val_main_call1_v0_apply, val_main_cst_8_apply,
    val_main_v37_apply, val_main_v34_apply, val_main_v36_apply, val_main_v35_apply, val_main_cst_7_apply,
    val_main_v33_apply, val_main_cst_6_apply, val_main_v32_apply, val_main_v31_apply, val_main_cst_5_apply, v30_at]
  simp only [Ideal.hostUnary_exp_def, Ideal.minimumf_def, Ideal.maximumf_def, Ideal.ofBits_def, Ideal.hostDivf_def,
    Ideal.mulf_def]
  rfl

end Cert.Bridge.RReadA

end
-- ==== Proof.RReadB.lean ====
/-
  THE REFERENCE FROM THE SCORES TO THE RESULT. The per-node sums (a scatter-add into zeros at the source words), their
  gather back per edge at the wrapped source words, the normalised weights, the weighted values by head and lane, their
  per-node sums (a scatter-add of `[1000000, 8, 16]` into `[50000, 8, 16]`), the reshape to `[50000, 128]` and the output
  projection: the specification's `den`, `wt`, `wv`, `agg` and `out`.
-/
import proofs.«429704_j44057774522827_1_alg».proof.Proof.Gen.ReferenceIdeal.Read
import proofs.«429704_j44057774522827_1_alg».proof.Proof.Spec
import proofs.«429704_j44057774522827_1_alg».proof.Proof.LibGatherScatter
import proofs.«429704_j44057774522827_1_alg».proof.Proof.LibGS3
import Idealize.ShloMosaic.Lib.ValueIdx
import Idealize.ShloMosaic.Lib.ValueLayout
import Idealize.ShloMosaic.Lib.Pipeline.Value
import Idealize.ShloMosaic.PureOps.Ideal.Laws
import proofs.«429704_j44057774522827_1_alg».proof.Proof.RReadA

open scoped BigOperators

noncomputable section

namespace Cert.Bridge.RReadB

open Idealize.ShloMosaic Idealize.ShloMosaic.ValueIdx Cert.ReferenceIdeal Cert.ReferenceIdeal.Gen Cert.ReferenceIdeal.Read Cert.Bridge

variable (x0 : (⟨S50000x128, .f32⟩ : BufTy).Contents (Elt Ideal)) (x1 x2 : (⟨S1000000, .i32⟩ : BufTy).Contents (Elt Ideal))
  (x3 : (⟨S384x128, .f32⟩ : BufTy).Contents (Elt Ideal)) (x4 : (⟨S128x128, .f32⟩ : BufTy).Contents (Elt Ideal))

/-! ## The per-node sums -/

private theorem idxcol41 (e : Fin 1000000) : idx_main_v41 (ix2 e 0) = ix1 e :=
  funext fun a => Fin.ext (by match a with | ⟨0, _⟩ => rfl)
private theorem idxcol48 (e : Fin 1000000) : idx_main_v48 (ix2 e 0) = ix1 e :=
  funext fun a => Fin.ext (by match a with | ⟨0, _⟩ => rfl)
private theorem idxcol57 (e : Fin 1000000) : idx_main_v57 (ix2 e 0) = ix1 e :=
  funext fun a => Fin.ext (by match a with | ⟨0, _⟩ => rfl)

/-- The first scatter-add's index column holds the raw source words. -/
private theorem v41_at (e : Fin 1000000) : val_main_v41 (F := Ideal) x1 (ix2 e 0) = x1 (ix1 e) := by
  rw [val_main_v41_apply, idxcol41]

/-- The second scatter-add's index column holds the raw source words. -/
private theorem v57_at (e : Fin 1000000) : val_main_v57 (F := Ideal) x1 (ix2 e 0) = x1 (ix1 e) := by
  rw [val_main_v57_apply, idxcol57]

/-- The per-node sums `[50000, 8]` at (n, h). -/
theorem v42_apply (n : Fin 50000) (h : Fin 8) :
    val_main_v42 (F := Ideal) x0 x1 x2 x3 (ix2 n h)
      = Spec.den (fun n k => x0 (ix2 n k)) (fun j k => x3 (ix2 j k)) (fun e => x1 (ix1 e)) (fun e => x2 (ix1 e)) n h := by
  unfold val_main_v42
  refine (GS.scatterAdd_apply scatter_S50000x8_S1000000x1_S1000000x8_1_0_0_1 rfl rfl rfl rfl
    (val_main_v40 (F := Ideal)) (val_main_v41 (F := Ideal) x1) (val_main_v39 (F := Ideal) x0 x1 x2 x3) n h).trans ?_
  rw [val_main_v40_apply, val_main_cst_10_apply, Ideal.ofBits_def, Ideal.ofBits_zero_f32, zero_add]
  unfold Spec.den Spec.edgesOf
  simp only [v41_at, RReadA.v39_apply]

/-! ## The normalised weights -/

/-- The element-by-element wrap the reference computes (compare with zero, add 50000, select) is `wrapW`. -/
private theorem wrap_eq (r : BitVec 32) :
    Scalar.select (IntOp.cmpi .slt r 0#32) (IntOp.addi r 50000#32) r = Spec.wrapW r := by
  unfold Spec.wrapW Scalar.select IntOp.cmpi IntOp.addi
  by_cases h : r.toInt < 0
  · have hs : r.slt 0#32 = true := by simp [BitVec.slt, h]
    simp [hs, h]
  · have hs : r.slt 0#32 = false := by simp [BitVec.slt, h]
    simp [hs, h]

/-- The index column of the sums' gather holds the wrapped source words. -/
private theorem v48_at (e : Fin 1000000) : val_main_v48 (F := Ideal) x1 (ix2 e 0) = Spec.wrapW (x1 (ix1 e)) := by
  rw [val_main_v48_apply, idxcol48, val_main_v47_apply, val_main_v44_apply, val_main_v46_apply, val_main_v43_apply,
    val_main_v45_apply, val_main_c_11_apply, val_main_c_12_apply]
  exact wrap_eq _

/-- The sums gathered back per edge `[1000000, 8]` at (e, h): the sum of the node the wrapped, clamped source word names. -/
private theorem v49_at (e : Fin 1000000) (h : Fin 8) :
    val_main_v49 (F := Ideal) x0 x1 x2 x3 (ix2 e h)
      = Spec.den (fun n k => x0 (ix2 n k)) (fun j k => x3 (ix2 j k)) (fun e => x1 (ix1 e)) (fun e => x2 (ix1 e))
          (Spec.gidx (x1 (ix1 e))) h := by
  unfold val_main_v49
  refine (GS.gather_apply (by decide) gather_S50000x8_S1000000x1_S1000000x8_1_0_n_n_0_1_18 rfl rfl rfl rfl rfl
    (val_main_v42 (F := Ideal) x0 x1 x2 x3) (val_main_v48 (F := Ideal) x1) e h).trans ?_
  rw [v42_apply]
  refine congrArg (fun n => Spec.den _ _ _ _ n _) (Fin.ext ?_)
  show min (val_main_v48 (F := Ideal) x1 (ix2 e 0)).toInt.toNat (50000 - 1) = min (Spec.wrapW (x1 (ix1 e))).toInt.toNat 49999
  rw [v48_at]

/-- The weights `[1000000, 8]` at (e, h). -/
private theorem v52_at (e : Fin 1000000) (h : Fin 8) :
    val_main_v52 (F := Ideal) x0 x1 x2 x3 (ix2 e h)
      = Spec.wt (fun n k => x0 (ix2 n k)) (fun j k => x3 (ix2 j k)) (fun e => x1 (ix1 e)) (fun e => x2 (ix1 e)) e h := by
  rw [val_main_v52_apply, Ideal.hostDivf_def, val_main_v51_apply, Ideal.addf_def, val_main_v50_apply,
    val_main_cst_13_apply, Ideal.ofBits_def, v49_at, RReadA.v39_apply]
  rfl

/-! ## The weighted values and their per-node sums -/

private theorem idx_v54 (e : Fin 1000000) (h : Fin 8) (d : Fin 16) : idx_main_v54 (ix3 e h d) = ix3 e h 0 :=
  funext fun a => Fin.ext (by match a with | ⟨0, _⟩ => rfl | ⟨1, _⟩ => rfl | ⟨2, _⟩ => rfl)
private theorem idx_v53 (e : Fin 1000000) (h : Fin 8) : idx_main_v53 (ix3 e h 0) = ix2 e h :=
  funext fun a => Fin.ext (by match a with | ⟨0, _⟩ => rfl | ⟨1, _⟩ => rfl)

/-- A lane's head. -/
private theorem headOf_lane (h : Fin 8) (d : Fin 16) : Spec.headOf (Spec.lane h d) = h :=
  Fin.ext (by have hh := h.isLt; have hd := d.isLt; show (16 * h.val + d.val) / 16 = h.val; omega)

/-- The weighted values `[1000000, 8, 16]` at (e, h, d). -/
theorem v55_apply (e : Fin 1000000) (h : Fin 8) (d : Fin 16) :
    val_main_v55 (F := Ideal) x0 x1 x2 x3 (ix3 e h d)
      = Spec.wv (fun n k => x0 (ix2 n k)) (fun j k => x3 (ix2 j k)) (fun e => x1 (ix1 e)) (fun e => x2 (ix1 e)) e (Spec.lane h d) := by
  rw [val_main_v55_apply, Ideal.mulf_def, val_main_v54_apply, idx_v54, val_main_v53_apply, idx_v53, v52_at,
    RReadA.v28_apply]
  unfold Spec.wv
  rw [headOf_lane]

/-- The aggregate `[50000, 8, 16]` at (n, h, d). -/
private theorem v58_at (n : Fin 50000) (h : Fin 8) (d : Fin 16) :
    val_main_v58 (F := Ideal) x0 x1 x2 x3 (ix3 n h d)
      = Spec.agg (fun n k => x0 (ix2 n k)) (fun j k => x3 (ix2 j k)) (fun e => x1 (ix1 e)) (fun e => x2 (ix1 e)) n (Spec.lane h d) := by
  unfold val_main_v58
  refine (GS3.scatterAdd3_apply scatter_S50000x8x16_S1000000x1_S1000000x8x16_12_0_0_1 rfl rfl rfl rfl
    (val_main_v56 (F := Ideal)) (val_main_v57 (F := Ideal) x1) (val_main_v55 (F := Ideal) x0 x1 x2 x3) n h d).trans ?_
  rw [val_main_v56_apply, val_main_cst_14_apply, Ideal.ofBits_def, Ideal.ofBits_zero_f32, zero_add]
  unfold Spec.agg Spec.edgesOf
  simp only [v57_at, v55_apply]

/-- Row-major arithmetic of the reshape [50000, 8, 16] → [50000, 128]: column j is lane j mod 16 of head j / 16. -/
private theorem idx_v59 (n : Fin 50000) (j : Fin 128) :
    idx_main_v59 (ix2 n j) = ix3 n (Spec.headOf j) (⟨j.val % 16, Nat.mod_lt _ (by decide)⟩ : Fin 16) :=
  funext fun a => Fin.ext (by
    have hn := n.isLt; have hj := j.isLt
    match a with
    | ⟨0, _⟩ => show (n.val * 128 + j.val) / 128 = n.val; omega
    | ⟨1, _⟩ => show (n.val * 128 + j.val) / 16 % 8 = j.val / 16; omega
    | ⟨2, _⟩ => show (n.val * 128 + j.val) % 16 = j.val % 16; omega)

private theorem lane_headOf (j : Fin 128) :
    Spec.lane (Spec.headOf j) (⟨j.val % 16, Nat.mod_lt _ (by decide)⟩ : Fin 16) = j :=
  Fin.ext (by have hj := j.isLt; show 16 * (j.val / 16) + j.val % 16 = j.val; omega)

/-- The aggregate reshaped to `[50000, 128]` at (n, j). -/
theorem v59_apply (n : Fin 50000) (j : Fin 128) :
    val_main_v59 (F := Ideal) x0 x1 x2 x3 (ix2 n j)
      = Spec.agg (fun n k => x0 (ix2 n k)) (fun j k => x3 (ix2 j k)) (fun e => x1 (ix1 e)) (fun e => x2 (ix1 e)) n j := by
  rw [val_main_v59_apply, idx_v59, v58_at, lane_headOf]

/-! ## The output projection -/

private theorem idx_v60 (k c : Fin 128) : idx_main_v60 (ix2 k c) = ix2 c k :=
  funext fun a => Fin.ext (by match a with | ⟨0, _⟩ => rfl | ⟨1, _⟩ => rfl)
private theorem lidx_v61 (n : Fin 50000) (c k : Fin 128) : lidx_main_v61 (ix2 n c) k = ix2 n k :=
  funext fun a => Fin.ext (by match a with | ⟨0, _⟩ => rfl | ⟨1, _⟩ => rfl)
private theorem ridx_v61 (n : Fin 50000) (c k : Fin 128) : ridx_main_v61 (ix2 n c) k = ix2 k c :=
  funext fun a => Fin.ext (by match a with | ⟨0, _⟩ => rfl | ⟨1, _⟩ => rfl)

/-- THE REFERENCE'S RESULT is the specification's. -/
theorem ref_eq (n : Fin 50000) (c : Fin 128) :
    val_main_v61 (F := Ideal) x0 x1 x2 x3 x4 (ix2 n c)
      = Spec.out (fun n k => x0 (ix2 n k)) (fun j k => x3 (ix2 j k)) (fun c j => x4 (ix2 c j)) (fun e => x1 (ix1 e)) (fun e => x2 (ix1 e)) n c := by
  rw [val_main_v61_apply]
  unfold Spec.out
  refine Finset.sum_congr rfl fun k _ => ?_
  rw [lidx_v61, ridx_v61, v59_apply, val_main_v60_apply, idx_v60]

end Cert.Bridge.RReadB

end
-- ==== Proof.lean ====
/-
  THE CLAIM: edge-wise multi-head graph attention as four tiled launches with host gathers and scatter-adds between
  them, against its plain reference, equal over the extended reals wherever the float inputs are finite and every
  target word `col e` lies in `[-50000, 50000)`.

  Both programs compute, for node `n` and output column `c`, `out n c = ∑ j, agg n j * W_out[c, j]`, where `agg` sums over
  the edges whose source word IS the node `n` the weighted value `wt e (j / 16) * V[col e, j]`, `wt = ex / (den + eps)`,
  `den` the sum of `ex` over the same edges, and `ex = exp (clip (leaky (q·k / 4)))` per head (Proof/Spec.lean).
  * The reference reads `Q[row]`, `K[col]`, `V[col]`, `den[row]` by gathers that wrap a negative number and clamp the
    start index (Proof/RReadA.lean, Proof/RReadB.lean over the generated read-at-an-index lemmas, the gathers and
    scatter-adds read by Proof/LibGatherScatter.lean and Proof/LibGS3.lean).
  * The kernel reads them by `jnp.take`, which fills a row whose wrapped number is no row of the table with a NaN word. A
    scatter-add drops an edge whose source word is no row number, so only edges with `0 ≤ row e < 50000` reach a sum, and
    on those every source-word take is in range; the target-word takes are in range by the precondition
    (Proof/KTake.lean, Proof/KMathA.lean .. KMathC.lean, Proof/Pre.lean). The kernel scales a score by the word 0.25
    where the reference divides by the word 4.0: one function on the extended reals.
  * What the kernel's result buffer holds is read off the generated frame: each launch's output array as one whole-array
    function of its input arrays (Proof/KReg0.lean .. KReg3.lean), the buffers walked through the host stretches
    between the launches (Proof/KFoldA.lean .. KFoldC.lean), and the run restated with the result buffer named
    (Proof/KRun.lean).
  The three frames are the generated ones (the reference's is its generated run with the result dropped); the ideal pass
  rewrote nothing, so `preserves` is `True`.
-/
import proofs.«429704_j44057774522827_1_alg».proof.Defs
import proofs.«429704_j44057774522827_1_alg».proof.Proof.Gen.Kernel
import proofs.«429704_j44057774522827_1_alg».proof.Proof.Gen.Kernel.Skeleton
import proofs.«429704_j44057774522827_1_alg».proof.Proof.Gen.Kernel.Launch
import proofs.«429704_j44057774522827_1_alg».proof.Proof.Gen.Kernel.Points
import proofs.«429704_j44057774522827_1_alg».proof.Proof.Gen.Kernel.Frame
import proofs.«429704_j44057774522827_1_alg».proof.Proof.Gen.KernelIdeal
import proofs.«429704_j44057774522827_1_alg».proof.Proof.Gen.KernelIdeal.Skeleton
import proofs.«429704_j44057774522827_1_alg».proof.Proof.Gen.KernelIdeal.Launch
import proofs.«429704_j44057774522827_1_alg».proof.Proof.Gen.KernelIdeal.Points
import proofs.«429704_j44057774522827_1_alg».proof.Proof.Gen.KernelIdeal.Frame
import proofs.«429704_j44057774522827_1_alg».proof.Proof.Gen.ReferenceIdeal
import proofs.«429704_j44057774522827_1_alg».proof.Proof.Gen.ReferenceIdeal.Run
import proofs.«429704_j44057774522827_1_alg».proof.Proof.Gen.ReferenceIdeal.Read
import proofs.«429704_j44057774522827_1_alg».proof.Proof.Gen.Pre_finite_inputs
import proofs.«429704_j44057774522827_1_alg».proof.Proof.KRun
import proofs.«429704_j44057774522827_1_alg».proof.Proof.KFoldC
import proofs.«429704_j44057774522827_1_alg».proof.Proof.KMathC
import proofs.«429704_j44057774522827_1_alg».proof.Proof.Pre
import proofs.«429704_j44057774522827_1_alg».proof.Proof.RReadB
import Idealize.ShloMosaic.Adequacy
import Idealize.ShloMosaic.Init

noncomputable section

namespace Cert.Proof

open Idealize.ShloMosaic Idealize.ShloMosaic.TcCoe Idealize.ShloMosaic.ValueIdx Idealize.SL.Sem

/-- The two results are one array: the reference's result term, read at the kernel's arguments (the memories agree on
    them), and the kernel's result buffer at its last boundary are both the specification's `out`, index by index; the
    kernel's side uses the target words' range, read off the precondition. -/
theorem result_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (c : Dev Cert.KernelIdeal.nD) :
    Cert.ReferenceIdeal.Value.res_main_v61 (F := Ideal) m' c
      = Cert.KernelIdeal.Gen.W12 (F := Ideal) m ρ c (Proc.devRef .tc Cert.KernelIdeal.main_v22) := by
  rw [Cert.ReferenceIdeal.Read.val_main_v61_eq, (hagree c).1, (hagree c).2.1, (hagree c).2.2.1, (hagree c).2.2.2.1,
    (hagree c).2.2.2.2, Cert.Bridge.KFoldC.result]
  funext i
  obtain ⟨n, j, rfl⟩ : ∃ (n : Fin 50000) (j : Fin 128), i = ix2 n j := ⟨i 0, i 1, eq_ix2 i⟩
  rw [Cert.Bridge.RReadB.ref_eq,
    Cert.Bridge.KMathC.kout_eq _ _ _ _ _ (fun e => Cert.Bridge.Pre.col_range m hpre c e)]

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to preserve. -/
theorem preserves : Cert.preserves_Kernel_KernelIdeal := trivial

/-- Both idealized programs run, and end with one result: the kernel's run names its result buffer at the last
    boundary's contents, the reference's generated run its result term, and the two are equal (`result_eq`). -/
theorem algebraic : Cert.algebraic_KernelIdeal_ReferenceIdeal := by
  intro m ρ m' ρ' hpre hagree
  refine ⟨_, Cert.Bridge.KRun.run_named (F := Ideal) m ρ, ?_⟩
  refine (θ_run Cert.ReferenceIdeal.defs _ _).mono (fun _ h c => ⟨(h c).1.trans ?_, (h c).2⟩)
    (Cert.ReferenceIdeal.Value.run (F := Ideal) m' ρ')
  exact result_eq m ρ m' hpre hagree c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
